-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x4 : Shape := ⟨2, ![50000, 4]⟩
abbrev S2x1000000 : Shape := ⟨2, ![2, 1000000]⟩
abbrev S50000 : Shape := ⟨1, ![50000]⟩
abbrev S4x64 : Shape := ⟨2, ![4, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S50000x4 : S_.BroadcastsInDim S50000x4 (![] : Fin 0 → Fin S50000x4.rank)
  reducesTo_S50000x4_S_d0_1 : S50000x4.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S64 .f32) (main_arg7 : FVec F S64x1 .f32) (main_arg8 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg7
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x4 .f32) (main_arg1 : IVec S2x1000000 32) (main_arg2 : IVec S50000 32) (main_arg3 : FVec F S4x64 .f32) (main_arg4 : FVec F S64 .f32) (main_arg5 : FVec F S64x64 .f32) (main_arg6 : FVec F S64 .f32) (main_arg7 : FVec F S64x1 .f32) (main_arg8 : FVec F S1 .f32) : IVec S_ 1 :=
  let main_v0 : FVec F S50000x4 .f32 := Host.absf main_arg0
  let main_cst : FVec F S_ .f32 := constant S_ .f32 0x7F800000#32
  let main_v1 : FVec F S50000x4 .f32 := broadcastInDim S50000x4 ![] bcast_S_S50000x4 main_cst
  let main_v2 : IVec S50000x4 1 := cmpf .olt main_v0 main_v1
  let main_c : IVec S_ 1 := constantI S_ 1 1#1
  let main_v3 : IVec S_ 1 := (fun x v => Host.reduce IntOp.andi x v reducesTo_S50000x4_S_d0_1 h_S_) main_v2 main_c
  let main_v4 : FVec F S4x64 .f32 := Host.absf main_arg3
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S50000x4 : Shape := ⟨2, ![50000, 4]⟩
abbrev S2x1000000 : Shape := ⟨2, ![2, 1000000]⟩
abbrev S50000 : Shape := ⟨1, ![50000]⟩
abbrev S4x64 : Shape := ⟨2, ![4, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S1050000 : Shape := ⟨1, ![1050000]⟩
abbrev S_ : Shape := ⟨0, ![]⟩
abbrev S1050000x1 : Shape := ⟨2, ![1050000, 1]⟩
abbrev S50000x1 : Shape := ⟨2, ![50000, 1]⟩
abbrev S50000x64 : Shape := ⟨2, ![50000, 64]⟩
abbrev S5000x4 : Shape := ⟨2, ![5000, 4]⟩
abbrev S5000x1 : Shape := ⟨2, ![5000, 1]⟩
abbrev S5000x64 : Shape := ⟨2, ![5000, 64]⟩
abbrev S1050000x64 : Shape := ⟨2, ![1050000, 64]⟩
abbrev S1x64 : Shape := ⟨2, ![1, 64]⟩
abbrev S500x64 : Shape := ⟨2, ![500, 64]⟩
abbrev S500 : Shape := ⟨1, ![500]⟩
abbrev S500x1 : Shape := ⟨2, ![500, 1]⟩
abbrev S1x1 : Shape := ⟨2, ![1, 1]⟩

abbrev nBuf : Space → Nat
  | .hbm => 79
  | .vmem => 33
  | .smem => 0
  | _ => 0

abbrev bufTy : (tb : Table) → Fin (tcTables nBuf tb) → BufTy
  | .hbm, ⟨0, _⟩ => ⟨S50000x4, .f32⟩
  | .hbm, ⟨1, _⟩ => ⟨S2x1000000, .i32⟩
  | .hbm, ⟨2, _⟩ => ⟨S50000, .i32⟩
  | .hbm, ⟨3, _⟩ => ⟨S4x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S1x1000000, .i32⟩
  | .hbm, ⟨10, _⟩ => ⟨S1000000, .i32⟩
  | .hbm, ⟨11, _⟩ => ⟨S1x1000000, .i32⟩
  | .hbm, ⟨12, _⟩ => ⟨S1000000, .i32⟩
  | .hbm, ⟨13, _⟩ => ⟨S50000, .i32⟩
  | .hbm, ⟨14, _⟩ => ⟨S1050000, .i32⟩
  | .hbm, ⟨15, _⟩ => ⟨S1050000, .i32⟩
  | .hbm, ⟨16, _⟩ => ⟨S_, .f32⟩
  | .hbm, ⟨17, _⟩ => ⟨S1050000, .f32⟩
  | .hbm, ⟨18, _⟩ => ⟨S_, .f32⟩
  | .hbm, ⟨19, _⟩ => ⟨S50000, .f32⟩
  | .hbm, ⟨20, _⟩ => ⟨S1050000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x64, .f32⟩
  | .hbm, ⟨35, _⟩ => ⟨S_, .i32⟩
  | .hbm, ⟨36, _⟩ => ⟨S1050000, .i32⟩
  | .hbm, ⟨37, _⟩ => ⟨S1050000, .i1⟩
  | .hbm, ⟨38, _⟩ => ⟨S_, .i32⟩
  | .hbm, ⟨39, _⟩ => ⟨S1050000, .i32⟩
  | .hbm, ⟨40, _⟩ => ⟨S1050000, .i32⟩
  | .hbm, ⟨41, _⟩ => ⟨S1050000, .i32⟩
  | .hbm, ⟨42, _⟩ => ⟨S1050000x1, .i32⟩
  | .hbm, ⟨43, _⟩ => ⟨S1050000x64, .f32⟩
  | .hbm, ⟨44, _⟩ => ⟨S_, .f32⟩
  | .hbm, ⟨45, _⟩ => ⟨S50000x64, .f32⟩
  | .hbm, ⟨46, _⟩ => ⟨S1050000x1, .i32⟩
  | .hbm, ⟨47, _⟩ => ⟨S50000x64, .f32⟩
  | .hbm, ⟨48, _⟩ => ⟨S1x64, .f32⟩
  | .hbm, ⟨49, _⟩ => ⟨S50000x64, .f32⟩
  | .hbm, ⟨50, _⟩ => ⟨S50000x64, .f32⟩
  | .hbm, ⟨51, _⟩ => ⟨S_, .i32⟩
  | .hbm, ⟨52, _⟩ => ⟨S1050000, .i32⟩
  | .hbm, ⟨53, _⟩ => ⟨S1050000, .i1⟩
  | .hbm, ⟨54, _⟩ => ⟨S_, .i32⟩
  | .hbm, ⟨55, _⟩ => ⟨S1050000, .i32⟩
  | .hbm, ⟨56, _⟩ => ⟨S1050000, .i32⟩
  | .hbm, ⟨57, _⟩ => ⟨S1050000, .i32⟩
  | .hbm, ⟨58, _⟩ => ⟨S1050000x1, .i32⟩
  | .hbm, ⟨59, _⟩ => ⟨S1050000x64, .f32⟩
  | .hbm, ⟨60, _⟩ => ⟨S_, .f32⟩
  | .hbm, ⟨61, _⟩ => ⟨S50000x64, .f32⟩
  | .hbm, ⟨62, _⟩ => ⟨S1050000x1, .i32⟩
  | .hbm, ⟨63, _⟩ => ⟨S50000x64, .f32⟩
  | .hbm, ⟨64, _⟩ => ⟨S1x64, .f32⟩
  | .hbm, ⟨65, _⟩ => ⟨S50000x64, .f32⟩
  | .hbm, ⟨66, _⟩ => ⟨S_, .f32⟩
  | .hbm, ⟨67, _⟩ => ⟨S500x64, .f32⟩
  | .hbm, ⟨68, _⟩ => ⟨S50000x1, .i32⟩
  | .hbm, ⟨69, _⟩ => ⟨S500x64, .f32⟩
  | .hbm, ⟨70, _⟩ => ⟨S_, .f32⟩
  | .hbm, ⟨71, _⟩ => ⟨S50000, .f32⟩
  | .hbm, ⟨72, _⟩ => ⟨S_, .f32⟩
  | .hbm, ⟨73, _⟩ => ⟨S500, .f32⟩
  | .hbm, ⟨74, _⟩ => ⟨S50000x1, .i32⟩
  | .hbm, ⟨75, _⟩ => ⟨S500, .f32⟩
  | .hbm, ⟨76, _⟩ => ⟨S500x1, .f32⟩
  | .hbm, ⟨77, _⟩ => ⟨S1x1, .f32⟩
  | .hbm, ⟨78, _⟩ => ⟨S500x1, .f32⟩
  | .local _ .vmem, ⟨0, _⟩ => ⟨S5000x4, .f32⟩
  | .local _ .vmem, ⟨1, _⟩ => ⟨S5000x4, .f32⟩
  | .local _ .vmem, ⟨2, _⟩ => ⟨S4x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S5000x1, .f32⟩
  | .local _ .vmem, ⟨18, _⟩ => ⟨S5000x1, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S500x64, .f32⟩
  | .local _ .vmem, ⟨29, _⟩ => ⟨S500x1, .f32⟩
  | .local _ .vmem, ⟨30, _⟩ => ⟨S64x1, .f32⟩
  | .local _ .vmem, ⟨31, _⟩ => ⟨S1x1, .f32⟩
  | .local _ .vmem, ⟨32, _⟩ => ⟨S500x1, .f32⟩
  | _, _ => ⟨S50000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_cst_11 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem1_0 : DmaSem sig := 29
abbrev cc4_sem2_0 : DmaSem sig := 30
abbrev cc4_sem3_0 : DmaSem sig := 31
abbrev cc4_sem4_0 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S500x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S500x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S500x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S50000_S1050000_d0 : Shape.Concatenates [S1000000, S50000] S1050000 0
  bcast_S_S1050000 : S_.BroadcastsInDim S1050000 (![] : Fin 0 → Fin S1050000.rank)
  bcast_S_S50000 : S_.BroadcastsInDim S50000 (![] : Fin 0 → Fin S50000.rank)
  bcast_S1050000_S1050000x1_0 : S1050000.BroadcastsInDim S1050000x1 (![0] : Fin 1 → Fin S1050000x1.rank)
  shapeCasts_S50000_S50000x1 : S50000.ShapeCasts S50000x1
  inb_S5000x4_S5000x4_0_0 : ∀ a, (![0, 0] : Fin 2 → Nat) a + S5000x4.size a ≤ S5000x4.size a
  h_S5000x4 : 0 < S5000x4.numel
  bitsLt_bf16_f32 : FTy.bits .bf16 < FTy.bits .f32
  inb_S4x64_S4x64_0_0 : ∀ a, (![0, 0] : Fin 2 → Nat) a + S4x64.size a ≤ S4x64.size a
  h_S4x64 : 0 < S4x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  bcast_S_S500x64 : S_.BroadcastsInDim S500x64 (![] : Fin 0 → Fin S500x64.rank)
  bcast_S50000_S50000x1_0 : S50000.BroadcastsInDim S50000x1 (![0] : Fin 1 → Fin S50000x1.rank)
  bcast_S_S500 : S_.BroadcastsInDim S500 (![] : Fin 0 → Fin S500.rank)
  shapeCasts_S500_S500x1 : S500.ShapeCasts S500x1
  shapeCasts_S1_S1x1 : S1.ShapeCasts S1x1
  inb_S500x64_S500x64_0_0 : ∀ a, (![0, 0] : Fin 2 → Nat) a + S500x64.size a ≤ S500x64.size a
  h_S500x64 : 0 < S500x64.numel
  shapeCasts_S500x64_S500x64 : S500x64.ShapeCasts S500x64
  inb_S500x1_S500x1_0_0 : ∀ a, (![0, 0] : Fin 2 → Nat) a + S500x1.size a ≤ S500x1.size a
  h_S500x1 : 0 < S500x1.numel
  shapeCasts_S500x1_S500x1 : S500x1.ShapeCasts S500x1
  broadcasts_S500x1_S500x64 : S500x1.Broadcasts S500x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S500x1 : S1x1.Broadcasts S500x1
  scatter_S50000_S1050000x1_S1050000_n_0_0_1_wf : ScatterDims.WF S50000 S1050000x1 S1050000 [] [0] [0] 1
  dot_S5000x4_S4x64_S5000x64_1_0_0_1_n_n_wf : DotDims.WF S5000x4 S4x64 S5000x64 [1] [0] [0] [1] [] []
  gather_S50000x64_S1050000x1_S1050000x64_1_0_n_n_0_1_164_wf : GatherDims.WF S50000x64 S1050000x1 S1050000x64 [1] [0] [] [0] [] 1 ![1, 64]
  scatter_S50000x64_S1050000x1_S1050000x64_1_0_0_1_wf : ScatterDims.WF S50000x64 S1050000x1 S1050000x64 [1] [0] [0] 1
  dot_S5000x64_S64x64_S5000x64_1_0_0_1_n_n_wf : DotDims.WF S5000x64 S64x64 S5000x64 [1] [0] [0] [1] [] []
  scatter_S500x64_S50000x1_S50000x64_1_0_0_1_wf : ScatterDims.WF S500x64 S50000x1 S50000x64 [1] [0] [0] 1
  scatter_S500_S50000x1_S50000_n_0_0_1_wf : ScatterDims.WF S500 S50000x1 S50000 [] [0] [0] 1
  dot_S500x64_S64x1_S500x1_1_0_0_1_n_n_wf : DotDims.WF S500x64 S64x1 S500x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x4.size a ≤ S50000x4.size a
  hwx0_0 : ∀ i : grid0.Coords, EltTy.bits .f32 = 32 ∨ (Rect.block (s := S50000x4) S5000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64.size a ≤ S4x64.size a
  hwx0_1 : ∀ i : grid0.Coords, EltTy.bits .f32 = 32 ∨ (Rect.block (s := S4x64) S4x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S500x64.size a ≤ S500x64.size a
  hwx4_0 : ∀ i : grid4.Coords, EltTy.bits .f32 = 32 ∨ (Rect.block (s := S500x64) S500x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S500x1.size a ≤ S500x1.size a
  hwx4_1 : ∀ i : grid4.Coords, EltTy.bits .f32 = 32 ∨ (Rect.block (s := S500x1) S500x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x1.size a ≤ S64x1.size a
  hwx4_2 : ∀ i : grid4.Coords, EltTy.bits .f32 = 32 ∨ (Rect.block (s := S64x1) S64x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x1.size a ≤ S1x1.size a
  hwx4_3 : ∀ i : grid4.Coords, EltTy.bits .f32 = 32 ∨ (Rect.block (s := S1x1) S1x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S500x1.size a ≤ S500x1.size a
  hwx4_4 : ∀ i : grid4.Coords, EltTy.bits .f32 = 32 ∨ (Rect.block (s := S500x1) S500x1.size (cc4_transform_4 i) (hinb4_4 i)).WholeWords (EltTy.packing .f32)

variable [Facts₀]

def scatter_S50000_S1050000x1_S1050000_n_0_0_1 : ScatterDims S50000 S1050000x1 S1050000 where
  updateWindowDims := []
  insertedWindowDims := [0]
  scatterDimsToOperandDims := [0]
  indexVectorDim := 1
  wf := scatter_S50000_S1050000x1_S1050000_n_0_0_1_wf
def dot_S5000x4_S4x64_S5000x64_1_0_0_1_n_n : DotDims S5000x4 S4x64 S5000x64 where
  lhsContracting := [1]
  rhsContracting := [0]
  lhsNonContracting := [0]
  rhsNonContracting := [1]
  lhsBatch := []
  rhsBatch := []
  wf := dot_S5000x4_S4x64_S5000x64_1_0_0_1_n_n_wf
def gather_S50000x64_S1050000x1_S1050000x64_1_0_n_n_0_1_164 : GatherDims S50000x64 S1050000x1 S1050000x64 where
  offsetDims := [1]
  collapsedSliceDims := [0]
  operandBatchingDims := []
  startIndicesBatchingDims := []
  startIndexMap := [0]
  indexVectorDim := 1
  sliceSizes := ![1, 64]
  wf := gather_S50000x64_S1050000x1_S1050000x64_1_0_n_n_0_1_164_wf
def scatter_S50000x64_S1050000x1_S1050000x64_1_0_0_1 : ScatterDims S50000x64 S1050000x1 S1050000x64 where
  updateWindowDims := [1]
  insertedWindowDims := [0]
  scatterDimsToOperandDims := [0]
  indexVectorDim := 1
  wf := scatter_S50000x64_S1050000x1_S1050000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S500x64_S50000x1_S50000x64_1_0_0_1 : ScatterDims S500x64 S50000x1 S50000x64 where
  updateWindowDims := [1]
  insertedWindowDims := [0]
  scatterDimsToOperandDims := [0]
  indexVectorDim := 1
  wf := scatter_S500x64_S50000x1_S50000x64_1_0_0_1_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def dot_S500x64_S64x1_S500x1_1_0_0_1_n_n : DotDims S500x64 S64x1 S500x1 where
  lhsContracting := [1]
  rhsContracting := [0]
  lhsNonContracting := [0]
  rhsNonContracting := [1]
  lhsBatch := []
  rhsBatch := []
  wf := dot_S500x64_S64x1_S500x1_1_0_0_1_n_n_wf

abbrev win0_0 : Pipeline.Window sig grid0 :=
  Pipeline.Window.ofSpec (Memref.whole main_arg0) S5000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v30) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v31) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v41) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v43) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v46) S500x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v51) S500x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S64x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v52) S1x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v53) S500x1.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S50000x4 : Shape := ⟨2, ![50000, 4]⟩
abbrev S2x1000000 : Shape := ⟨2, ![2, 1000000]⟩
abbrev S50000 : Shape := ⟨1, ![50000]⟩
abbrev S4x64 : Shape := ⟨2, ![4, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S50000x64 : Shape := ⟨2, ![50000, 64]⟩
abbrev S1050000 : Shape := ⟨1, ![1050000]⟩
abbrev S_ : Shape := ⟨0, ![]⟩
abbrev S1050000x1 : Shape := ⟨2, ![1050000, 1]⟩
abbrev S1050000x64 : Shape := ⟨2, ![1050000, 64]⟩
abbrev S1x64 : Shape := ⟨2, ![1, 64]⟩
abbrev S500x64 : Shape := ⟨2, ![500, 64]⟩
abbrev S50000x1 : Shape := ⟨2, ![50000, 1]⟩
abbrev S500 : Shape := ⟨1, ![500]⟩
abbrev S500x1 : Shape := ⟨2, ![500, 1]⟩
abbrev S1x1 : Shape := ⟨2, ![1, 1]⟩

abbrev nBuf : Space → Nat
  | .hbm => 181
  | .vmem => 0
  | .smem => 0
  | _ => 0

abbrev hbmTy0_0 (i : Nat) : BufTy := match i % 128 with
  | 0 => ⟨S50000x4, .f32⟩
  | 1 => ⟨S2x1000000, .i32⟩
  | 2 => ⟨S50000, .i32⟩
  | 3 => ⟨S4x64, .f32⟩
  | 4 => ⟨S64, .f32⟩
  | 5 => ⟨S64x64, .f32⟩
  | 6 => ⟨S64, .f32⟩
  | 7 => ⟨S64x1, .f32⟩
  | 8 => ⟨S1, .f32⟩
  | 9 => ⟨S1x1000000, .i32⟩
  | 10 => ⟨S1000000, .i32⟩
  | 11 => ⟨S1x1000000, .i32⟩
  | 12 => ⟨S1000000, .i32⟩
  | 13 => ⟨S50000x64, .f32⟩
  | 14 => ⟨S50000, .i32⟩
  | 15 => ⟨S1050000, .i32⟩
  | 16 => ⟨S1050000, .i32⟩
  | 17 => ⟨S_, .f32⟩
  | 18 => ⟨S1050000, .f32⟩
  | 19 => ⟨S_, .f32⟩
  | 20 => ⟨S50000, .f32⟩
  | 21 => ⟨S1050000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S1050000, .i32⟩
  | 36 => ⟨S1050000, .i1⟩
  | 37 => ⟨S_, .i32⟩
  | 38 => ⟨S1050000, .i32⟩
  | 39 => ⟨S1050000, .i32⟩
  | 40 => ⟨S1050000, .i32⟩
  | 41 => ⟨S1050000x1, .i32⟩
  | 42 => ⟨S1050000, .f32⟩
  | 43 => ⟨S_, .i32⟩
  | 44 => ⟨S1050000, .i32⟩
  | 45 => ⟨S1050000, .i1⟩
  | 46 => ⟨S_, .i32⟩
  | 47 => ⟨S1050000, .i32⟩
  | 48 => ⟨S1050000, .i32⟩
  | 49 => ⟨S1050000, .i32⟩
  | 50 => ⟨S1050000x1, .i32⟩
  | 51 => ⟨S1050000, .f32⟩
  | 52 => ⟨S1050000, .f32⟩
  | 53 => ⟨S_, .i32⟩
  | 54 => ⟨S1050000, .i32⟩
  | 55 => ⟨S1050000, .i1⟩
  | 56 => ⟨S_, .i32⟩
  | 57 => ⟨S1050000, .i32⟩
  | 58 => ⟨S1050000, .i32⟩
  | 59 => ⟨S1050000, .i32⟩
  | 60 => ⟨S1050000x1, .i32⟩
  | 61 => ⟨S1050000x64, .f32⟩
  | 62 => ⟨S1050000x1, .f32⟩
  | 63 => ⟨S1050000x64, .f32⟩
  | 64 => ⟨S1050000x64, .f32⟩
  | 65 => ⟨S_, .f32⟩
  | 66 => ⟨S50000x64, .f32⟩
  | 67 => ⟨S1050000x1, .i32⟩
  | 68 => ⟨S50000x64, .f32⟩
  | 69 => ⟨S1x64, .f32⟩
  | 70 => ⟨S50000x64, .f32⟩
  | 71 => ⟨S50000x64, .f32⟩
  | 72 => ⟨S_, .f32⟩
  | 73 => ⟨S50000x64, .f32⟩
  | 74 => ⟨S50000x64, .i1⟩
  | 75 => ⟨S_, .f32⟩
  | 76 => ⟨S50000x64, .f32⟩
  | 77 => ⟨S50000x64, .i1⟩
  | 78 => ⟨S_, .f32⟩
  | 79 => ⟨S_, .f32⟩
  | 80 => ⟨S50000x64, .f32⟩
  | 81 => ⟨S50000x64, .f32⟩
  | 82 => ⟨S50000x64, .f32⟩
  | 83 => ⟨S_, .f32⟩
  | 84 => ⟨S50000x64, .f32⟩
  | 85 => ⟨S50000x64, .f32⟩
  | 86 => ⟨S50000x64, .f32⟩
  | 87 => ⟨S50000x64, .f32⟩
  | 88 => ⟨S50000, .i32⟩
  | 89 => ⟨S1050000, .i32⟩
  | 90 => ⟨S1050000, .i32⟩
  | 91 => ⟨S_, .f32⟩
  | 92 => ⟨S1050000, .f32⟩
  | 93 => ⟨S_, .f32⟩
  | 94 => ⟨S50000, .f32⟩
  | 95 => ⟨S1050000x1, .i32⟩
  | 96 => ⟨S50000, .f32⟩
  | 97 => ⟨S_, .f32⟩
  | 98 => ⟨S50000, .f32⟩
  | 99 => ⟨S50000, .i1⟩
  | 100 => ⟨S_, .f32⟩
  | 101 => ⟨S50000, .f32⟩
  | 102 => ⟨S50000, .f32⟩
  | 103 => ⟨S50000, .f32⟩
  | 104 => ⟨S_, .f32⟩
  | 105 => ⟨S_, .f32⟩
  | 106 => ⟨S50000, .f32⟩
  | 107 => ⟨S50000, .f32⟩
  | 108 => ⟨S_, .i32⟩
  | 109 => ⟨S1050000, .i32⟩
  | 110 => ⟨S1050000, .i1⟩
  | 111 => ⟨S_, .i32⟩
  | 112 => ⟨S1050000, .i32⟩
  | 113 => ⟨S1050000, .i32⟩
  | 114 => ⟨S1050000, .i32⟩
  | 115 => ⟨S1050000x1, .i32⟩
  | 116 => ⟨S1050000, .f32⟩
  | 117 => ⟨S_, .i32⟩
  | 118 => ⟨S1050000, .i32⟩
  | 119 => ⟨S1050000, .i1⟩
  | 120 => ⟨S_, .i32⟩
  | 121 => ⟨S1050000, .i32⟩
  | 122 => ⟨S1050000, .i32⟩
  | 123 => ⟨S1050000, .i32⟩
  | 124 => ⟨S1050000x1, .i32⟩
  | 125 => ⟨S1050000, .f32⟩
  | 126 => ⟨S1050000, .f32⟩
  | 127 => ⟨S_, .i32⟩
  | _ => ⟨S50000x4, .f32⟩

abbrev hbmTy0_1 (i : Nat) : BufTy := match i % 128 with
  | 0 => ⟨S1050000, .i32⟩
  | 1 => ⟨S1050000, .i1⟩
  | 2 => ⟨S_, .i32⟩
  | 3 => ⟨S1050000, .i32⟩
  | 4 => ⟨S1050000, .i32⟩
  | 5 => ⟨S1050000, .i32⟩
  | 6 => ⟨S1050000x1, .i32⟩
  | 7 => ⟨S1050000x64, .f32⟩
  | 8 => ⟨S1050000x1, .f32⟩
  | 9 => ⟨S1050000x64, .f32⟩
  | 10 => ⟨S1050000x64, .f32⟩
  | 11 => ⟨S_, .f32⟩
  | 12 => ⟨S50000x64, .f32⟩
  | 13 => ⟨S1050000x1, .i32⟩
  | 14 => ⟨S50000x64, .f32⟩
  | 15 => ⟨S1x64, .f32⟩
  | 16 => ⟨S50000x64, .f32⟩
  | 17 => ⟨S50000x64, .f32⟩
  | 18 => ⟨S_, .f32⟩
  | 19 => ⟨S50000x64, .f32⟩
  | 20 => ⟨S50000x64, .i1⟩
  | 21 => ⟨S_, .f32⟩
  | 22 => ⟨S50000x64, .f32⟩
  | 23 => ⟨S50000x64, .i1⟩
  | 24 => ⟨S_, .f32⟩
  | 25 => ⟨S_, .f32⟩
  | 26 => ⟨S50000x64, .f32⟩
  | 27 => ⟨S50000x64, .f32⟩
  | 28 => ⟨S50000x64, .f32⟩
  | 29 => ⟨S_, .f32⟩
  | 30 => ⟨S50000x64, .f32⟩
  | 31 => ⟨S50000x64, .f32⟩
  | 32 => ⟨S50000x64, .f32⟩
  | 33 => ⟨S_, .f32⟩
  | 34 => ⟨S500x64, .f32⟩
  | 35 => ⟨S50000x1, .i32⟩
  | 36 => ⟨S500x64, .f32⟩
  | 37 => ⟨S_, .f32⟩
  | 38 => ⟨S50000, .f32⟩
  | 39 => ⟨S_, .f32⟩
  | 40 => ⟨S500, .f32⟩
  | 41 => ⟨S50000x1, .i32⟩
  | 42 => ⟨S500, .f32⟩
  | 43 => ⟨S_, .f32⟩
  | 44 => ⟨S500, .f32⟩
  | 45 => ⟨S500, .f32⟩
  | 46 => ⟨S500x1, .f32⟩
  | 47 => ⟨S500x64, .f32⟩
  | 48 => ⟨S500x64, .f32⟩
  | 49 => ⟨S500x1, .f32⟩
  | 50 => ⟨S1x1, .f32⟩
  | 51 => ⟨S500x1, .f32⟩
  | 52 => ⟨S500x1, .f32⟩
  | _ => ⟨S50000x4, .f32⟩

abbrev hbmTy (i : Nat) : BufTy := match i / 128 with
  | 0 => hbmTy0_0 i
  | 1 => hbmTy0_1 i
  | _ => ⟨S50000x4, .f32⟩

abbrev bufTy : (tb : Table) → Fin (tcTables nBuf tb) → BufTy
  | .hbm, ⟨i, _⟩ => hbmTy i
  | _, _ => ⟨S50000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_call1_v1 : Ref sig .tc := ⟨.hbm, 74, rfl⟩
abbrev main_call1_cst_0 : Ref sig .tc := ⟨.hbm, 75, rfl⟩
abbrev main_call1_v2 : Ref sig .tc := ⟨.hbm, 76, rfl⟩
abbrev main_call1_v3 : Ref sig .tc := ⟨.hbm, 77, rfl⟩
abbrev main_call1_cst_1 : Ref sig .tc := ⟨.hbm, 78, rfl⟩
abbrev main_call1_call0_v0 : Ref sig .tc := ⟨.hbm, 79, rfl⟩
abbrev main_call1_call0_v1 : Ref sig .tc := ⟨.hbm, 80, rfl⟩
abbrev main_call1_v4 : Ref sig .tc := ⟨.hbm, 81, rfl⟩
abbrev main_call1_v5 : Ref sig .tc := ⟨.hbm, 82, rfl⟩
abbrev main_call1_cst_2 : Ref sig .tc := ⟨.hbm, 83, rfl⟩
abbrev main_call1_v6 : Ref sig .tc := ⟨.hbm, 84, rfl⟩
abbrev main_call1_v7 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_10 : Ref sig .tc := ⟨.hbm, 91, rfl⟩
abbrev main_v54 : Ref sig .tc := ⟨.hbm, 92, rfl⟩
abbrev main_cst_11 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_cst_12 : Ref sig .tc := ⟨.hbm, 97, rfl⟩
abbrev main_v58 : Ref sig .tc := ⟨.hbm, 98, rfl⟩
abbrev main_v59 : Ref sig .tc := ⟨.hbm, 99, rfl⟩
abbrev main_cst_13 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_cst_14 : Ref sig .tc := ⟨.hbm, 104, rfl⟩
abbrev main_call2_v0 : Ref sig .tc := ⟨.hbm, 105, rfl⟩
abbrev main_call2_v1 : Ref sig .tc := ⟨.hbm, 106, rfl⟩
abbrev main_v63 : Ref sig .tc := ⟨.hbm, 107, rfl⟩
abbrev main_c_15 : Ref sig .tc := ⟨.hbm, 108, rfl⟩
abbrev main_v64 : Ref sig .tc := ⟨.hbm, 109, rfl⟩
abbrev main_v65 : Ref sig .tc := ⟨.hbm, 110, rfl⟩
abbrev main_c_16 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_c_17 : Ref sig .tc := ⟨.hbm, 117, rfl⟩
abbrev main_v71 : Ref sig .tc := ⟨.hbm, 118, rfl⟩
abbrev main_v72 : Ref sig .tc := ⟨.hbm, 119, rfl⟩
abbrev main_c_18 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_c_19 : Ref sig .tc := ⟨.hbm, 127, rfl⟩
abbrev main_v79 : Ref sig .tc := ⟨.hbm, 128, rfl⟩
abbrev main_v80 : Ref sig .tc := ⟨.hbm, 129, rfl⟩
abbrev main_c_20 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_cst_21 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_call3_cst : Ref sig .tc := ⟨.hbm, 146, rfl⟩
abbrev main_call3_v0 : Ref sig .tc := ⟨.hbm, 147, rfl⟩
abbrev main_call3_v1 : Ref sig .tc := ⟨.hbm, 148, rfl⟩
abbrev main_call3_cst_0 : Ref sig .tc := ⟨.hbm, 149, rfl⟩
abbrev main_call3_v2 : Ref sig .tc := ⟨.hbm, 150, rfl⟩
abbrev main_call3_v3 : Ref sig .tc := ⟨.hbm, 151, rfl⟩
abbrev main_call3_cst_1 : Ref sig .tc := ⟨.hbm, 152, rfl⟩
abbrev main_call3_call0_v0 : Ref sig .tc := ⟨.hbm, 153, rfl⟩
abbrev main_call3_call0_v1 : Ref sig .tc := ⟨.hbm, 154, rfl⟩
abbrev main_call3_v4 : Ref sig .tc := ⟨.hbm, 155, rfl⟩
abbrev main_call3_v5 : Ref sig .tc := ⟨.hbm, 156, rfl⟩
abbrev main_call3_cst_2 : Ref sig .tc := ⟨.hbm, 157, rfl⟩
abbrev main_call3_v6 : Ref sig .tc := ⟨.hbm, 158, rfl⟩
abbrev main_call3_v7 : Ref sig .tc := ⟨.hbm, 159, rfl⟩
abbrev main_v95 : Ref sig .tc := ⟨.hbm, 160, rfl⟩
abbrev main_cst_22 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_cst_23 : Ref sig .tc := ⟨.hbm, 165, rfl⟩
abbrev main_v99 : Ref sig .tc := ⟨.hbm, 166, rfl⟩
abbrev main_cst_24 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_cst_25 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S50000_S1050000_d0 : Shape.Concatenates [S1000000, S50000] S1050000 0
  bcast_S_S1050000 : S_.BroadcastsInDim S1050000 (![] : Fin 0 → Fin S1050000.rank)
  bcast_S_S50000 : S_.BroadcastsInDim S50000 (![] : Fin 0 → Fin S50000.rank)
  bcast_S1050000_S1050000x1_0 : S1050000.BroadcastsInDim S1050000x1 (![0] : Fin 1 → Fin S1050000x1.rank)
  bcast_S1050000x1_S1050000x64_0_1 : S1050000x1.BroadcastsInDim S1050000x64 (![0, 1] : Fin 2 → Fin S1050000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S500x64 : S_.BroadcastsInDim S500x64 (![] : Fin 0 → Fin S500x64.rank)
  bcast_S50000_S50000x1_0 : S50000.BroadcastsInDim S50000x1 (![0] : Fin 1 → Fin S50000x1.rank)
  bcast_S_S500 : S_.BroadcastsInDim S500 (![] : Fin 0 → Fin S500.rank)
  bcast_S500_S500x1_0 : S500.BroadcastsInDim S500x1 (![0] : Fin 1 → Fin S500x1.rank)
  bcast_S500x1_S500x64_0_1 : S500x1.BroadcastsInDim S500x64 (![0, 1] : Fin 2 → Fin S500x64.rank)
  bcast_S1_S1x1_1 : S1.BroadcastsInDim S1x1 (![1] : Fin 1 → Fin S1x1.rank)
  bcast_S1x1_S500x1_0_1 : S1x1.BroadcastsInDim S500x1 (![0, 1] : Fin 2 → Fin S500x1.rank)
  dot_S50000x4_S4x64_S50000x64_1_0_0_1_n_n_wf : DotDims.WF S50000x4 S4x64 S50000x64 [1] [0] [0] [1] [] []
  scatter_S50000_S1050000x1_S1050000_n_0_0_1_wf : ScatterDims.WF S50000 S1050000x1 S1050000 [] [0] [0] 1
  gather_S50000_S1050000x1_S1050000_n_0_n_n_0_1_1_wf : GatherDims.WF S50000 S1050000x1 S1050000 [] [0] [] [0] [] 1 ![1]
  gather_S50000x64_S1050000x1_S1050000x64_1_0_n_n_0_1_164_wf : GatherDims.WF S50000x64 S1050000x1 S1050000x64 [1] [0] [] [0] [] 1 ![1, 64]
  scatter_S50000x64_S1050000x1_S1050000x64_1_0_0_1_wf : ScatterDims.WF S50000x64 S1050000x1 S1050000x64 [1] [0] [0] 1
  dot_S50000x64_S64x64_S50000x64_1_0_0_1_n_n_wf : DotDims.WF S50000x64 S64x64 S50000x64 [1] [0] [0] [1] [] []
  scatter_S500x64_S50000x1_S50000x64_1_0_0_1_wf : ScatterDims.WF S500x64 S50000x1 S50000x64 [1] [0] [0] 1
  scatter_S500_S50000x1_S50000_n_0_0_1_wf : ScatterDims.WF S500 S50000x1 S50000 [] [0] [0] 1
  dot_S500x64_S64x1_S500x1_1_0_0_1_n_n_wf : DotDims.WF S500x64 S64x1 S500x1 [1] [0] [0] [1] [] []

variable [Facts₀]

def dot_S50000x4_S4x64_S50000x64_1_0_0_1_n_n : DotDims S50000x4 S4x64 S50000x64 where
  lhsContracting := [1]
  rhsContracting := [0]
  lhsNonContracting := [0]
  rhsNonContracting := [1]
  lhsBatch := []
  rhsBatch := []
  wf := dot_S50000x4_S4x64_S50000x64_1_0_0_1_n_n_wf
def scatter_S50000_S1050000x1_S1050000_n_0_0_1 : ScatterDims S50000 S1050000x1 S1050000 where
  updateWindowDims := []
  insertedWindowDims := [0]
  scatterDimsToOperandDims := [0]
  indexVectorDim := 1
  wf := scatter_S50000_S1050000x1_S1050000_n_0_0_1_wf
def gather_S50000_S1050000x1_S1050000_n_0_n_n_0_1_1 : GatherDims S50000 S1050000x1 S1050000 where
  offsetDims := []
  collapsedSliceDims := [0]
  operandBatchingDims := []
  startIndicesBatchingDims := []
  startIndexMap := [0]
  indexVectorDim := 1
  sliceSizes := ![1]
  wf := gather_S50000_S1050000x1_S1050000_n_0_n_n_0_1_1_wf
def gather_S50000x64_S1050000x1_S1050000x64_1_0_n_n_0_1_164 : GatherDims S50000x64 S1050000x1 S1050000x64 where
  offsetDims := [1]
  collapsedSliceDims := [0]
  operandBatchingDims := []
  startIndicesBatchingDims := []
  startIndexMap := [0]
  indexVectorDim := 1
  sliceSizes := ![1, 64]
  wf := gather_S50000x64_S1050000x1_S1050000x64_1_0_n_n_0_1_164_wf
def scatter_S50000x64_S1050000x1_S1050000x64_1_0_0_1 : ScatterDims S50000x64 S1050000x1 S1050000x64 where
  updateWindowDims := [1]
  insertedWindowDims := [0]
  scatterDimsToOperandDims := [0]
  indexVectorDim := 1
  wf := scatter_S50000x64_S1050000x1_S1050000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S500x64_S50000x1_S50000x64_1_0_0_1 : ScatterDims S500x64 S50000x1 S50000x64 where
  updateWindowDims := [1]
  insertedWindowDims := [0]
  scatterDimsToOperandDims := [0]
  indexVectorDim := 1
  wf := scatter_S500x64_S50000x1_S50000x64_1_0_0_1_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def dot_S500x64_S64x1_S500x1_1_0_0_1_n_n : DotDims S500x64 S64x1 S500x1 where
  lhsContracting := [1]
  rhsContracting := [0]
  lhsNonContracting := [0]
  rhsNonContracting := [1]
  lhsBatch := []
  rhsBatch := []
  wf := dot_S500x64_S64x1_S500x1_1_0_0_1_n_n_wf

class Facts : Prop extends Facts₀ where

variable [Facts]
-- ==== Proof.Spec.lean ====
/-
  The mathematics both programs compute, as whole-array functions over the extended reals.

  A two-layer graph convolution with mean pooling. From the edge list `e : [2, E]` the source and destination
  lists `s, d : [E + N]` are the two rows, each followed by the self loops `0 … N − 1`. The degree of node `n`
  is the number of entries of `d` equal to `n` (a scatter of ones), and `dis n = deg^(-1/2)` where the degree is
  positive, `0` elsewhere. One layer maps node features `P : [N, 64]` (already multiplied by the weights) to

      out (n, c) = elu ( Σ_{j : d j = n}  P (s j, c) · dis (s j) · dis (d j)  +  b c ).

  The reference forms the factor `dis (s j) · dis (d j)` per edge and scatters the scaled messages
  (`layerR`). The kernel scales the rows of `P` by `dis` before the gather and the aggregated rows by `dis`
  after the scatter (`layerK`): the same sum because every `j` landing on `n` has `dis (d j) = dis n`, a
  non-negative real, which multiplies across a sum of extended reals. After two layers the node rows are summed
  per graph (`batch`), divided by the graph's node count (at least one) and projected to one column.
-/
import proofs.«157537_j39161511805099_1_alg».proof.ReferenceIdeal
import proofs.«157537_j39161511805099_1_alg».proof.Proof.Gen.ReferenceIdeal
import Idealize.ShloMosaic.PureOps.Ideal
import Idealize.ShloMosaic.Lib.ValueIdx

noncomputable section

namespace Cert.GCN

open Idealize.ShloMosaic Idealize.ShloMosaic.ValueIdx
open Cert.ReferenceIdeal Cert.ReferenceIdeal.Facts₀

/-! ## Shape facts the kernel's reshapes use (vector ↔ one-column or one-row matrix) -/

theorem casts_S50000_S50000x1 : S50000.ShapeCasts S50000x1 := by decide
theorem casts_S64_S1x64 : S64.ShapeCasts S1x64 := by decide
theorem casts_S500_S500x1 : S500.ShapeCasts S500x1 := by decide
theorem casts_S1_S1x1 : S1.ShapeCasts S1x1 := by decide

/-! ## The index lists and the normalisation factor -/

/-- The self loops `0 … N − 1`. -/
def loopIdx : IVec S50000 32 := iotaInDim S50000 32 0

/-- The two rows of the edge list: the sources and the destinations. -/
def row0 (e : IVec S2x1000000 32) : IVec S1000000 32 :=
  shapeCast S1000000 (extractStridedSlice S1x1000000 ![0, 0] e slices_S2x1000000_S1x1000000_0_0) shapeCasts_S1x1000000_S1000000
def row1 (e : IVec S2x1000000 32) : IVec S1000000 32 :=
  shapeCast S1000000 (extractStridedSlice S1x1000000 ![1, 0] e slices_S2x1000000_S1x1000000_1_0) shapeCasts_S1x1000000_S1000000

/-- A row of the edge list followed by the self loops. -/
def withLoops (r : IVec S1000000 32) : IVec S1050000 32 :=
  concatenate S1050000 0 [⟨S1000000, r⟩, ⟨S50000, loopIdx⟩] concatenates_S1000000_S50000_S1050000_d0

def srcOf (e : IVec S2x1000000 32) : IVec S1050000 32 := withLoops (row0 e)
def dstOf (e : IVec S2x1000000 32) : IVec S1050000 32 := withLoops (row1 e)

/-- An index list as the one-column matrix a gather or scatter reads its positions from. -/
def col (s : IVec S1050000 32) : IVec S1050000x1 32 := broadcastInDim S1050000x1 ![0] bcast_S1050000_S1050000x1_0 s
def colB (s : IVec S50000 32) : IVec S50000x1 32 := broadcastInDim S50000x1 ![0] bcast_S50000_S50000x1_0 s

/-- A negative position counts from the end (python indexing): `i < 0 ↦ i + N`. -/
def normIdx (s : IVec S1050000 32) : IVec S1050000 32 :=
  select (cmpi .slt s (broadcastInDim S1050000 ![] bcast_S_S1050000 (constantI S_ 32 0#32)))
    (addi s (broadcastInDim S1050000 ![] bcast_S_S1050000 (constantI S_ 32 50000#32))) s

def zeros1 : FVec Ideal S50000 .f32 := broadcastInDim S50000 ![] bcast_S_S50000 (constant S_ .f32 0x00000000#32)
def zeros2 : FVec Ideal S50000x64 .f32 := broadcastInDim S50000x64 ![] bcast_S_S50000x64 (constant S_ .f32 0x00000000#32)
def zeros3 : FVec Ideal S500x64 .f32 := broadcastInDim S500x64 ![] bcast_S_S500x64 (constant S_ .f32 0x00000000#32)
def zeros4 : FVec Ideal S500 .f32 := broadcastInDim S500 ![] bcast_S_S500 (constant S_ .f32 0x00000000#32)
def onesE : FVec Ideal S1050000 .f32 := broadcastInDim S1050000 ![] bcast_S_S1050000 (constant S_ .f32 0x3F800000#32)
def onesN : FVec Ideal S50000 .f32 := broadcastInDim S50000 ![] bcast_S_S50000 (constant S_ .f32 0x3F800000#32)
def onesG : FVec Ideal S500 .f32 := broadcastInDim S500 ![] bcast_S_S500 (constant S_ .f32 0x3F800000#32)

/-- The degree: per node the number of entries of `d` naming it. -/
def degOf (d : IVec S1050000 32) : FVec Ideal S50000 .f32 :=
  Host.scatterAdd scatter_S50000_S1050000x1_S1050000_n_0_0_1 zeros1 (col d) onesE

/-- `deg^(-1/2)` where the degree is positive, zero elsewhere. -/
def disOf (dg : FVec Ideal S50000 .f32) : FVec Ideal S50000 .f32 :=
  select (cmpf .ogt dg zeros1)
    (Host.rsqrt (maximumf dg (broadcastInDim S50000 ![] bcast_S_S50000 (constant S_ .f32 0x2B8CBCCC#32))))
    (broadcastInDim S50000 ![] bcast_S_S50000 (id (constant S_ .f32 0x00000000#32)))

/-- The factor as the one-column matrix the kernel's windows read. -/
def dis2Of (dis : FVec Ideal S50000 .f32) : FVec Ideal S50000x1 .f32 := shapeCast S50000x1 dis casts_S50000_S50000x1

/-! ## The dense products -/

def dotIn (x : FVec Ideal S50000x4 .f32) (W : FVec Ideal S4x64 .f32) : FVec Ideal S50000x64 .f32 :=
  Host.dotGeneral dot_S50000x4_S4x64_S50000x64_1_0_0_1_n_n none x W
def dotHid (h : FVec Ideal S50000x64 .f32) (W : FVec Ideal S64x64 .f32) : FVec Ideal S50000x64 .f32 :=
  Host.dotGeneral dot_S50000x64_S64x64_S50000x64_1_0_0_1_n_n none h W
def dotOut (p : FVec Ideal S500x64 .f32) (W : FVec Ideal S64x1 .f32) : FVec Ideal S500x1 .f32 :=
  Host.dotGeneral dot_S500x64_S64x1_S500x1_1_0_0_1_n_n none p W

/-! ## One layer, the kernel's way -/

/-- Row `n` of `P` times `dis n`. -/
def scaleRows (P : FVec Ideal S50000x64 .f32) (d2 : FVec Ideal S50000x1 .f32) : FVec Ideal S50000x64 .f32 :=
  fun i => P i * d2 (ix2 (n0 := 50000) (n1 := 1) (i 0) 0)

/-- The kernel's exponential linear unit at one element: `v` above zero, `e^v − 1` elsewhere. -/
def eluK (v : EReal) : EReal :=
  Scalar.select (FloatOps.cmpf (F := Ideal) (φ := .f32) .ogt v (Scalar.ofBits (F := Ideal) .f32 0x00000000#32)) v
    (Ideal.exp v - Scalar.ofBits (F := Ideal) .f32 0x3F800000#32)

/-- Aggregated rows times `dis`, plus the bias row, through the unit. -/
def postK (S : FVec Ideal S50000x64 .f32) (d2 : FVec Ideal S50000x1 .f32) (br : FVec Ideal S1x64 .f32) : FVec Ideal S50000x64 .f32 :=
  fun i => eluK (S i * d2 (ix2 (n0 := 50000) (n1 := 1) (i 0) 0) + br (ix2 (n0 := 1) (n1 := 64) 0 (i 1)))

/-- Gather the rows at `s`, add them up at `d`. -/
def aggK (hs : FVec Ideal S50000x64 .f32) (s d : IVec S1050000 32) : FVec Ideal S50000x64 .f32 :=
  Host.scatterAdd scatter_S50000x64_S1050000x1_S1050000x64_1_0_0_1 zeros2 (col d)
    (Host.gather gather_S50000x64_S1050000x1_S1050000x64_1_0_n_n_0_1_164 hs (col (normIdx s)))

def layerK (P : FVec Ideal S50000x64 .f32) (dis : FVec Ideal S50000 .f32) (s d : IVec S1050000 32) (b : FVec Ideal S64 .f32) :
    FVec Ideal S50000x64 .f32 :=
  postK (aggK (scaleRows P (dis2Of dis)) s d) (dis2Of dis) (shapeCast S1x64 b casts_S64_S1x64)

/-! ## One layer, the reference's way -/

/-- Per edge `dis (s j) · dis (d j)`. -/
def normOf (dis : FVec Ideal S50000 .f32) (s d : IVec S1050000 32) : FVec Ideal S1050000 .f32 :=
  mulf (Host.gather gather_S50000_S1050000x1_S1050000_n_0_n_n_0_1_1 dis (col (normIdx s)))
    (Host.gather gather_S50000_S1050000x1_S1050000_n_0_n_n_0_1_1 dis (col (normIdx d)))

def aggR (h : FVec Ideal S50000x64 .f32) (dis : FVec Ideal S50000 .f32) (s d : IVec S1050000 32) : FVec Ideal S50000x64 .f32 :=
  Host.scatterAdd scatter_S50000x64_S1050000x1_S1050000x64_1_0_0_1 zeros2 (col d)
    (mulf (Host.gather gather_S50000x64_S1050000x1_S1050000x64_1_0_n_n_0_1_164 h (col (normIdx s)))
      (broadcastInDim S1050000x64 ![0, 1] bcast_S1050000x1_S1050000x64_0_1
        (broadcastInDim S1050000x1 ![0] bcast_S1050000_S1050000x1_0 (normOf dis s d))))

def biasR (b : FVec Ideal S64 .f32) : FVec Ideal S50000x64 .f32 :=
  broadcastInDim S50000x64 ![0, 1] bcast_S1x64_S50000x64_0_1 (broadcastInDim S1x64 ![1] bcast_S64_S1x64_1 b)

/-- jax's `elu`: `where(v > 0, v, 1 · expm1(where(v > 0, 0, v)))`. -/
def eluR (v : FVec Ideal S50000x64 .f32) : FVec Ideal S50000x64 .f32 :=
  select (cmpf .ogt v zeros2) v
    (mulf (broadcastInDim S50000x64 ![] bcast_S_S50000x64 (constant S_ .f32 0x3F800000#32))
      (Host.expm1 (select (cmpf .ogt v zeros2) (broadcastInDim S50000x64 ![] bcast_S_S50000x64 (id (constant S_ .f32 0x00000000#32))) v)))

def layerR (P : FVec Ideal S50000x64 .f32) (dis : FVec Ideal S50000 .f32) (s d : IVec S1050000 32) (b : FVec Ideal S64 .f32) :
    FVec Ideal S50000x64 .f32 :=
  eluR (addf (aggR P dis s d) (biasR b))

/-! ## The pooling and the last projection -/

def sumsOf (h : FVec Ideal S50000x64 .f32) (batch : IVec S50000 32) : FVec Ideal S500x64 .f32 :=
  Host.scatterAdd scatter_S500x64_S50000x1_S50000x64_1_0_0_1 zeros3 (colB batch) h
def cntsOf (batch : IVec S50000 32) : FVec Ideal S500 .f32 :=
  Host.scatterAdd scatter_S500_S50000x1_S50000_n_0_0_1 zeros4 (colB batch) onesN

/-- The kernel's last region: rows over `max(count, 1)`, times `W3`, plus the bias. -/
def poolK (sums : FVec Ideal S500x64 .f32) (c2 : FVec Ideal S500x1 .f32) (W3 : FVec Ideal S64x1 .f32) (b2 : FVec Ideal S1x1 .f32) :
    FVec Ideal S500x1 .f32 :=
  fun i => dotOut (fun j => Ideal.div (sums j) (max (c2 (ix2 (n0 := 500) (n1 := 1) (j 0) 0)) (Scalar.ofBits (F := Ideal) .f32 0x3F800000#32))) W3 i
    + b2 (ix2 (n0 := 1) (n1 := 1) 0 0)

def poolR (sums : FVec Ideal S500x64 .f32) (cnts : FVec Ideal S500 .f32) (W3 : FVec Ideal S64x1 .f32) (b3 : FVec Ideal S1 .f32) :
    FVec Ideal S500x1 .f32 :=
  addf (dotOut (Host.divf sums (broadcastInDim S500x64 ![0, 1] bcast_S500x1_S500x64_0_1
      (broadcastInDim S500x1 ![0] bcast_S500_S500x1_0 (maximumf cnts onesG)))) W3)
    (broadcastInDim S500x1 ![0, 1] bcast_S1x1_S500x1_0_1 (broadcastInDim S1x1 ![1] bcast_S1_S1x1_1 b3))

/-! ## The two programs -/

def kernelOut (x : FVec Ideal S50000x4 .f32) (e : IVec S2x1000000 32) (batch : IVec S50000 32) (W1 : FVec Ideal S4x64 .f32)
    (b1 : FVec Ideal S64 .f32) (W2 : FVec Ideal S64x64 .f32) (b2 : FVec Ideal S64 .f32) (W3 : FVec Ideal S64x1 .f32)
    (b3 : FVec Ideal S1 .f32) : FVec Ideal S500x1 .f32 :=
  poolK
    (sumsOf (layerK (dotHid (layerK (dotIn x W1) (disOf (degOf (dstOf e))) (srcOf e) (dstOf e) b1) W2)
      (disOf (degOf (dstOf e))) (srcOf e) (dstOf e) b2) batch)
    (shapeCast S500x1 (cntsOf batch) casts_S500_S500x1) W3 (shapeCast S1x1 b3 casts_S1_S1x1)

def refOut (x : FVec Ideal S50000x4 .f32) (e : IVec S2x1000000 32) (batch : IVec S50000 32) (W1 : FVec Ideal S4x64 .f32)
    (b1 : FVec Ideal S64 .f32) (W2 : FVec Ideal S64x64 .f32) (b2 : FVec Ideal S64 .f32) (W3 : FVec Ideal S64x1 .f32)
    (b3 : FVec Ideal S1 .f32) : FVec Ideal S500x1 .f32 :=
  poolR
    (sumsOf (layerR (dotHid (layerR (dotIn x W1) (disOf (degOf (dstOf e))) (srcOf e) (dstOf e) b1) W2)
      (disOf (degOf (dstOf e))) (srcOf e) (dstOf e) b2) batch)
    (cntsOf batch) W3 b3

end Cert.GCN

end
-- ==== Proof.KReg3.lean ====
/-
  Region 3 (second epilogue): every element of the output is the unit of (aggregated · dis n + bias c); the ten blocks tile the array.
-/
import proofs.«157537_j39161511805099_1_alg».proof.Proof.Gen.KernelIdeal.Frame
import proofs.«157537_j39161511805099_1_alg».proof.Proof.Spec
import Idealize.ShloMosaic.Lib.Pipeline.Value
import Idealize.ShloMosaic.PureOps.Ideal.Laws

set_option maxRecDepth 16384

noncomputable section

namespace Cert.KernelIdeal.RegVal

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b)) (c : Dev nD)

/-! ## One element of a block's result -/

/-- The zero offsets of a whole-block access, however they are spelt. -/
theorem zeroOff3 : (![0, 0] : Fin 2 → Nat) = fun _ => 0 := funext fun a => by fin_cases a <;> rfl

/-- A one-column array `[a, 1]` broadcast to `[a, b]` reads, at `(p, q)`, the operand's row `p`. -/
theorem colBroadcast3 {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A one-row array `[1, b]` broadcast to `[a, b]` reads, at `(p, q)`, the operand's column `q`. -/
theorem rowBroadcast3 {α : Type} {a b : ℕ} (v : (⟨2, ![1, b]⟩ : Shape).Idx → α) (h : (⟨2, ![1, b]⟩ : Shape).Broadcasts ⟨2, ![a, b]⟩)
    (p : Fin a) (q : Fin b) : broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The value the unit is applied to, at row `y` and column `q` of a block: the aggregated entry times the
    row's factor, plus the column's bias. -/
theorem lin3_at (S : Vec Ideal S5000x64 .f32) (d : Vec Ideal S5000x1 .f32) (b : Vec Ideal S1x64 .f32) (y : Fin 5000) (q : Fin 64) :
    addf (F := Ideal) (φ := .f32) (mulf (F := Ideal) (φ := .f32) (shapeCast S5000x64 S shapeCasts_S5000x64_S5000x64)
        (broadcastTo S5000x64 (shapeCast S5000x1 d shapeCasts_S5000x1_S5000x1) broadcasts_S5000x1_S5000x64))
      (broadcastTo S5000x64 (shapeCast S1x64 b shapeCasts_S1x64_S1x64) broadcasts_S1x64_S5000x64) (ix2 y q)
      = (S (ix2 y q) * d (ix2 y (0 : Fin 1)) + b (ix2 (0 : Fin 1) q) : EReal) := by
  rw [shapeCast_self, shapeCast_self, shapeCast_self, addf_apply, mulf_apply]
  rw [show broadcastTo S5000x64 d broadcasts_S5000x1_S5000x64 (ix2 y q) = d (ix2 y (0 : Fin 1)) from colBroadcast3 d _ y q,
    show broadcastTo S5000x64 b broadcasts_S1x64_S5000x64 (ix2 y q) = b (ix2 (0 : Fin 1) q) from rowBroadcast3 b _ y q]

/-- The block's result at an index: the unit of that value. -/
theorem pay3_at (S : Vec Ideal S5000x64 .f32) (d : Vec Ideal S5000x1 .f32) (b : Vec Ideal S1x64 .f32) (i : S5000x64.Idx) :
    k3_pay1 (F := Ideal) S d b i
      = Cert.GCN.eluK (S i * d (ix2 (n0 := 5000) (n1 := 1) (i 0) 0) + b (ix2 (n0 := 1) (n1 := 64) 0 (i 1))) := by
  obtain ⟨y, q, rfl⟩ : ∃ (y : Fin 5000) (q : Fin 64), i = ix2 y q := ⟨i 0, i 1, eq_ix2 i⟩
  unfold k3_pay1
  refine Eq.trans ?_ (congrArg Cert.GCN.eluK (lin3_at S d b y q))
  rfl

/-! ## The windows' blocks as rows of their arrays -/

/-- The aggregated rows as region 3 finds them, -/
abbrev aggArr3 : Vec Ideal S50000x64 .f32 := V c main_v41
/-- the per-row factor, one column, -/
abbrev disArr3 : Vec Ideal S50000x1 .f32 := V c main_v17
/-- and the bias, one row. -/
abbrev biasArr3 : Vec Ideal S1x64 .f32 := V c main_v42

/-- The windows' index maps, decided over the ten points: the aggregated rows, the factor and the output move
    together, block `t` at point `t`; the bias row stays. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row `x 0` of the aggregated block at point `t` is row `5000 t + x 0` of the array. -/
theorem aggBlk3 (t : Fin cfg3.N) (x : S5000x64.Idx) (k : S50000x64.Idx)
    (hk0 : (k 0).val = 5000 * t.val + (x 0).val) (hk1 : (k 1).val = (x 1).val) :
    (iblk3 V c 0 t : Vec Ideal S5000x64 .f32) x = aggArr3 V c k := by
  obtain ⟨e0, e1, -⟩ := idx3 t
  unfold iblk3
  rw [View.read_apply]
  show V c main_v41 _ = V c main_v41 _
  congr 1
  funext a
  apply Fin.ext
  match a with
  | ⟨0, _⟩ => show win3_0.index t (0 : Fin 2) * 5000 + 1 * (x 0).val = (k 0).val; rw [e0, hk0]; omega
  | ⟨1, _⟩ => show win3_0.index t (1 : Fin 2) * 64 + 1 * (x 1).val = (k 1).val; rw [e1, hk1]; omega

/-- Row `x 0` of the factor's block at point `t` is row `5000 t + x 0` of the column. -/
theorem disBlk3 (t : Fin cfg3.N) (x : S5000x1.Idx) (k : S50000x1.Idx)
    (hk0 : (k 0).val = 5000 * t.val + (x 0).val) (hk1 : (k 1).val = (x 1).val) :
    (iblk3 V c 1 t : Vec Ideal S5000x1 .f32) x = disArr3 V c k := by
  obtain ⟨-, -, e0, e1, -⟩ := idx3 t
  unfold iblk3
  rw [View.read_apply]
  show V c main_v17 _ = V c main_v17 _
  congr 1
  funext a
  apply Fin.ext
  match a with
  | ⟨0, _⟩ => show win3_1.index t (0 : Fin 2) * 5000 + 1 * (x 0).val = (k 0).val; rw [e0, hk0]; omega
  | ⟨1, _⟩ => show win3_1.index t (1 : Fin 2) * 1 + 1 * (x 1).val = (k 1).val; rw [e1, hk1]; omega

/-- The bias block is the bias row at every point. -/
theorem biasBlk3 (t : Fin cfg3.N) (x : S1x64.Idx) (k : S1x64.Idx)
    (hk0 : (k 0).val = (x 0).val) (hk1 : (k 1).val = (x 1).val) :
    (iblk3 V c 2 t : Vec Ideal S1x64 .f32) x = biasArr3 V c k := by
  obtain ⟨-, -, -, -, e0, e1, -⟩ := idx3 t
  unfold iblk3
  rw [View.read_apply]
  show V c main_v42 _ = V c main_v42 _
  congr 1
  funext a
  apply Fin.ext
  match a with
  | ⟨0, _⟩ => show win3_2.index t (0 : Fin 2) * 1 + 1 * (x 0).val = (k 0).val; rw [e0, hk0]; omega
  | ⟨1, _⟩ => show win3_2.index t (1 : Fin 2) * 64 + 1 * (x 1).val = (k 1).val; rw [e1, hk1]; omega

/-! ## What a point writes back, and the array after the ten points -/

/-- Point `t` writes back block `t` of the epilogue of the three arrays: the block's result at `(y, q)` reads row
    `5000 t + y` of the aggregated rows and of the factor, and column `q` of the bias. -/
theorem flushed3_eq (t : Fin cfg3.N) :
    (dat3 (F := Ideal) V c).flushed 3 t
      = ((cfg3.win 3).blk t).view.read (Elt Ideal) (Cert.GCN.postK (aggArr3 V c) (disArr3 V c) (biasArr3 V c)) := by
  show (cfg3.win 3).cut (grid3.coords t) ((dat3 V c).after 3 t) = _
  rw [after3_3]
  unfold out3_3
  rw [View.canon_unit_zero zeroOff3]
  simp only [View.ld_unit_zero (S := S5000x64) zeroOff3, View.ld_unit_zero (S := S5000x1) zeroOff3,
    View.ld_unit_zero (S := S1x64) zeroOff3]
  obtain ⟨-, -, -, -, -, -, e0, e1⟩ := idx3 t
  funext j
  refine (pay3_at (iblk3 V c 0 t) (iblk3 V c 1 t) (iblk3 V c 2 t) ((cfg3.win 3).xinj (grid3.coords t) j)).trans ?_
  have r0 : ((((cfg3.win 3).blk t).view.emb j) 0).val = 5000 * t.val + (j 0).val := by
    show win3_3.index t (0 : Fin 2) * 5000 + 1 * (j 0).val = 5000 * t.val + (j 0).val
    rw [e0]; omega
  have r1 : ((((cfg3.win 3).blk t).view.emb j) 1).val = (j 1).val := by
    show win3_3.index t (1 : Fin 2) * 64 + 1 * (j 1).val = (j 1).val
    rw [e1]; omega
  rw [aggBlk3 V c t ((cfg3.win 3).xinj (grid3.coords t) j) (((cfg3.win 3).blk t).view.emb j) r0 r1,
    disBlk3 V c t (ix2 ((cfg3.win 3).xinj (grid3.coords t) j 0) 0) (ix2 ((((cfg3.win 3).blk t).view.emb j) 0) 0) r0 rfl,
    biasBlk3 V c t (ix2 0 ((cfg3.win 3).xinj (grid3.coords t) j 1)) (ix2 0 ((((cfg3.win 3).blk t).view.emb j) 1)) rfl r1]
  rfl

/-- An index of the array is in point `t`'s block iff each coordinate is in the block's range on its axis. -/
theorem mem_blk3 (t : Fin cfg3.N) (i : S50000x64.Idx) :
    i ∈ ((cfg3.win 3).blk t).view.set ↔ ∀ a : Fin 2, win3_3.index t a * S5000x64.size a ≤ (i a).val
      ∧ (i a).val < win3_3.index t a * S5000x64.size a + S5000x64.size a := by
  show i ∈ ((View.whole main_v43).slice (win3_3.rect t)).set ↔ _
  rw [View.set_slice_whole, Rect.mem_set_unit]
  exact Iff.rfl

/-- The ten blocks of 5000 rows tile the 50000 rows: row `r` is in the block of point `r / 5000`. -/
theorem cover3 (i : S50000x64.Idx) :
    ∃ t : Fin cfg3.N, (cfg3.win 3).flush t = true ∧ i ∈ ((cfg3.win 3).blk t).view.set := by
  have hi0 : (i 0).val < 50000 := (i 0).isLt
  have hi1 : (i 1).val < 64 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨-, -, -, -, -, -, e0, e1⟩ := idx3 t
  refine ⟨t, flush3_3 t, ?_⟩
  rw [mem_blk3]
  intro a
  match a with
  | ⟨0, _⟩ =>
    show win3_3.index t (0 : Fin 2) * 5000 ≤ (i 0).val ∧ (i 0).val < win3_3.index t (0 : Fin 2) * 5000 + 5000
    rw [e0, ht]; omega
  | ⟨1, _⟩ =>
    show win3_3.index t (1 : Fin 2) * 64 ≤ (i 1).val ∧ (i 1).val < win3_3.index t (1 : Fin 2) * 64 + 64
    rw [e1]; omega

/-- After region 3 its output array is the epilogue of its three input arrays, whatever the entry contents `V`. -/
theorem arr3 : (dat3 (F := Ideal) V c).arrAt 3 cfg3.N
    = Cert.GCN.postK (V c main_v41) (V c main_v17) (V c main_v42) := by
  exact (dat3 (F := Ideal) V c).arrAt_eq_of_cover 3 (Cert.GCN.postK (aggArr3 V c) (disArr3 V c) (biasArr3 V c))
    (fun t _ => flushed3_eq V c t) (cover3)

end Cert.KernelIdeal.RegVal

end
-- ==== Proof.KReg4.lean ====
/-
  Region 4 (pooled projection): one grid point whose blocks are the whole arrays.

  The body divides each row of the per-graph sums by the graph's node count (at least one), multiplies the
  [500, 64] quotient by the [64, 1] weight column and adds the one bias entry. The product contracts the 64
  columns; a change of float format is the identity on the extended reals and the accumulator starts at zero, so
  the body's product is the specification's product of the same two operands. The one point's block of every
  window starts at the origin and has the array's extents, so each block is its array and the block written
  back fills the output.
-/
import proofs.«157537_j39161511805099_1_alg».proof.Proof.Gen.KernelIdeal.Frame
import proofs.«157537_j39161511805099_1_alg».proof.Proof.Spec
import Idealize.ShloMosaic.Lib.Pipeline.Value
import Idealize.ShloMosaic.PureOps.Ideal.Laws

set_option maxRecDepth 16384

noncomputable section

namespace Cert.KernelIdeal.RegVal

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b)) (c : Dev nD)

namespace Reg4

/-! ## The body's arithmetic on whole arrays -/

/-- A one-column matrix spread over the columns reads, at an entry, the column's entry of the same row. -/
theorem spreadCol_apply {α : Type} (v : S500x1.Idx → α) (h : S500x1.Broadcasts S500x64) (j : S500x64.Idx) :
    broadcastTo S500x64 v h j = v (ix2 (n0 := 500) (n1 := 1) (j 0) 0) := by
  refine broadcastTo_apply v h j (ix2 (n0 := 500) (n1 := 1) (j 0) 0) fun ax => ?_
  match ax with
  | ⟨0, _⟩ => rfl
  | ⟨1, _⟩ => rfl

/-- A one-entry matrix spread over a column reads its entry everywhere. -/
theorem spreadOne_apply {α : Type} (v : S1x1.Idx → α) (h : S1x1.Broadcasts S500x1) (j : S500x1.Idx) :
    broadcastTo S500x1 v h j = v (ix2 (n0 := 1) (n1 := 1) 0 0) := by
  refine broadcastTo_apply v h j (ix2 (n0 := 1) (n1 := 1) 0 0) fun ax => ?_
  match ax with
  | ⟨0, _⟩ => rfl
  | ⟨1, _⟩ => rfl

/-- The left operand of the product: each row of sums over its graph's count, at least one. -/
theorem meanRows_eq (sums : Vec Ideal S500x64 .f32) (c2 : Vec Ideal S500x1 .f32) :
    (truncf .bf16 (divf (shapeCast S500x64 sums shapeCasts_S500x64_S500x64)
        (broadcastTo S500x64 (maximumf (shapeCast S500x1 c2 shapeCasts_S500x1_S500x1)
          (broadcast S500x1 (Scalar.ofBits (F := Ideal) .f32 0x3F800000#32))) broadcasts_S500x1_S500x64)) bitsLt_bf16_f32 : FVec Ideal S500x64 .bf16)
      = fun j => Ideal.div (sums j) (max (c2 (ix2 (n0 := 500) (n1 := 1) (j 0) 0)) (Scalar.ofBits (F := Ideal) .f32 0x3F800000#32)) := by
  funext j
  rw [truncf_apply, divf_apply, spreadCol_apply, maximumf_apply, broadcast_apply, shapeCast_self, shapeCast_self]

/-- The body's arithmetic, from whole arrays, is the pooled projection. -/
theorem pay_eq (sums : Vec Ideal S500x64 .f32) (c2 : Vec Ideal S500x1 .f32) (W3 : Vec Ideal S64x1 .f32) (b2 : Vec Ideal S1x1 .f32) :
    k4_pay1 (F := Ideal) sums c2 W3 b2 = Cert.GCN.poolK sums c2 W3 b2 := by
  funext i
  unfold k4_pay1 Cert.GCN.poolK Cert.GCN.dotOut
  rw [addf_apply, spreadOne_apply, meanRows_eq, shapeCast_self]
  refine congrArg (· + b2 (ix2 (n0 := 1) (n1 := 1) 0 0)) ?_
  show Ideal.matmul dot_S500x64_S64x1_S500x1_1_0_0_1_n_n _ W3 (constant (F := Ideal) S500x1 .f32 0x00000000#32) i
    = Ideal.matmul Cert.ReferenceIdeal.dot_S500x64_S64x1_S500x1_1_0_0_1_n_n _ W3 (fun _ => 0) i
  have hz0 : (constant (F := Ideal) S500x1 .f32 0x00000000#32) = fun _ => (0 : EReal) := funext fun _ => Ideal.ofBits_zero_f32
  rw [hz0]
  rfl

/-! ## From the one point's blocks to the arrays -/

/-- Both offsets of a whole-buffer access are zero. -/
theorem hz : (![0, 0] : Fin 2 → Nat) = fun _ => 0 := funext fun a => by fin_cases a <;> rfl

/-- At the one grid point every window's block index is zero on both axes: each block starts at its array's origin. -/
theorem idx_zero : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- The four arrays the region reads, under their literal types. -/
abbrev sumsArr : Vec Ideal S500x64 .f32 := V c main_v46
abbrev cntArr : Vec Ideal S500x1 .f32 := V c main_v51
abbrev wArr : Vec Ideal S64x1 .f32 := V c main_arg7
abbrev bArr : Vec Ideal S1x1 .f32 := V c main_v52

/-- Each input window's block at the point is its whole array. -/
theorem blk0_eq (t : Fin cfg4.N) : (iblk4 V c 0 t : Vec Ideal S500x64 .f32) = sumsArr V c := by
  obtain ⟨e0, e1, -⟩ := idx_zero t
  funext y
  show V c main_v46 (((cfg4.win 0).blk t).view.emb y) = V c main_v46 y
  refine congrArg (V c main_v46) (funext fun a => Fin.ext ?_)
  match a with
  | ⟨0, _⟩ => show win4_0.index t (0 : Fin 2) * 500 + 1 * (y 0).val = (y 0).val; omega
  | ⟨1, _⟩ => show win4_0.index t (1 : Fin 2) * 64 + 1 * (y 1).val = (y 1).val; omega

theorem blk1_eq (t : Fin cfg4.N) : (iblk4 V c 1 t : Vec Ideal S500x1 .f32) = cntArr V c := by
  obtain ⟨-, -, e0, e1, -⟩ := idx_zero t
  funext y
  show V c main_v51 (((cfg4.win 1).blk t).view.emb y) = V c main_v51 y
  refine congrArg (V c main_v51) (funext fun a => Fin.ext ?_)
  match a with
  | ⟨0, _⟩ => show win4_1.index t (0 : Fin 2) * 500 + 1 * (y 0).val = (y 0).val; omega
  | ⟨1, _⟩ => show win4_1.index t (1 : Fin 2) * 1 + 1 * (y 1).val = (y 1).val; omega

theorem blk2_eq (t : Fin cfg4.N) : (iblk4 V c 2 t : Vec Ideal S64x1 .f32) = wArr V c := by
  obtain ⟨-, -, -, -, e0, e1, -⟩ := idx_zero t
  funext y
  show V c main_arg7 (((cfg4.win 2).blk t).view.emb y) = V c main_arg7 y
  refine congrArg (V c main_arg7) (funext fun a => Fin.ext ?_)
  match a with
  | ⟨0, _⟩ => show win4_2.index t (0 : Fin 2) * 64 + 1 * (y 0).val = (y 0).val; omega
  | ⟨1, _⟩ => show win4_2.index t (1 : Fin 2) * 1 + 1 * (y 1).val = (y 1).val; omega

theorem blk3_eq (t : Fin cfg4.N) : (iblk4 V c 3 t : Vec Ideal S1x1 .f32) = bArr V c := by
  obtain ⟨-, -, -, -, -, -, e0, e1, -⟩ := idx_zero t
  funext y
  show V c main_v52 (((cfg4.win 3).blk t).view.emb y) = V c main_v52 y
  refine congrArg (V c main_v52) (funext fun a => Fin.ext ?_)
  match a with
  | ⟨0, _⟩ => show win4_3.index t (0 : Fin 2) * 1 + 1 * (y 0).val = (y 0).val; omega
  | ⟨1, _⟩ => show win4_3.index t (1 : Fin 2) * 1 + 1 * (y 1).val = (y 1).val; omega

/-- What the point writes back is the block, at the point, of the pooled projection of the four arrays. -/
theorem flushed_eq (t : Fin cfg4.N) :
    (dat4 (F := Ideal) V c).flushed 4 t
      = ((cfg4.win 4).blk t).view.read (Elt Ideal) (Cert.GCN.poolK (sumsArr V c) (cntArr V c) (wArr V c) (bArr V c)) := by
  show (cfg4.win 4).cut (grid4.coords t) ((dat4 (F := Ideal) V c).after 4 t) = _
  rw [after4_4]
  unfold out4_4
  rw [View.canon_unit_zero hz]
  simp only [View.ld_unit_zero (S := S500x64) hz, View.ld_unit_zero (S := S500x1) hz, View.ld_unit_zero (S := S64x1) hz, View.ld_unit_zero (S := S1x1) hz]
  rw [blk0_eq, blk1_eq, blk2_eq, blk3_eq, pay_eq]
  obtain ⟨-, -, -, -, -, -, -, -, e0, e1⟩ := idx_zero t
  funext y
  show Cert.GCN.poolK (sumsArr V c) (cntArr V c) (wArr V c) (bArr V c) y
    = Cert.GCN.poolK (sumsArr V c) (cntArr V c) (wArr V c) (bArr V c) (((cfg4.win 4).blk t).view.emb y)
  refine congrArg (Cert.GCN.poolK (sumsArr V c) (cntArr V c) (wArr V c) (bArr V c)) (funext fun a => Fin.ext ?_)
  match a with
  | ⟨0, _⟩ => show (y 0).val = win4_4.index t (0 : Fin 2) * 500 + 1 * (y 0).val; omega
  | ⟨1, _⟩ => show (y 1).val = win4_4.index t (1 : Fin 2) * 1 + 1 * (y 1).val; omega

/-- An index of the output lies in the point's block iff each coordinate is in the block's range on its axis. -/
theorem mem_blk (t : Fin cfg4.N) (i : S500x1.Idx) :
    i ∈ ((cfg4.win 4).blk t).view.set
      ↔ ∀ a : Fin 2, win4_4.index t a * S500x1.size a ≤ (i a).val ∧ (i a).val < win4_4.index t a * S500x1.size a + S500x1.size a := by
  show i ∈ ((View.whole main_v53).slice (win4_4.rect t)).set ↔ _
  rw [View.set_slice_whole, Rect.mem_set_unit]
  exact Iff.rfl

/-- The one point's block holds every index of the output. -/
theorem cover (i : S500x1.Idx) : ∃ t : Fin cfg4.N, (cfg4.win 4).flush t = true ∧ i ∈ ((cfg4.win 4).blk t).view.set := by
  refine ⟨t4_0, flush4_4 t4_0, ?_⟩
  obtain ⟨-, -, -, -, -, -, -, -, e0, e1⟩ := idx_zero t4_0
  rw [mem_blk]
  intro a
  have h0 : (i 0).val < 500 := (i 0).isLt
  have h1 : (i 1).val < 1 := (i 1).isLt
  match a with
  | ⟨0, _⟩ => show win4_4.index t4_0 (0 : Fin 2) * 500 ≤ (i 0).val ∧ (i 0).val < win4_4.index t4_0 (0 : Fin 2) * 500 + 500; omega
  | ⟨1, _⟩ => show win4_4.index t4_0 (1 : Fin 2) * 1 ≤ (i 1).val ∧ (i 1).val < win4_4.index t4_0 (1 : Fin 2) * 1 + 1; omega

end Reg4

/-- After region 4 its output array is the pooled projection of its four input arrays, whatever the entry contents `V`. -/
theorem arr4 : (dat4 (F := Ideal) V c).arrAt 4 cfg4.N
    = Cert.GCN.poolK (V c main_v46) (V c main_v51) (V c main_arg7) (V c main_v52) :=
  (dat4 (F := Ideal) V c).arrAt_eq_of_cover 4 (Cert.GCN.poolK (Reg4.sumsArr V c) (Reg4.cntArr V c) (Reg4.wArr V c) (Reg4.bArr V c))
    (fun t _ => Reg4.flushed_eq V c t) Reg4.cover

end Cert.KernelIdeal.RegVal

end
-- ==== Proof.KReg0.lean ====
/-
  Region 0 (first projection): block t of the output is rows 5000 t … 5000 t + 4999 of (x · W1) with row n scaled by dis n; the ten blocks tile the array.
-/
import proofs.«157537_j39161511805099_1_alg».proof.Proof.Gen.KernelIdeal.Frame
import proofs.«157537_j39161511805099_1_alg».proof.Proof.Spec
import Idealize.ShloMosaic.Lib.Pipeline.Value
import Idealize.ShloMosaic.PureOps.Ideal.Laws
import Idealize.ShloMosaic.Lib.StackMember
import Idealize.ShloMosaic.Lib.KernelVsHost

set_option maxRecDepth 16384

noncomputable section

namespace Cert.KernelIdeal.RegVal

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b)) (c : Dev nD)

namespace R0

/-! ## The two sides at one entry: a sum over the four input features, times the row's factor -/

/-- The dense product of the whole arrays at row `r`, column `q`: the sum over the four input features. -/
theorem dotIn_apply (x : FVec Ideal S50000x4 .f32) (W : FVec Ideal S4x64 .f32) (r : Fin 50000) (q : Fin 64) :
    Cert.GCN.dotIn x W (ix2 r q) = ∑ k : Fin 4, x (ix2 r k) * W (ix2 k q) := by
  show Host.dotGeneral (DotDims.plain 50000 4 64) none x W (ix2 r q) = _
  exact StackMember.dotGeneral_plain_apply none x W r q

/-- The product with its rows scaled, of the whole arrays, at row `r`, column `q`. -/
theorem scaled_apply (x : FVec Ideal S50000x4 .f32) (W : FVec Ideal S4x64 .f32) (d : FVec Ideal S50000x1 .f32)
    (r : Fin 50000) (q : Fin 64) :
    Cert.GCN.scaleRows (Cert.GCN.dotIn x W) d (ix2 r q) = (∑ k : Fin 4, x (ix2 r k) * W (ix2 k q)) * d (ix2 r 0) := by
  show Cert.GCN.dotIn x W (ix2 r q) * d (ix2 r 0) = _
  rw [dotIn_apply]

/-- A block's product into a zero accumulator at row `y` of the block, column `q`: the same sum over the
    block's row (a change of float format is the identity on extended reals). -/
theorem blockDot_apply (x : FVec Ideal S5000x4 .f32) (W : FVec Ideal S4x64 .f32) (h1 h2) (y : Fin 5000) (q : Fin 64) :
    matmul dot_S5000x4_S4x64_S5000x64_1_0_0_1_n_n none (truncf .bf16 x h1) (truncf .bf16 W h2)
      (constant (F := Ideal) S5000x64 .f32 0x00000000#32) (ix2 y q) = ∑ k : Fin 4, x (ix2 y k) * W (ix2 k q) := by
  rw [matmul_zero_eq_dotGeneral]
  show Host.dotGeneral (DotDims.plain 5000 4 64) none (truncf .bf16 x h1) (truncf .bf16 W h2) (ix2 y q) = _
  rw [StackMember.dotGeneral_plain_apply]
  rfl

/-- A one-column block laid along the 64 columns reads, at row `y`, the column's entry of that row. -/
theorem colBroadcast_apply {α : Type} (d : S5000x1.Idx → α) (h1 : S5000x1.ShapeCasts S5000x1) (h2 : S5000x1.Broadcasts S5000x64)
    (y : Fin 5000) (q : Fin 64) :
    broadcastTo S5000x64 (shapeCast S5000x1 d h1) h2 (ix2 y q) = d (ix2 y 0) := by
  rw [shapeCast_self]
  refine broadcastTo_apply d h2 (ix2 y q) (ix2 y 0) fun a => ?_
  match a with
  | ⟨0, _⟩ => show y.val = if (5000 : ℕ) = 1 then 0 else y.val; rw [if_neg (by decide)]
  | ⟨1, _⟩ => show (0 : ℕ) = if (1 : ℕ) = 1 then 0 else q.val; rw [if_pos rfl]

/-- The body's stored value at row `y` of the block, column `q`. -/
theorem pay_apply (x : FVec Ideal S5000x4 .f32) (W : FVec Ideal S4x64 .f32) (d : FVec Ideal S5000x1 .f32)
    (y : Fin 5000) (q : Fin 64) :
    k0_pay1 (F := Ideal) x W d (ix2 y q) = (∑ k : Fin 4, x (ix2 y k) * W (ix2 k q)) * d (ix2 y 0) := by
  unfold k0_pay1
  rw [mulf_apply, blockDot_apply, colBroadcast_apply]

/-- A block whose row `j 0` is row `r` of the arrays stores there the scaled product's row `r`. -/
theorem pay_rows (X : FVec Ideal S50000x4 .f32) (W : FVec Ideal S4x64 .f32) (D : FVec Ideal S50000x1 .f32)
    (x : FVec Ideal S5000x4 .f32) (w : FVec Ideal S4x64 .f32) (d : FVec Ideal S5000x1 .f32)
    (r : Fin 50000) (j : S5000x64.Idx)
    (hx : ∀ k : Fin 4, x (ix2 (j 0) k) = X (ix2 r k)) (hw : w = W) (hd : d (ix2 (j 0) 0) = D (ix2 r 0)) :
    k0_pay1 (F := Ideal) x w d j = Cert.GCN.scaleRows (Cert.GCN.dotIn X W) D (ix2 r (j 1)) := by
  obtain ⟨y, q, rfl⟩ : ∃ (y : Fin 5000) (q : Fin 64), j = ix2 y q := ⟨j 0, j 1, eq_ix2 j⟩
  subst hw
  have hx' : ∀ k : Fin 4, x (ix2 y k) = X (ix2 r k) := hx
  have hd' : d (ix2 y 0) = D (ix2 r 0) := hd
  show k0_pay1 (F := Ideal) x w d (ix2 y q) = Cert.GCN.scaleRows (Cert.GCN.dotIn X w) D (ix2 r q)
  rw [scaled_apply, pay_apply, hd']
  exact congrArg (· * D (ix2 r 0)) (Finset.sum_congr rfl fun k _ => by rw [hx' k])

/-! ## From the ten blocks to the array -/

/-- The zero offsets of a whole-block access, however spelt. -/
theorem zeros : (![0, 0] : Fin 2 → Nat) = fun _ => 0 := funext fun a => by fin_cases a <;> rfl

/-- The grid has ten points. -/
theorem lt_ten (t : Fin cfg0.N) : t.val < 10 :=
  Nat.lt_of_lt_of_eq t.isLt (show cfg0.N = 10 from N_0)

/-- The index maps, decided over the grid: at point `t` the left factor's, the row factor's and the output's block is
    block `t` along the rows; the weights' block is the whole matrix. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of the scaled product of the arrays as the region finds them: row `y` of
    the block is row `5000 t + y` of the arrays. -/
theorem flushed_eq (t : Fin cfg0.N) :
    (dat0 (F := Ideal) V c).flushed 3 t = ((cfg0.win 3).blk t).view.read (Elt Ideal)
      (Cert.GCN.scaleRows (Cert.GCN.dotIn (V c main_arg0) (V c main_arg3)) (V c main_v17)) := by
  show (cfg0.win 3).cut (grid0.coords t) ((dat0 V c).after 3 t) = _
  rw [after0_3]
  unfold out0_3
  rw [View.canon_unit_zero zeros]
  simp only [View.ld_unit_zero (S := S5000x4) zeros, View.ld_unit_zero (S := S4x64) zeros, View.ld_unit_zero (S := S5000x1) zeros]
  obtain ⟨e00, e01, e10, e11, e20, e21, e30, e31⟩ := idx_facts t
  have ht := lt_ten t
  funext j
  have hj0 : (j 0).val < 5000 := (j 0).isLt
  have hj1 : (j 1).val < 64 := (j 1).isLt
  have hi : ((cfg0.win 3).blk t).view.emb j = ix2 (⟨5000 * t.val + (j 0).val, by omega⟩ : Fin 50000) (j 1) := by
    funext a; apply Fin.ext
    match a with
    | ⟨0, _⟩ => show win0_3.index t (0 : Fin 2) * 5000 + 1 * (j 0).val = 5000 * t.val + (j 0).val; omega
    | ⟨1, _⟩ => show win0_3.index t (1 : Fin 2) * 64 + 1 * (j 1).val = (j 1).val; omega
  show k0_pay1 (F := Ideal) (iblk0 V c 0 t) (iblk0 V c 1 t) (iblk0 V c 2 t) j
    = Cert.GCN.scaleRows (Cert.GCN.dotIn (V c main_arg0) (V c main_arg3)) (V c main_v17) (((cfg0.win 3).blk t).view.emb j)
  rw [hi]
  refine pay_rows (V c main_arg0) (V c main_arg3) (V c main_v17) (iblk0 V c 0 t) (iblk0 V c 1 t) (iblk0 V c 2 t)
    (⟨5000 * t.val + (j 0).val, by omega⟩ : Fin 50000) j (fun k => ?_) ?_ ?_
  · show V c main_arg0 (((cfg0.win 0).blk t).view.emb (ix2 (j 0) k)) = V c main_arg0 (ix2 (⟨5000 * t.val + (j 0).val, by omega⟩ : Fin 50000) k)
    refine congrArg (V c main_arg0) (funext fun a => Fin.ext ?_)
    match a with
    | ⟨0, _⟩ => show win0_0.index t (0 : Fin 2) * 5000 + 1 * (j 0).val = 5000 * t.val + (j 0).val; omega
    | ⟨1, _⟩ => show win0_0.index t (1 : Fin 2) * 4 + 1 * k.val = k.val; omega
  · funext z
    show V c main_arg3 (((cfg0.win 1).blk t).view.emb z) = V c main_arg3 z
    refine congrArg (V c main_arg3) (funext fun a => Fin.ext ?_)
    match a with
    | ⟨0, _⟩ => show win0_1.index t (0 : Fin 2) * 4 + 1 * (z 0).val = (z 0).val; omega
    | ⟨1, _⟩ => show win0_1.index t (1 : Fin 2) * 64 + 1 * (z 1).val = (z 1).val; omega
  · show V c main_v17 (((cfg0.win 2).blk t).view.emb (ix2 (j 0) 0)) = V c main_v17 (ix2 (⟨5000 * t.val + (j 0).val, by omega⟩ : Fin 50000) 0)
    refine congrArg (V c main_v17) (funext fun a => Fin.ext ?_)
    match a with
    | ⟨0, _⟩ => show win0_2.index t (0 : Fin 2) * 5000 + 1 * (j 0).val = 5000 * t.val + (j 0).val; omega
    | ⟨1, _⟩ => show win0_2.index t (1 : Fin 2) * 1 + 1 * 0 = 0; omega

/-- An index of the array is in point `t`'s block iff each coordinate is in the block's range on its axis. -/
theorem mem_blk (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v18).slice (win0_3.rect t)).set ↔ _
  rw [View.set_slice_whole, Rect.mem_set_unit]
  exact Iff.rfl

/-- Every row is in the block of the point its number divided by 5000 names: the ten blocks tile the 50000 rows. -/
theorem cover (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 10 := N_0
  refine ⟨⟨(i 0).val / 5000, by rw [hN]; omega⟩, flush0_3 _, ?_⟩
  obtain ⟨-, -, -, -, -, -, e30, e31⟩ := idx_facts ⟨(i 0).val / 5000, by rw [hN]; omega⟩
  rw [mem_blk]
  intro a
  match a with
  | ⟨0, _⟩ => show win0_3.index _ (0 : Fin 2) * 5000 ≤ (i 0).val ∧ (i 0).val < win0_3.index _ (0 : Fin 2) * 5000 + 5000; rw [e30]; show (i 0).val / 5000 * 5000 ≤ (i 0).val ∧ (i 0).val < (i 0).val / 5000 * 5000 + 5000; omega
  | ⟨1, _⟩ => show win0_3.index _ (1 : Fin 2) * 64 ≤ (i 1).val ∧ (i 1).val < win0_3.index _ (1 : Fin 2) * 64 + 64; rw [e31]; omega

end R0

/-- After region 0 its output array is the input projection with its rows scaled, whatever the entry contents `V`. -/
theorem arr0 : (dat0 (F := Ideal) V c).arrAt 3 cfg0.N
    = Cert.GCN.scaleRows (Cert.GCN.dotIn (V c main_arg0) (V c main_arg3)) (V c main_v17) :=
  (dat0 (F := Ideal) V c).arrAt_eq_of_cover 3 _ (fun t _ => R0.flushed_eq V c t) R0.cover

end Cert.KernelIdeal.RegVal

end
-- ==== Proof.KReg1.lean ====
/-
  Region 1 (first epilogue): every element of the output is the unit of (aggregated · dis n + bias c); the ten blocks tile the array.
-/
import proofs.«157537_j39161511805099_1_alg».proof.Proof.Gen.KernelIdeal.Frame
import proofs.«157537_j39161511805099_1_alg».proof.Proof.Spec
import Idealize.ShloMosaic.Lib.Pipeline.Value
import Idealize.ShloMosaic.PureOps.Ideal.Laws

set_option maxRecDepth 16384

noncomputable section

namespace Cert.KernelIdeal.RegVal

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b)) (c : Dev nD)

/-! ## One element of a block's result -/

/-- The zero offsets of a whole-block access, however they are spelt. -/
theorem zeroOff1 : (![0, 0] : Fin 2 → Nat) = fun _ => 0 := funext fun a => by fin_cases a <;> rfl

/-- A one-column array `[a, 1]` broadcast to `[a, b]` reads, at `(p, q)`, the operand's row `p`. -/
theorem colBroadcast1 {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A one-row array `[1, b]` broadcast to `[a, b]` reads, at `(p, q)`, the operand's column `q`. -/
theorem rowBroadcast1 {α : Type} {a b : ℕ} (v : (⟨2, ![1, b]⟩ : Shape).Idx → α) (h : (⟨2, ![1, b]⟩ : Shape).Broadcasts ⟨2, ![a, b]⟩)
    (p : Fin a) (q : Fin b) : broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The value the unit is applied to, at row `y` and column `q` of a block: the aggregated entry times the
    row's factor, plus the column's bias. -/
theorem lin1_at (S : Vec Ideal S5000x64 .f32) (d : Vec Ideal S5000x1 .f32) (b : Vec Ideal S1x64 .f32) (y : Fin 5000) (q : Fin 64) :
    addf (F := Ideal) (φ := .f32) (mulf (F := Ideal) (φ := .f32) (shapeCast S5000x64 S shapeCasts_S5000x64_S5000x64)
        (broadcastTo S5000x64 (shapeCast S5000x1 d shapeCasts_S5000x1_S5000x1) broadcasts_S5000x1_S5000x64))
      (broadcastTo S5000x64 (shapeCast S1x64 b shapeCasts_S1x64_S1x64) broadcasts_S1x64_S5000x64) (ix2 y q)
      = (S (ix2 y q) * d (ix2 y (0 : Fin 1)) + b (ix2 (0 : Fin 1) q) : EReal) := by
  rw [shapeCast_self, shapeCast_self, shapeCast_self, addf_apply, mulf_apply]
  rw [show broadcastTo S5000x64 d broadcasts_S5000x1_S5000x64 (ix2 y q) = d (ix2 y (0 : Fin 1)) from colBroadcast1 d _ y q,
    show broadcastTo S5000x64 b broadcasts_S1x64_S5000x64 (ix2 y q) = b (ix2 (0 : Fin 1) q) from rowBroadcast1 b _ y q]

/-- The block's result at an index: the unit of that value. -/
theorem pay1_at (S : Vec Ideal S5000x64 .f32) (d : Vec Ideal S5000x1 .f32) (b : Vec Ideal S1x64 .f32) (i : S5000x64.Idx) :
    k1_pay1 (F := Ideal) S d b i
      = Cert.GCN.eluK (S i * d (ix2 (n0 := 5000) (n1 := 1) (i 0) 0) + b (ix2 (n0 := 1) (n1 := 64) 0 (i 1))) := by
  obtain ⟨y, q, rfl⟩ : ∃ (y : Fin 5000) (q : Fin 64), i = ix2 y q := ⟨i 0, i 1, eq_ix2 i⟩
  unfold k1_pay1
  refine Eq.trans ?_ (congrArg Cert.GCN.eluK (lin1_at S d b y q))
  rfl

/-! ## The windows' blocks as rows of their arrays -/

/-- The aggregated rows as region 1 finds them, -/
abbrev aggArr1 : Vec Ideal S50000x64 .f32 := V c main_v28
/-- the per-row factor, one column, -/
abbrev disArr1 : Vec Ideal S50000x1 .f32 := V c main_v17
/-- and the bias, one row. -/
abbrev biasArr1 : Vec Ideal S1x64 .f32 := V c main_v29

/-- The windows' index maps, decided over the ten points: the aggregated rows, the factor and the output move
    together, block `t` at point `t`; the bias row stays. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `x 0` of the aggregated block at point `t` is row `5000 t + x 0` of the array. -/
theorem aggBlk1 (t : Fin cfg1.N) (x : S5000x64.Idx) (k : S50000x64.Idx)
    (hk0 : (k 0).val = 5000 * t.val + (x 0).val) (hk1 : (k 1).val = (x 1).val) :
    (iblk1 V c 0 t : Vec Ideal S5000x64 .f32) x = aggArr1 V c k := by
  obtain ⟨e0, e1, -⟩ := idx1 t
  unfold iblk1
  rw [View.read_apply]
  show V c main_v28 _ = V c main_v28 _
  congr 1
  funext a
  apply Fin.ext
  match a with
  | ⟨0, _⟩ => show win1_0.index t (0 : Fin 2) * 5000 + 1 * (x 0).val = (k 0).val; rw [e0, hk0]; omega
  | ⟨1, _⟩ => show win1_0.index t (1 : Fin 2) * 64 + 1 * (x 1).val = (k 1).val; rw [e1, hk1]; omega

/-- Row `x 0` of the factor's block at point `t` is row `5000 t + x 0` of the column. -/
theorem disBlk1 (t : Fin cfg1.N) (x : S5000x1.Idx) (k : S50000x1.Idx)
    (hk0 : (k 0).val = 5000 * t.val + (x 0).val) (hk1 : (k 1).val = (x 1).val) :
    (iblk1 V c 1 t : Vec Ideal S5000x1 .f32) x = disArr1 V c k := by
  obtain ⟨-, -, e0, e1, -⟩ := idx1 t
  unfold iblk1
  rw [View.read_apply]
  show V c main_v17 _ = V c main_v17 _
  congr 1
  funext a
  apply Fin.ext
  match a with
  | ⟨0, _⟩ => show win1_1.index t (0 : Fin 2) * 5000 + 1 * (x 0).val = (k 0).val; rw [e0, hk0]; omega
  | ⟨1, _⟩ => show win1_1.index t (1 : Fin 2) * 1 + 1 * (x 1).val = (k 1).val; rw [e1, hk1]; omega

/-- The bias block is the bias row at every point. -/
theorem biasBlk1 (t : Fin cfg1.N) (x : S1x64.Idx) (k : S1x64.Idx)
    (hk0 : (k 0).val = (x 0).val) (hk1 : (k 1).val = (x 1).val) :
    (iblk1 V c 2 t : Vec Ideal S1x64 .f32) x = biasArr1 V c k := by
  obtain ⟨-, -, -, -, e0, e1, -⟩ := idx1 t
  unfold iblk1
  rw [View.read_apply]
  show V c main_v29 _ = V c main_v29 _
  congr 1
  funext a
  apply Fin.ext
  match a with
  | ⟨0, _⟩ => show win1_2.index t (0 : Fin 2) * 1 + 1 * (x 0).val = (k 0).val; rw [e0, hk0]; omega
  | ⟨1, _⟩ => show win1_2.index t (1 : Fin 2) * 64 + 1 * (x 1).val = (k 1).val; rw [e1, hk1]; omega

/-! ## What a point writes back, and the array after the ten points -/

/-- Point `t` writes back block `t` of the epilogue of the three arrays: the block's result at `(y, q)` reads row
    `5000 t + y` of the aggregated rows and of the factor, and column `q` of the bias. -/
theorem flushed1_eq (t : Fin cfg1.N) :
    (dat1 (F := Ideal) V c).flushed 3 t
      = ((cfg1.win 3).blk t).view.read (Elt Ideal) (Cert.GCN.postK (aggArr1 V c) (disArr1 V c) (biasArr1 V c)) := by
  show (cfg1.win 3).cut (grid1.coords t) ((dat1 V c).after 3 t) = _
  rw [after1_3]
  unfold out1_3
  rw [View.canon_unit_zero zeroOff1]
  simp only [View.ld_unit_zero (S := S5000x64) zeroOff1, View.ld_unit_zero (S := S5000x1) zeroOff1,
    View.ld_unit_zero (S := S1x64) zeroOff1]
  obtain ⟨-, -, -, -, -, -, e0, e1⟩ := idx1 t
  funext j
  refine (pay1_at (iblk1 V c 0 t) (iblk1 V c 1 t) (iblk1 V c 2 t) ((cfg1.win 3).xinj (grid1.coords t) j)).trans ?_
  have r0 : ((((cfg1.win 3).blk t).view.emb j) 0).val = 5000 * t.val + (j 0).val := by
    show win1_3.index t (0 : Fin 2) * 5000 + 1 * (j 0).val = 5000 * t.val + (j 0).val
    rw [e0]; omega
  have r1 : ((((cfg1.win 3).blk t).view.emb j) 1).val = (j 1).val := by
    show win1_3.index t (1 : Fin 2) * 64 + 1 * (j 1).val = (j 1).val
    rw [e1]; omega
  rw [aggBlk1 V c t ((cfg1.win 3).xinj (grid1.coords t) j) (((cfg1.win 3).blk t).view.emb j) r0 r1,
    disBlk1 V c t (ix2 ((cfg1.win 3).xinj (grid1.coords t) j 0) 0) (ix2 ((((cfg1.win 3).blk t).view.emb j) 0) 0) r0 rfl,
    biasBlk1 V c t (ix2 0 ((cfg1.win 3).xinj (grid1.coords t) j 1)) (ix2 0 ((((cfg1.win 3).blk t).view.emb j) 1)) rfl r1]
  rfl

/-- An index of the array is in point `t`'s block iff each coordinate is in the block's range on its axis. -/
theorem mem_blk1 (t : Fin cfg1.N) (i : S50000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v30).slice (win1_3.rect t)).set ↔ _
  rw [View.set_slice_whole, Rect.mem_set_unit]
  exact Iff.rfl

/-- The ten blocks of 5000 rows tile the 50000 rows: row `r` is in the block of point `r / 5000`. -/
theorem cover1 (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, e0, e1⟩ := idx1 t
  refine ⟨t, flush1_3 t, ?_⟩
  rw [mem_blk1]
  intro a
  match a with
  | ⟨0, _⟩ =>
    show win1_3.index t (0 : Fin 2) * 5000 ≤ (i 0).val ∧ (i 0).val < win1_3.index t (0 : Fin 2) * 5000 + 5000
    rw [e0, ht]; omega
  | ⟨1, _⟩ =>
    show win1_3.index t (1 : Fin 2) * 64 ≤ (i 1).val ∧ (i 1).val < win1_3.index t (1 : Fin 2) * 64 + 64
    rw [e1]; omega

/-- After region 1 its output array is the epilogue of its three input arrays, whatever the entry contents `V`. -/
theorem arr1 : (dat1 (F := Ideal) V c).arrAt 3 cfg1.N
    = Cert.GCN.postK (V c main_v28) (V c main_v17) (V c main_v29) := by
  exact (dat1 (F := Ideal) V c).arrAt_eq_of_cover 3 (Cert.GCN.postK (aggArr1 V c) (disArr1 V c) (biasArr1 V c))
    (fun t _ => flushed1_eq V c t) (cover1)

end Cert.KernelIdeal.RegVal

end
-- ==== Proof.KReg2.lean ====
/-
  Region 2 (hidden projection): block t of the output is rows 5000 t … 5000 t + 4999 of (h · W2) with row n scaled by dis n; the ten blocks tile the array.
-/
import proofs.«157537_j39161511805099_1_alg».proof.Proof.Gen.KernelIdeal.Frame
import proofs.«157537_j39161511805099_1_alg».proof.Proof.Spec
import Idealize.ShloMosaic.Lib.Pipeline.Value
import Idealize.ShloMosaic.PureOps.Ideal.Laws
import Idealize.ShloMosaic.Lib.StackMember
import Idealize.ShloMosaic.Lib.KernelVsHost

set_option maxRecDepth 16384

noncomputable section

namespace Cert.KernelIdeal.RegVal

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b)) (c : Dev nD)

namespace R2

/-! ## The two sides at one entry: a sum over the 64 hidden features, times the row's factor -/

/-- The dense product of the whole arrays at row `r`, column `q`: the sum over the 64 hidden features. -/
theorem dotHid_apply (x : FVec Ideal S50000x64 .f32) (W : FVec Ideal S64x64 .f32) (r : Fin 50000) (q : Fin 64) :
    Cert.GCN.dotHid x W (ix2 r q) = ∑ k : Fin 64, x (ix2 r k) * W (ix2 k q) := by
  show Host.dotGeneral (DotDims.plain 50000 64 64) none x W (ix2 r q) = _
  exact StackMember.dotGeneral_plain_apply none x W r q

/-- The product with its rows scaled, of the whole arrays, at row `r`, column `q`. -/
theorem scaled_apply (x : FVec Ideal S50000x64 .f32) (W : FVec Ideal S64x64 .f32) (d : FVec Ideal S50000x1 .f32)
    (r : Fin 50000) (q : Fin 64) :
    Cert.GCN.scaleRows (Cert.GCN.dotHid x W) d (ix2 r q) = (∑ k : Fin 64, x (ix2 r k) * W (ix2 k q)) * d (ix2 r 0) := by
  show Cert.GCN.dotHid x W (ix2 r q) * d (ix2 r 0) = _
  rw [dotHid_apply]

/-- A block's product into a zero accumulator at row `y` of the block, column `q`: the same sum over the
    block's row (a change of float format is the identity on extended reals). -/
theorem blockDot_apply (x : FVec Ideal S5000x64 .f32) (W : FVec Ideal S64x64 .f32) (h1 h2) (y : Fin 5000) (q : Fin 64) :
    matmul dot_S5000x64_S64x64_S5000x64_1_0_0_1_n_n none (truncf .bf16 x h1) (truncf .bf16 W h2)
      (constant (F := Ideal) S5000x64 .f32 0x00000000#32) (ix2 y q) = ∑ k : Fin 64, x (ix2 y k) * W (ix2 k q) := by
  rw [matmul_zero_eq_dotGeneral]
  show Host.dotGeneral (DotDims.plain 5000 64 64) none (truncf .bf16 x h1) (truncf .bf16 W h2) (ix2 y q) = _
  rw [StackMember.dotGeneral_plain_apply]
  rfl

/-- A one-column block laid along the 64 columns reads, at row `y`, the column's entry of that row. -/
theorem colBroadcast_apply {α : Type} (d : S5000x1.Idx → α) (h1 : S5000x1.ShapeCasts S5000x1) (h2 : S5000x1.Broadcasts S5000x64)
    (y : Fin 5000) (q : Fin 64) :
    broadcastTo S5000x64 (shapeCast S5000x1 d h1) h2 (ix2 y q) = d (ix2 y 0) := by
  rw [shapeCast_self]
  refine broadcastTo_apply d h2 (ix2 y q) (ix2 y 0) fun a => ?_
  match a with
  | ⟨0, _⟩ => show y.val = if (5000 : ℕ) = 1 then 0 else y.val; rw [if_neg (by decide)]
  | ⟨1, _⟩ => show (0 : ℕ) = if (1 : ℕ) = 1 then 0 else q.val; rw [if_pos rfl]

/-- The body's stored value at row `y` of the block, column `q`. -/
theorem pay_apply (x : FVec Ideal S5000x64 .f32) (W : FVec Ideal S64x64 .f32) (d : FVec Ideal S5000x1 .f32)
    (y : Fin 5000) (q : Fin 64) :
    k2_pay1 (F := Ideal) x W d (ix2 y q) = (∑ k : Fin 64, x (ix2 y k) * W (ix2 k q)) * d (ix2 y 0) := by
  unfold k2_pay1
  rw [mulf_apply, shapeCast_self x, blockDot_apply, colBroadcast_apply]

/-- A block whose row `j 0` is row `r` of the arrays stores there the scaled product's row `r`. -/
theorem pay_rows (X : FVec Ideal S50000x64 .f32) (W : FVec Ideal S64x64 .f32) (D : FVec Ideal S50000x1 .f32)
    (x : FVec Ideal S5000x64 .f32) (w : FVec Ideal S64x64 .f32) (d : FVec Ideal S5000x1 .f32)
    (r : Fin 50000) (j : S5000x64.Idx)
    (hx : ∀ k : Fin 64, x (ix2 (j 0) k) = X (ix2 r k)) (hw : w = W) (hd : d (ix2 (j 0) 0) = D (ix2 r 0)) :
    k2_pay1 (F := Ideal) x w d j = Cert.GCN.scaleRows (Cert.GCN.dotHid X W) D (ix2 r (j 1)) := by
  obtain ⟨y, q, rfl⟩ : ∃ (y : Fin 5000) (q : Fin 64), j = ix2 y q := ⟨j 0, j 1, eq_ix2 j⟩
  subst hw
  have hx' : ∀ k : Fin 64, x (ix2 y k) = X (ix2 r k) := hx
  have hd' : d (ix2 y 0) = D (ix2 r 0) := hd
  show k2_pay1 (F := Ideal) x w d (ix2 y q) = Cert.GCN.scaleRows (Cert.GCN.dotHid X w) D (ix2 r q)
  rw [scaled_apply, pay_apply, hd']
  exact congrArg (· * D (ix2 r 0)) (Finset.sum_congr rfl fun k _ => by rw [hx' k])

/-! ## From the ten blocks to the array -/

/-- The zero offsets of a whole-block access, however spelt. -/
theorem zeros : (![0, 0] : Fin 2 → Nat) = fun _ => 0 := funext fun a => by fin_cases a <;> rfl

/-- The grid has ten points. -/
theorem lt_ten (t : Fin cfg2.N) : t.val < 10 :=
  Nat.lt_of_lt_of_eq t.isLt (show cfg2.N = 10 from N_2)

/-- The index maps, decided over the grid: at point `t` the left factor's, the row factor's and the output's block is
    block `t` along the rows; the weights' block is the whole matrix. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- WHAT POINT `t` WRITES BACK is block `t` of the scaled product of the arrays as the region finds them: row `y` of
    the block is row `5000 t + y` of the arrays. -/
theorem flushed_eq (t : Fin cfg2.N) :
    (dat2 (F := Ideal) V c).flushed 3 t = ((cfg2.win 3).blk t).view.read (Elt Ideal)
      (Cert.GCN.scaleRows (Cert.GCN.dotHid (V c main_v30) (V c main_arg5)) (V c main_v17)) := by
  show (cfg2.win 3).cut (grid2.coords t) ((dat2 V c).after 3 t) = _
  rw [after2_3]
  unfold out2_3
  rw [View.canon_unit_zero zeros]
  simp only [View.ld_unit_zero (S := S5000x64) zeros, View.ld_unit_zero (S := S64x64) zeros, View.ld_unit_zero (S := S5000x1) zeros]
  obtain ⟨e00, e01, e10, e11, e20, e21, e30, e31⟩ := idx_facts t
  have ht := lt_ten t
  funext j
  have hj0 : (j 0).val < 5000 := (j 0).isLt
  have hj1 : (j 1).val < 64 := (j 1).isLt
  have hi : ((cfg2.win 3).blk t).view.emb j = ix2 (⟨5000 * t.val + (j 0).val, by omega⟩ : Fin 50000) (j 1) := by
    funext a; apply Fin.ext
    match a with
    | ⟨0, _⟩ => show win2_3.index t (0 : Fin 2) * 5000 + 1 * (j 0).val = 5000 * t.val + (j 0).val; omega
    | ⟨1, _⟩ => show win2_3.index t (1 : Fin 2) * 64 + 1 * (j 1).val = (j 1).val; omega
  show k2_pay1 (F := Ideal) (iblk2 V c 0 t) (iblk2 V c 1 t) (iblk2 V c 2 t) j
    = Cert.GCN.scaleRows (Cert.GCN.dotHid (V c main_v30) (V c main_arg5)) (V c main_v17) (((cfg2.win 3).blk t).view.emb j)
  rw [hi]
  refine pay_rows (V c main_v30) (V c main_arg5) (V c main_v17) (iblk2 V c 0 t) (iblk2 V c 1 t) (iblk2 V c 2 t)
    (⟨5000 * t.val + (j 0).val, by omega⟩ : Fin 50000) j (fun k => ?_) ?_ ?_
  · show V c main_v30 (((cfg2.win 0).blk t).view.emb (ix2 (j 0) k)) = V c main_v30 (ix2 (⟨5000 * t.val + (j 0).val, by omega⟩ : Fin 50000) k)
    refine congrArg (V c main_v30) (funext fun a => Fin.ext ?_)
    match a with
    | ⟨0, _⟩ => show win2_0.index t (0 : Fin 2) * 5000 + 1 * (j 0).val = 5000 * t.val + (j 0).val; omega
    | ⟨1, _⟩ => show win2_0.index t (1 : Fin 2) * 64 + 1 * k.val = k.val; omega
  · funext z
    show V c main_arg5 (((cfg2.win 1).blk t).view.emb z) = V c main_arg5 z
    refine congrArg (V c main_arg5) (funext fun a => Fin.ext ?_)
    match a with
    | ⟨0, _⟩ => show win2_1.index t (0 : Fin 2) * 64 + 1 * (z 0).val = (z 0).val; omega
    | ⟨1, _⟩ => show win2_1.index t (1 : Fin 2) * 64 + 1 * (z 1).val = (z 1).val; omega
  · show V c main_v17 (((cfg2.win 2).blk t).view.emb (ix2 (j 0) 0)) = V c main_v17 (ix2 (⟨5000 * t.val + (j 0).val, by omega⟩ : Fin 50000) 0)
    refine congrArg (V c main_v17) (funext fun a => Fin.ext ?_)
    match a with
    | ⟨0, _⟩ => show win2_2.index t (0 : Fin 2) * 5000 + 1 * (j 0).val = 5000 * t.val + (j 0).val; omega
    | ⟨1, _⟩ => show win2_2.index t (1 : Fin 2) * 1 + 1 * 0 = 0; omega

/-- An index of the array is in point `t`'s block iff each coordinate is in the block's range on its axis. -/
theorem mem_blk (t : Fin cfg2.N) (i : S50000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v31).slice (win2_3.rect t)).set ↔ _
  rw [View.set_slice_whole, Rect.mem_set_unit]
  exact Iff.rfl

/-- Every row is in the block of the point its number divided by 5000 names: the ten blocks tile the 50000 rows. -/
theorem cover (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 10 := N_2
  refine ⟨⟨(i 0).val / 5000, by rw [hN]; omega⟩, flush2_3 _, ?_⟩
  obtain ⟨-, -, -, -, -, -, e30, e31⟩ := idx_facts ⟨(i 0).val / 5000, by rw [hN]; omega⟩
  rw [mem_blk]
  intro a
  match a with
  | ⟨0, _⟩ => show win2_3.index _ (0 : Fin 2) * 5000 ≤ (i 0).val ∧ (i 0).val < win2_3.index _ (0 : Fin 2) * 5000 + 5000; rw [e30]; show (i 0).val / 5000 * 5000 ≤ (i 0).val ∧ (i 0).val < (i 0).val / 5000 * 5000 + 5000; omega
  | ⟨1, _⟩ => show win2_3.index _ (1 : Fin 2) * 64 ≤ (i 1).val ∧ (i 1).val < win2_3.index _ (1 : Fin 2) * 64 + 64; rw [e31]; omega

end R2

/-- After region 2 its output array is the hidden projection with its rows scaled, whatever the entry contents `V`. -/
theorem arr2 : (dat2 (F := Ideal) V c).arrAt 3 cfg2.N
    = Cert.GCN.scaleRows (Cert.GCN.dotHid (V c main_v30) (V c main_arg5)) (V c main_v17) :=
  (dat2 (F := Ideal) V c).arrAt_eq_of_cover 3 _ (fun t _ => R2.flushed_eq V c t) R2.cover

end Cert.KernelIdeal.RegVal

end
-- ==== Proof.KFoldA.lean ====
/-
  The kernel program's buffers at the boundary after its third region (the hidden projection), as functions of the launch arguments: the index lists and the normalisation factor computed by the first host stretch, the first layer through regions 0 and 1, the scaled hidden projection of region 2.
-/
import proofs.«157537_j39161511805099_1_alg».proof.Proof.Gen.KernelIdeal.Frame
import proofs.«157537_j39161511805099_1_alg».proof.Proof.Spec
import proofs.«157537_j39161511805099_1_alg».proof.Proof.KReg0
import proofs.«157537_j39161511805099_1_alg».proof.Proof.KReg1
import proofs.«157537_j39161511805099_1_alg».proof.Proof.KReg2
import Idealize.ShloMosaic.Lib.StableHlo.Run

set_option maxRecDepth 16384

noncomputable section

namespace Cert.KernelIdeal.RegVal

open Idealize.ShloMosaic Idealize.ShloMosaic.TcCoe Idealize.SL.Sem Idealize.ShloMosaic.StableHlo
open Cert.KernelIdeal Cert.KernelIdeal.Gen

/-- A buffer none of a host stretch's operations writes keeps its contents. -/
local macro "keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The first host stretch, from arbitrary contents -/

theorem s0_v5 (W : Valuation τ sig (Elt Ideal)) :
    after (hostOps0 (F := Ideal)) W (Proc.devRef .tc main_v5) = Cert.GCN.srcOf (W (Proc.devRef .tc main_arg1)) := by
  simp only [hostOps0]
  after_results
  rfl

theorem s0_v6 (W : Valuation τ sig (Elt Ideal)) :
    after (hostOps0 (F := Ideal)) W (Proc.devRef .tc main_v6) = Cert.GCN.dstOf (W (Proc.devRef .tc main_arg1)) := by
  simp only [hostOps0]
  after_results
  rfl

theorem s0_v12 (W : Valuation τ sig (Elt Ideal)) :
    after (hostOps0 (F := Ideal)) W (Proc.devRef .tc main_v12)
      = cmpf .ogt (Cert.GCN.degOf (Cert.GCN.dstOf (W (Proc.devRef .tc main_arg1)))) Cert.GCN.zeros1 := by
  simp only [hostOps0]
  after_results
  rfl

theorem s0_v15 (W : Valuation τ sig (Elt Ideal)) :
    after (hostOps0 (F := Ideal)) W (Proc.devRef .tc main_v15)
      = Host.rsqrt (maximumf (Cert.GCN.degOf (Cert.GCN.dstOf (W (Proc.devRef .tc main_arg1))))
          (broadcastInDim Cert.ReferenceIdeal.S50000 ![] Cert.ReferenceIdeal.Facts₀.bcast_S_S50000 (constant Cert.ReferenceIdeal.S_ .f32 0x2B8CBCCC#32))) := by
  simp only [hostOps0]
  after_results
  rfl

theorem s0_cst3 (W : Valuation τ sig (Elt Ideal)) :
    after (hostOps0 (F := Ideal)) W (Proc.devRef .tc main_cst_3) = (constant Cert.ReferenceIdeal.S_ .f32 0x00000000#32 : FVec Ideal Cert.ReferenceIdeal.S_ .f32) := by
  simp only [hostOps0]
  after_results

theorem s01_v16 (W : Valuation τ sig (Elt Ideal)) :
    after (hostOps0_1 (F := Ideal)) W (Proc.devRef .tc main_v16)
      = select (W (Proc.devRef .tc main_v12)) (W (Proc.devRef .tc main_v15))
          (broadcastInDim Cert.ReferenceIdeal.S50000 ![] Cert.ReferenceIdeal.Facts₀.bcast_S_S50000 (id (W (Proc.devRef .tc main_cst_3)))) := by
  simp only [hostOps0_1]
  after_results
  rfl

theorem s02_v17 (W : Valuation τ sig (Elt Ideal)) :
    after (hostOps0_2 (F := Ideal)) W (Proc.devRef .tc main_v17) = Cert.GCN.dis2Of (W (Proc.devRef .tc main_v16)) := by
  simp only [hostOps0_2]
  after_results
  rfl

/-! ## The second host stretch, from arbitrary contents -/

theorem s1_v28 (W : Valuation τ sig (Elt Ideal)) :
    after (hostOps1 (F := Ideal)) W (Proc.devRef .tc main_v28)
      = Cert.GCN.aggK (W (Proc.devRef .tc main_v18)) (W (Proc.devRef .tc main_v5)) (W (Proc.devRef .tc main_v6)) := by
  simp only [hostOps1]
  after_results
  rfl

theorem s1_v29 (W : Valuation τ sig (Elt Ideal)) :
    after (hostOps1 (F := Ideal)) W (Proc.devRef .tc main_v29)
      = shapeCast Cert.ReferenceIdeal.S1x64 (W (Proc.devRef .tc main_arg4)) Cert.GCN.casts_S64_S1x64 := by
  simp only [hostOps1]
  after_results
  rfl

variable (m : (ℓ : Loc nD τ sig) → Buf (Elt Ideal) ℓ) (ρ : Dev nD → PrngReg) (c : Dev nD)

/-- The normalisation factor of the launch's edge list. -/
abbrev disIn : FVec Ideal Cert.ReferenceIdeal.S50000 .f32 := Cert.GCN.disOf (Cert.GCN.degOf (Cert.GCN.dstOf (m ((c : Thread nD τ).loc main_arg1))))

/-- The first layer's output, the kernel's way, of the launch arguments. -/
abbrev h1In : FVec Ideal Cert.ReferenceIdeal.S50000x64 .f32 :=
  Cert.GCN.layerK (Cert.GCN.dotIn (m ((c : Thread nD τ).loc main_arg0)) (m ((c : Thread nD τ).loc main_arg3))) (disIn m c)
    (Cert.GCN.srcOf (m ((c : Thread nD τ).loc main_arg1))) (Cert.GCN.dstOf (m ((c : Thread nD τ).loc main_arg1))) (m ((c : Thread nD τ).loc main_arg4))

/-! ## At region 0's entry -/

theorem W3_arg0 : W3 (F := Ideal) m ρ c (Proc.devRef .tc main_arg0) = m ((c : Thread nD τ).loc main_arg0) :=
  calc W3 (F := Ideal) m ρ c (Proc.devRef .tc main_arg0)
    _ = W2 (F := Ideal) m ρ c (Proc.devRef .tc main_arg0) := by keeps hostOps0_2
    _ = W1 (F := Ideal) m ρ c (Proc.devRef .tc main_arg0) := by keeps hostOps0_1
    _ = W0 (F := Ideal) m ρ c (Proc.devRef .tc main_arg0) := by keeps hostOps0
    _ = m ((c : Thread nD τ).loc main_arg0) := rfl

theorem W3_arg3 : W3 (F := Ideal) m ρ c (Proc.devRef .tc main_arg3) = m ((c : Thread nD τ).loc main_arg3) :=
  calc W3 (F := Ideal) m ρ c (Proc.devRef .tc main_arg3)
    _ = W2 (F := Ideal) m ρ c (Proc.devRef .tc main_arg3) := by keeps hostOps0_2
    _ = W1 (F := Ideal) m ρ c (Proc.devRef .tc main_arg3) := by keeps hostOps0_1
    _ = W0 (F := Ideal) m ρ c (Proc.devRef .tc main_arg3) := by keeps hostOps0
    _ = m ((c : Thread nD τ).loc main_arg3) := rfl

theorem W3_arg4 : W3 (F := Ideal) m ρ c (Proc.devRef .tc main_arg4) = m ((c : Thread nD τ).loc main_arg4) :=
  calc W3 (F := Ideal) m ρ c (Proc.devRef .tc main_arg4)
    _ = W2 (F := Ideal) m ρ c (Proc.devRef .tc main_arg4) := by keeps hostOps0_2
    _ = W1 (F := Ideal) m ρ c (Proc.devRef .tc main_arg4) := by keeps hostOps0_1
    _ = W0 (F := Ideal) m ρ c (Proc.devRef .tc main_arg4) := by keeps hostOps0
    _ = m ((c : Thread nD τ).loc main_arg4) := rfl

theorem W3_arg5 : W3 (F := Ideal) m ρ c (Proc.devRef .tc main_arg5) = m ((c : Thread nD τ).loc main_arg5) :=
  calc W3 (F := Ideal) m ρ c (Proc.devRef .tc main_arg5)
    _ = W2 (F := Ideal) m ρ c (Proc.devRef .tc main_arg5) := by keeps hostOps0_2
    _ = W1 (F := Ideal) m ρ c (Proc.devRef .tc main_arg5) := by keeps hostOps0_1
    _ = W0 (F := Ideal) m ρ c (Proc.devRef .tc main_arg5) := by keeps hostOps0
    _ = m ((c : Thread nD τ).loc main_arg5) := rfl

theorem W3_v5 : W3 (F := Ideal) m ρ c (Proc.devRef .tc main_v5) = Cert.GCN.srcOf (m ((c : Thread nD τ).loc main_arg1)) :=
  calc W3 (F := Ideal) m ρ c (Proc.devRef .tc main_v5)
    _ = W2 (F := Ideal) m ρ c (Proc.devRef .tc main_v5) := by keeps hostOps0_2
    _ = W1 (F := Ideal) m ρ c (Proc.devRef .tc main_v5) := by keeps hostOps0_1
    _ = Cert.GCN.srcOf (m ((c : Thread nD τ).loc main_arg1)) := s0_v5 (W0 m ρ c)

theorem W3_v6 : W3 (F := Ideal) m ρ c (Proc.devRef .tc main_v6) = Cert.GCN.dstOf (m ((c : Thread nD τ).loc main_arg1)) :=
  calc W3 (F := Ideal) m ρ c (Proc.devRef .tc main_v6)
    _ = W2 (F := Ideal) m ρ c (Proc.devRef .tc main_v6) := by keeps hostOps0_2
    _ = W1 (F := Ideal) m ρ c (Proc.devRef .tc main_v6) := by keeps hostOps0_1
    _ = Cert.GCN.dstOf (m ((c : Thread nD τ).loc main_arg1)) := s0_v6 (W0 m ρ c)

/-- The factor's column: the select of the first stretch's comparison, reciprocal root and zero, reshaped. -/
theorem W3_v17 : W3 (F := Ideal) m ρ c (Proc.devRef .tc main_v17) = Cert.GCN.dis2Of (disIn m c) := by
  refine (s02_v17 (W2 m ρ c)).trans (congrArg Cert.GCN.dis2Of ?_)
  refine (s01_v16 (W1 m ρ c)).trans ?_
  rw [show W1 (F := Ideal) m ρ c (Proc.devRef .tc main_v12) = _ from s0_v12 (W0 m ρ c),
    show W1 (F := Ideal) m ρ c (Proc.devRef .tc main_v15) = _ from s0_v15 (W0 m ρ c),
    show W1 (F := Ideal) m ρ c (Proc.devRef .tc main_cst_3) = _ from s0_cst3 (W0 m ρ c)]
  rfl

/-! ## At region 0's exit -/

/-- Region 0 writes the scaled input projection. -/
theorem W4_v18 : W4 (F := Ideal) m ρ c (Proc.devRef .tc main_v18) = Cert.GCN.scaleRows (Cert.GCN.dotIn (m ((c : Thread nD τ).loc main_arg0)) (m ((c : Thread nD τ).loc main_arg3))) (Cert.GCN.dis2Of (disIn m c)) := by
  refine (W4_arr m ρ c 3).trans ((arr0 (V3 m ρ) c).trans ?_)
  rw [show V3 (F := Ideal) m ρ c main_arg0 = _ from W3_arg0 m ρ c, show V3 (F := Ideal) m ρ c main_arg3 = _ from W3_arg3 m ρ c,
    show V3 (F := Ideal) m ρ c main_v17 = _ from W3_v17 m ρ c]

theorem W4_v5 : W4 (F := Ideal) m ρ c (Proc.devRef .tc main_v5) = Cert.GCN.srcOf (m ((c : Thread nD τ).loc main_arg1)) :=
  calc W4 (F := Ideal) m ρ c (Proc.devRef .tc main_v5)
    _ = W3 (F := Ideal) m ρ c (Proc.devRef .tc main_v5) := W4_of_ne m ρ c main_v5 (by decide)
    _ = Cert.GCN.srcOf (m ((c : Thread nD τ).loc main_arg1)) := W3_v5 m ρ c

theorem W4_v6 : W4 (F := Ideal) m ρ c (Proc.devRef .tc main_v6) = Cert.GCN.dstOf (m ((c : Thread nD τ).loc main_arg1)) :=
  calc W4 (F := Ideal) m ρ c (Proc.devRef .tc main_v6)
    _ = W3 (F := Ideal) m ρ c (Proc.devRef .tc main_v6) := W4_of_ne m ρ c main_v6 (by decide)
    _ = Cert.GCN.dstOf (m ((c : Thread nD τ).loc main_arg1)) := W3_v6 m ρ c

theorem W4_arg4 : W4 (F := Ideal) m ρ c (Proc.devRef .tc main_arg4) = m ((c : Thread nD τ).loc main_arg4) :=
  calc W4 (F := Ideal) m ρ c (Proc.devRef .tc main_arg4)
    _ = W3 (F := Ideal) m ρ c (Proc.devRef .tc main_arg4) := W4_of_ne m ρ c main_arg4 (by decide)
    _ = m ((c : Thread nD τ).loc main_arg4) := W3_arg4 m ρ c

/-! ## At region 1's entry -/

/-- The second stretch aggregates the scaled projection over the edges. -/
theorem W5_v28 : W5 (F := Ideal) m ρ c (Proc.devRef .tc main_v28) = Cert.GCN.aggK (Cert.GCN.scaleRows (Cert.GCN.dotIn (m ((c : Thread nD τ).loc main_arg0)) (m ((c : Thread nD τ).loc main_arg3))) (Cert.GCN.dis2Of (disIn m c))) (Cert.GCN.srcOf (m ((c : Thread nD τ).loc main_arg1))) (Cert.GCN.dstOf (m ((c : Thread nD τ).loc main_arg1))) := by
  refine (s1_v28 (W4 m ρ c)).trans ?_
  rw [W4_v18 m ρ c, W4_v5 m ρ c, W4_v6 m ρ c]

theorem W5_v29 : W5 (F := Ideal) m ρ c (Proc.devRef .tc main_v29) = shapeCast Cert.ReferenceIdeal.S1x64 (m ((c : Thread nD τ).loc main_arg4)) Cert.GCN.casts_S64_S1x64 := by
  refine (s1_v29 (W4 m ρ c)).trans ?_
  rw [W4_arg4 m ρ c]

theorem W5_v17 : W5 (F := Ideal) m ρ c (Proc.devRef .tc main_v17) = Cert.GCN.dis2Of (disIn m c) :=
  calc W5 (F := Ideal) m ρ c (Proc.devRef .tc main_v17)
    _ = W4 (F := Ideal) m ρ c (Proc.devRef .tc main_v17) := by keeps hostOps1
    _ = W3 (F := Ideal) m ρ c (Proc.devRef .tc main_v17) := (W4_arr m ρ c 2).trans (((dat0 (V3 m ρ) c).arrAt_in 2 rfl _).trans (A_eq0 (V3 m ρ) c 2))
    _ = Cert.GCN.dis2Of (disIn m c) := W3_v17 m ρ c

/-! ## At region 1's exit -/

/-- Region 1 writes the first layer's output. -/
theorem W6_v30 : W6 (F := Ideal) m ρ c (Proc.devRef .tc main_v30) = h1In m c := by
  refine (W6_arr m ρ c 3).trans ((arr1 (V5 m ρ) c).trans ?_)
  rw [show V5 (F := Ideal) m ρ c main_v28 = _ from W5_v28 m ρ c, show V5 (F := Ideal) m ρ c main_v17 = _ from W5_v17 m ρ c,
    show V5 (F := Ideal) m ρ c main_v29 = _ from W5_v29 m ρ c]
  rfl

theorem W6_v17 : W6 (F := Ideal) m ρ c (Proc.devRef .tc main_v17) = Cert.GCN.dis2Of (disIn m c) :=
  calc W6 (F := Ideal) m ρ c (Proc.devRef .tc main_v17)
    _ = W5 (F := Ideal) m ρ c (Proc.devRef .tc main_v17) := (W6_arr m ρ c 1).trans (((dat1 (V5 m ρ) c).arrAt_in 1 rfl _).trans (A_eq1 (V5 m ρ) c 1))
    _ = Cert.GCN.dis2Of (disIn m c) := W5_v17 m ρ c

theorem W6_arg5 : W6 (F := Ideal) m ρ c (Proc.devRef .tc main_arg5) = m ((c : Thread nD τ).loc main_arg5) :=
  calc W6 (F := Ideal) m ρ c (Proc.devRef .tc main_arg5)
    _ = W5 (F := Ideal) m ρ c (Proc.devRef .tc main_arg5) := W6_of_ne m ρ c main_arg5 (by decide)
    _ = W4 (F := Ideal) m ρ c (Proc.devRef .tc main_arg5) := by keeps hostOps1
    _ = W3 (F := Ideal) m ρ c (Proc.devRef .tc main_arg5) := W4_of_ne m ρ c main_arg5 (by decide)
    _ = m ((c : Thread nD τ).loc main_arg5) := W3_arg5 m ρ c

/-! ## At region 2's exit -/

theorem W7_v31 : W7 (F := Ideal) m ρ c (Proc.devRef .tc main_v31)
    = Cert.GCN.scaleRows (Cert.GCN.dotHid (h1In m c) (m ((c : Thread nD τ).loc main_arg5))) (Cert.GCN.dis2Of (disIn m c)) := by
  refine (W7_arr m ρ c 3).trans ((arr2 (V6 m ρ) c).trans ?_)
  rw [show V6 (F := Ideal) m ρ c main_v30 = _ from W6_v30 m ρ c, show V6 (F := Ideal) m ρ c main_arg5 = _ from W6_arg5 m ρ c,
    show V6 (F := Ideal) m ρ c main_v17 = _ from W6_v17 m ρ c]

theorem W7_v5 : W7 (F := Ideal) m ρ c (Proc.devRef .tc main_v5) = Cert.GCN.srcOf (m ((c : Thread nD τ).loc main_arg1)) :=
  calc W7 (F := Ideal) m ρ c (Proc.devRef .tc main_v5)
    _ = W6 (F := Ideal) m ρ c (Proc.devRef .tc main_v5) := W7_of_ne m ρ c main_v5 (by decide)
    _ = W5 (F := Ideal) m ρ c (Proc.devRef .tc main_v5) := W6_of_ne m ρ c main_v5 (by decide)
    _ = W4 (F := Ideal) m ρ c (Proc.devRef .tc main_v5) := by keeps hostOps1
    _ = Cert.GCN.srcOf (m ((c : Thread nD τ).loc main_arg1)) := W4_v5 m ρ c

theorem W7_v6 : W7 (F := Ideal) m ρ c (Proc.devRef .tc main_v6) = Cert.GCN.dstOf (m ((c : Thread nD τ).loc main_arg1)) :=
  calc W7 (F := Ideal) m ρ c (Proc.devRef .tc main_v6)
    _ = W6 (F := Ideal) m ρ c (Proc.devRef .tc main_v6) := W7_of_ne m ρ c main_v6 (by decide)
    _ = W5 (F := Ideal) m ρ c (Proc.devRef .tc main_v6) := W6_of_ne m ρ c main_v6 (by decide)
    _ = W4 (F := Ideal) m ρ c (Proc.devRef .tc main_v6) := by keeps hostOps1
    _ = Cert.GCN.dstOf (m ((c : Thread nD τ).loc main_arg1)) := W4_v6 m ρ c

theorem W7_v17 : W7 (F := Ideal) m ρ c (Proc.devRef .tc main_v17) = Cert.GCN.dis2Of (disIn m c) :=
  calc W7 (F := Ideal) m ρ c (Proc.devRef .tc main_v17)
    _ = W6 (F := Ideal) m ρ c (Proc.devRef .tc main_v17) := (W7_arr m ρ c 2).trans (((dat2 (V6 m ρ) c).arrAt_in 2 rfl _).trans (A_eq2 (V6 m ρ) c 2))
    _ = Cert.GCN.dis2Of (disIn m c) := W6_v17 m ρ c

theorem W7_arg2 : W7 (F := Ideal) m ρ c (Proc.devRef .tc main_arg2) = (m ((c : Thread nD τ).loc main_arg2)) :=
  calc W7 (F := Ideal) m ρ c (Proc.devRef .tc main_arg2)
    _ = W6 (F := Ideal) m ρ c (Proc.devRef .tc main_arg2) := W7_of_ne m ρ c main_arg2 (by decide)
    _ = W5 (F := Ideal) m ρ c (Proc.devRef .tc main_arg2) := W6_of_ne m ρ c main_arg2 (by decide)
    _ = W4 (F := Ideal) m ρ c (Proc.devRef .tc main_arg2) := by keeps hostOps1
    _ = W3 (F := Ideal) m ρ c (Proc.devRef .tc main_arg2) := W4_of_ne m ρ c main_arg2 (by decide)
    _ = W2 (F := Ideal) m ρ c (Proc.devRef .tc main_arg2) := by keeps hostOps0_2
    _ = W1 (F := Ideal) m ρ c (Proc.devRef .tc main_arg2) := by keeps hostOps0_1
    _ = W0 (F := Ideal) m ρ c (Proc.devRef .tc main_arg2) := by keeps hostOps0
    _ = m ((c : Thread nD τ).loc main_arg2) := rfl

theorem W7_arg6 : W7 (F := Ideal) m ρ c (Proc.devRef .tc main_arg6) = (m ((c : Thread nD τ).loc main_arg6)) :=
  calc W7 (F := Ideal) m ρ c (Proc.devRef .tc main_arg6)
    _ = W6 (F := Ideal) m ρ c (Proc.devRef .tc main_arg6) := W7_of_ne m ρ c main_arg6 (by decide)
    _ = W5 (F := Ideal) m ρ c (Proc.devRef .tc main_arg6) := W6_of_ne m ρ c main_arg6 (by decide)
    _ = W4 (F := Ideal) m ρ c (Proc.devRef .tc main_arg6) := by keeps hostOps1
    _ = W3 (F := Ideal) m ρ c (Proc.devRef .tc main_arg6) := W4_of_ne m ρ c main_arg6 (by decide)
    _ = W2 (F := Ideal) m ρ c (Proc.devRef .tc main_arg6) := by keeps hostOps0_2
    _ = W1 (F := Ideal) m ρ c (Proc.devRef .tc main_arg6) := by keeps hostOps0_1
    _ = W0 (F := Ideal) m ρ c (Proc.devRef .tc main_arg6) := by keeps hostOps0
    _ = m ((c : Thread nD τ).loc main_arg6) := rfl

theorem W7_arg7 : W7 (F := Ideal) m ρ c (Proc.devRef .tc main_arg7) = (m ((c : Thread nD τ).loc main_arg7)) :=
  calc W7 (F := Ideal) m ρ c (Proc.devRef .tc main_arg7)
    _ = W6 (F := Ideal) m ρ c (Proc.devRef .tc main_arg7) := W7_of_ne m ρ c main_arg7 (by decide)
    _ = W5 (F := Ideal) m ρ c (Proc.devRef .tc main_arg7) := W6_of_ne m ρ c main_arg7 (by decide)
    _ = W4 (F := Ideal) m ρ c (Proc.devRef .tc main_arg7) := by keeps hostOps1
    _ = W3 (F := Ideal) m ρ c (Proc.devRef .tc main_arg7) := W4_of_ne m ρ c main_arg7 (by decide)
    _ = W2 (F := Ideal) m ρ c (Proc.devRef .tc main_arg7) := by keeps hostOps0_2
    _ = W1 (F := Ideal) m ρ c (Proc.devRef .tc main_arg7) := by keeps hostOps0_1
    _ = W0 (F := Ideal) m ρ c (Proc.devRef .tc main_arg7) := by keeps hostOps0
    _ = m ((c : Thread nD τ).loc main_arg7) := rfl

theorem W7_arg8 : W7 (F := Ideal) m ρ c (Proc.devRef .tc main_arg8) = (m ((c : Thread nD τ).loc main_arg8)) :=
  calc W7 (F := Ideal) m ρ c (Proc.devRef .tc main_arg8)
    _ = W6 (F := Ideal) m ρ c (Proc.devRef .tc main_arg8) := W7_of_ne m ρ c main_arg8 (by decide)
    _ = W5 (F := Ideal) m ρ c (Proc.devRef .tc main_arg8) := W6_of_ne m ρ c main_arg8 (by decide)
    _ = W4 (F := Ideal) m ρ c (Proc.devRef .tc main_arg8) := by keeps hostOps1
    _ = W3 (F := Ideal) m ρ c (Proc.devRef .tc main_arg8) := W4_of_ne m ρ c main_arg8 (by decide)
    _ = W2 (F := Ideal) m ρ c (Proc.devRef .tc main_arg8) := by keeps hostOps0_2
    _ = W1 (F := Ideal) m ρ c (Proc.devRef .tc main_arg8) := by keeps hostOps0_1
    _ = W0 (F := Ideal) m ρ c (Proc.devRef .tc main_arg8) := by keeps hostOps0
    _ = m ((c : Thread nD τ).loc main_arg8) := rfl

end Cert.KernelIdeal.RegVal

end
-- ==== Proof.KFoldB.lean ====
/-
  The kernel program's result buffer at the last boundary, as the kernel's function of the launch arguments: the second aggregation and epilogue (region 3), the per-graph sums and counts, the pooled projection (region 4).
-/
import proofs.«157537_j39161511805099_1_alg».proof.Proof.Gen.KernelIdeal.Frame
import proofs.«157537_j39161511805099_1_alg».proof.Proof.Spec
import proofs.«157537_j39161511805099_1_alg».proof.Proof.KReg3
import proofs.«157537_j39161511805099_1_alg».proof.Proof.KReg4
import proofs.«157537_j39161511805099_1_alg».proof.Proof.KFoldA
import Idealize.ShloMosaic.Lib.StableHlo.Run

set_option maxRecDepth 16384

noncomputable section

namespace Cert.KernelIdeal.RegVal

open Idealize.ShloMosaic Idealize.ShloMosaic.TcCoe Idealize.SL.Sem Idealize.ShloMosaic.StableHlo
open Cert.KernelIdeal Cert.KernelIdeal.Gen

/-! ## The two host stretches, read at an arbitrary valuation -/

section Readings

variable (W : Valuation τ sig (Elt Ideal))

/-- Before region 3: the rows gathered at the sources and added up at the destinations. -/
theorem ops3_v41 :
    after (hostOps3 (F := Ideal)) W (Proc.devRef .tc main_v41)
      = Cert.GCN.aggK (W (Proc.devRef .tc main_v31)) (W (Proc.devRef .tc main_v5)) (W (Proc.devRef .tc main_v6)) := by
  simp only [hostOps3]
  after_results_simp
  rfl

/-- Before region 3: the second bias as a one-row matrix. -/
theorem ops3_v42 :
    after (hostOps3 (F := Ideal)) W (Proc.devRef .tc main_v42)
      = shapeCast Cert.ReferenceIdeal.S1x64 (W (Proc.devRef .tc main_arg6)) Cert.GCN.casts_S64_S1x64 := by
  simp only [hostOps3]
  after_results_simp
  rfl

/-- Before region 3 nothing writes the normalisation column, the graph assignment, the last weights or the last bias. -/
theorem ops3_v17 : after (hostOps3 (F := Ideal)) W (Proc.devRef .tc main_v17) = W (Proc.devRef .tc main_v17) := by
  simp only [hostOps3]
  after_results_simp
theorem ops3_arg2 : after (hostOps3 (F := Ideal)) W (Proc.devRef .tc main_arg2) = W (Proc.devRef .tc main_arg2) := by
  simp only [hostOps3]
  after_results_simp
theorem ops3_arg7 : after (hostOps3 (F := Ideal)) W (Proc.devRef .tc main_arg7) = W (Proc.devRef .tc main_arg7) := by
  simp only [hostOps3]
  after_results_simp
theorem ops3_arg8 : after (hostOps3 (F := Ideal)) W (Proc.devRef .tc main_arg8) = W (Proc.devRef .tc main_arg8) := by
  simp only [hostOps3]
  after_results_simp

/-- Before region 4: the node rows added up per graph. -/
theorem ops4_v46 :
    after (hostOps4 (F := Ideal)) W (Proc.devRef .tc main_v46)
      = Cert.GCN.sumsOf (W (Proc.devRef .tc main_v43)) (W (Proc.devRef .tc main_arg2)) := by
  simp only [hostOps4]
  after_results_simp
  rfl

/-- Before region 4: the node counts per graph as a one-column matrix. -/
theorem ops4_v51 :
    after (hostOps4 (F := Ideal)) W (Proc.devRef .tc main_v51)
      = shapeCast Cert.ReferenceIdeal.S500x1 (Cert.GCN.cntsOf (W (Proc.devRef .tc main_arg2))) Cert.GCN.casts_S500_S500x1 := by
  simp only [hostOps4]
  after_results_simp
  rfl

/-- Before region 4: the last bias as a one-by-one matrix. -/
theorem ops4_v52 :
    after (hostOps4 (F := Ideal)) W (Proc.devRef .tc main_v52)
      = shapeCast Cert.ReferenceIdeal.S1x1 (W (Proc.devRef .tc main_arg8)) Cert.GCN.casts_S1_S1x1 := by
  simp only [hostOps4]
  after_results_simp
  rfl

/-- Before region 4 nothing writes the last weights. -/
theorem ops4_arg7 : after (hostOps4 (F := Ideal)) W (Proc.devRef .tc main_arg7) = W (Proc.devRef .tc main_arg7) := by
  simp only [hostOps4]
  after_results_simp

end Readings

/-! ## The fold from the boundary after region 2 to the last boundary -/

variable (m : (ℓ : Loc nD τ sig) → Buf (Elt Ideal) ℓ) (ρ : Dev nD → PrngReg) (c : Dev nD)

/-- Region 3's entry: the aggregated rows of the scaled hidden projection. -/
theorem W8_v41 : W8 (F := Ideal) m ρ c (Proc.devRef .tc main_v41)
    = Cert.GCN.aggK (Cert.GCN.scaleRows (Cert.GCN.dotHid (h1In m c) (m ((c : Thread nD τ).loc main_arg5))) (Cert.GCN.dis2Of (disIn m c)))
        (Cert.GCN.srcOf (m ((c : Thread nD τ).loc main_arg1))) (Cert.GCN.dstOf (m ((c : Thread nD τ).loc main_arg1))) := by
  refine (ops3_v41 (W7 m ρ c)).trans ?_
  rw [W7_v31, W7_v5, W7_v6]

/-- Region 3's entry: the normalisation column. -/
theorem W8_v17 : W8 (F := Ideal) m ρ c (Proc.devRef .tc main_v17) = Cert.GCN.dis2Of (disIn m c) :=
  (ops3_v17 (W7 m ρ c)).trans (W7_v17 m ρ c)

/-- Region 3's entry: the second bias row. -/
theorem W8_v42 : W8 (F := Ideal) m ρ c (Proc.devRef .tc main_v42)
    = shapeCast Cert.ReferenceIdeal.S1x64 (m ((c : Thread nD τ).loc main_arg6)) Cert.GCN.casts_S64_S1x64 := by
  refine (ops3_v42 (W7 m ρ c)).trans ?_
  rw [W7_arg6]

/-- Region 3's exit: the second layer's output. -/
theorem W9_v43 : W9 (F := Ideal) m ρ c (Proc.devRef .tc main_v43)
    = Cert.GCN.layerK (Cert.GCN.dotHid (h1In m c) (m ((c : Thread nD τ).loc main_arg5))) (disIn m c)
        (Cert.GCN.srcOf (m ((c : Thread nD τ).loc main_arg1))) (Cert.GCN.dstOf (m ((c : Thread nD τ).loc main_arg1)))
        (m ((c : Thread nD τ).loc main_arg6)) := by
  refine ((W9_arr m ρ c 3).trans (arr3 (V8 m ρ) c)).trans ?_
  refine (congr (congr (congrArg Cert.GCN.postK (W8_v41 m ρ c)) (W8_v17 m ρ c)) (W8_v42 m ρ c)).trans ?_
  rfl

/-- Region 3 and the stretch before it leave the graph assignment, the last weights and the last bias as launched. -/
theorem W9_arg2 : W9 (F := Ideal) m ρ c (Proc.devRef .tc main_arg2) = m ((c : Thread nD τ).loc main_arg2) :=
  (W9_of_ne m ρ c main_arg2 (by decide)).trans ((ops3_arg2 (W7 m ρ c)).trans (W7_arg2 m ρ c))
theorem W9_arg7 : W9 (F := Ideal) m ρ c (Proc.devRef .tc main_arg7) = m ((c : Thread nD τ).loc main_arg7) :=
  (W9_of_ne m ρ c main_arg7 (by decide)).trans ((ops3_arg7 (W7 m ρ c)).trans (W7_arg7 m ρ c))
theorem W9_arg8 : W9 (F := Ideal) m ρ c (Proc.devRef .tc main_arg8) = m ((c : Thread nD τ).loc main_arg8) :=
  (W9_of_ne m ρ c main_arg8 (by decide)).trans ((ops3_arg8 (W7 m ρ c)).trans (W7_arg8 m ρ c))

/-- Region 4's entry: the per-graph sums of the second layer's rows. -/
theorem W10_v46 : W10 (F := Ideal) m ρ c (Proc.devRef .tc main_v46)
    = Cert.GCN.sumsOf (Cert.GCN.layerK (Cert.GCN.dotHid (h1In m c) (m ((c : Thread nD τ).loc main_arg5))) (disIn m c)
        (Cert.GCN.srcOf (m ((c : Thread nD τ).loc main_arg1))) (Cert.GCN.dstOf (m ((c : Thread nD τ).loc main_arg1)))
        (m ((c : Thread nD τ).loc main_arg6))) (m ((c : Thread nD τ).loc main_arg2)) := by
  refine (ops4_v46 (W9 m ρ c)).trans ?_
  rw [W9_v43, W9_arg2]

/-- Region 4's entry: the per-graph counts column. -/
theorem W10_v51 : W10 (F := Ideal) m ρ c (Proc.devRef .tc main_v51)
    = shapeCast Cert.ReferenceIdeal.S500x1 (Cert.GCN.cntsOf (m ((c : Thread nD τ).loc main_arg2))) Cert.GCN.casts_S500_S500x1 := by
  refine (ops4_v51 (W9 m ρ c)).trans ?_
  rw [W9_arg2]

/-- Region 4's entry: the last bias. -/
theorem W10_v52 : W10 (F := Ideal) m ρ c (Proc.devRef .tc main_v52)
    = shapeCast Cert.ReferenceIdeal.S1x1 (m ((c : Thread nD τ).loc main_arg8)) Cert.GCN.casts_S1_S1x1 := by
  refine (ops4_v52 (W9 m ρ c)).trans ?_
  rw [W9_arg8]

/-- Region 4's entry: the last weights. -/
theorem W10_arg7 : W10 (F := Ideal) m ρ c (Proc.devRef .tc main_arg7) = m ((c : Thread nD τ).loc main_arg7) :=
  (ops4_arg7 (W9 m ρ c)).trans (W9_arg7 m ρ c)

/-- THE KERNEL'S VALUE: the last boundary's contents at the result buffer. -/
theorem result_eq : W11 (F := Ideal) m ρ c (Proc.devRef .tc main_v53)
    = Cert.GCN.kernelOut (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8)) := by
  refine ((W11_arr m ρ c 4).trans (arr4 (V10 m ρ) c)).trans ?_
  refine (congr (congr (congr (congrArg Cert.GCN.poolK (W10_v46 m ρ c)) (W10_v51 m ρ c)) (W10_arg7 m ρ c)) (W10_v52 m ρ c)).trans ?_
  rfl

end Cert.KernelIdeal.RegVal

end
-- ==== Proof.ROps.lean ====
/-
  The reference program is the straight line of its listed operations, window after window; its run ends with every buffer at the operations' fold over the launch contents.
-/
import proofs.«157537_j39161511805099_1_alg».proof.Proof.ROpsList
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The fold over a concatenation is the folds one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem main_part0_eq (c : Dev nD) : main_part0 (F := F) c = seq ops0 := by
  simp only [main_part0, fn_where.body, seq, bind_assoc, pure_bind]
  rfl

theorem main_part1_eq (c : Dev nD) : main_part1 (F := F) c = seq ops1 := by
  simp only [main_part1, fn_elu.body, fn_where.body, fn_where_0.body, fn_where_1.body, seq, bind_assoc, pure_bind]

theorem main_part2_eq (c : Dev nD) : main_part2 (F := F) c = seq ops2 := by
  simp only [main_part2, seq, bind_assoc, pure_bind]

theorem main_eq (c : Dev nD) : main (F := F) c = seq (ops0 ++ (ops1 ++ ops2)) := by
  rw [seq_append, seq_append, ← main_part0_eq c, ← main_part1_eq c, ← main_part2_eq c]
  rfl

/-- The signature scopes no TensorCore buffer. -/
private theorem scopedRefs_eq : (Finset.univ.filter fun b : Ref sig .tc => b.isScoped) = ∅ := by decide
/-- The signature scopes no semaphore. -/
private theorem scopedSems_eq : (Finset.univ.filter fun sm : SemLoc sig => sm.isScoped .tc) = ∅ := by decide

/-- No operation of window 0 allocates a buffer. -/
private theorem ops0_fresh : (ops0 : List (HloOp τ sig (Elt F))).Forall fun op => op.fresh = ∅ := by
  simp only [List.Forall]; repeat' constructor
/-- No operation of window 1 allocates a buffer. -/
private theorem ops1_fresh : (ops1 : List (HloOp τ sig (Elt F))).Forall fun op => op.fresh = ∅ := by
  simp only [List.Forall]; repeat' constructor
/-- No operation of window 2 allocates a buffer. -/
private theorem ops2_fresh : (ops2 : List (HloOp τ sig (Elt F))).Forall fun op => op.fresh = ∅ := by
  simp only [List.Forall]; repeat' constructor

/-- From any memory with zero counters every weakly fair execution of the reference terminates, nothing faulting,
    with every buffer at the fold of the three windows' operations over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after (ops2 (F := F)) (after ops1 (after ops0 (launchContents m c))) (Proc.devRef .tc b) := by
  have hS : (ops0 ++ (ops1 ++ ops2) : List (HloOp τ sig (Elt F))).Forall fun op => op.bufs ⊆ tcRefs τ sig :=
    List.forall_append.mpr ⟨ops0_sub, List.forall_append.mpr ⟨ops1_sub, ops2_sub⟩⟩
  have hF : ∀ op ∈ (ops0 ++ (ops1 ++ ops2) : List (HloOp τ sig (Elt F))), op.fresh = ∅ :=
    List.forall_iff_forall_mem.mp
      (List.forall_append.mpr ⟨ops0_fresh, List.forall_append.mpr ⟨ops1_fresh, ops2_fresh⟩⟩)
  have h := run_seq scopedRefs_eq scopedSems_eq defs (main (F := F)) (fun _ => ops0 ++ (ops1 ++ ops2)) main_eq
    (fun _ => hS) m ρ (fun _ => hF)
  refine (θ_run defs _ _).mono (fun r hr c b => ?_) h
  rw [hr c b, after_append, after_append]

end Cert.ReferenceIdeal.RefRun

end
-- ==== Proof.RFoldA.lean ====
/-
  The reference's first window read back: the first layer's aggregated messages and its bias rows, the two rows of the edge list, the arguments untouched.
-/
import proofs.«157537_j39161511805099_1_alg».proof.Proof.ROpsList
import proofs.«157537_j39161511805099_1_alg».proof.Proof.Spec
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The fold over a concatenation is the folds one after the other. -/
private theorem after_app (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

/-- A line cut at any place: the fold of the tail over the fold of the head. -/
private theorem after_cut (n : Nat) (l : List (HloOp τ sig (Elt Ideal))) (V : Valuation τ sig (Elt Ideal)) :
    after l V = after (l.drop n) (after (l.take n) V) := by
  rw [← after_app, List.take_append_drop]

/-! The window in three pieces: the operations up to the reciprocal root of the degree, the inlined selection that
    makes the normalisation factor of it, and the rest (the per-edge factor, the messages, their sum per node). -/

private abbrev headOps : List (HloOp τ sig (Elt Ideal)) := (ops0 (F := Ideal)).take 21
private abbrev whereOps : List (HloOp τ sig (Elt Ideal)) := ((ops0 (F := Ideal)).drop 21).take 4
private abbrev tailOps : List (HloOp τ sig (Elt Ideal)) := ((ops0 (F := Ideal)).drop 21).drop 4

private theorem head_v4 (V : Valuation τ sig (Elt Ideal)) : after headOps V (Proc.devRef .tc main_v4)
    = Cert.GCN.dotIn (V (Proc.devRef .tc main_arg0)) (V (Proc.devRef .tc main_arg3)) := by
  simp only [headOps, ops0, List.drop_succ_cons, List.drop_zero, List.take_succ_cons, List.take_zero]
  after_results_simp
  rfl

private theorem head_v6 (V : Valuation τ sig (Elt Ideal)) : after headOps V (Proc.devRef .tc main_v6)
    = Cert.GCN.srcOf (V (Proc.devRef .tc main_arg1)) := by
  simp only [headOps, ops0, List.drop_succ_cons, List.drop_zero, List.take_succ_cons, List.take_zero]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

private theorem head_v7 (V : Valuation τ sig (Elt Ideal)) : after headOps V (Proc.devRef .tc main_v7)
    = Cert.GCN.dstOf (V (Proc.devRef .tc main_arg1)) := by
  simp only [headOps, ops0, List.drop_succ_cons, List.drop_zero, List.take_succ_cons, List.take_zero]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

private theorem head_v13 (V : Valuation τ sig (Elt Ideal)) : after headOps V (Proc.devRef .tc main_v13)
    = cmpf .ogt (Cert.GCN.degOf (Cert.GCN.dstOf (V (Proc.devRef .tc main_arg1)))) Cert.GCN.zeros1 := by
  suffices h : ∀ X, cmpf .ogt (Cert.GCN.degOf (Cert.GCN.dstOf (V (Proc.devRef .tc main_arg1)))) Cert.GCN.zeros1 = X →
      after headOps V (Proc.devRef .tc main_v13) = X from h _ rfl
  intro X hX
  simp only [headOps, ops0, List.drop_succ_cons, List.drop_zero, List.take_succ_cons, List.take_zero]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  exact hX

private theorem head_v16 (V : Valuation τ sig (Elt Ideal)) : after headOps V (Proc.devRef .tc main_v16)
    = Host.rsqrt (maximumf (Cert.GCN.degOf (Cert.GCN.dstOf (V (Proc.devRef .tc main_arg1))))
        (broadcastInDim S50000 ![] bcast_S_S50000 (constant S_ .f32 0x2B8CBCCC#32))) := by
  suffices h : ∀ X, Host.rsqrt (maximumf (Cert.GCN.degOf (Cert.GCN.dstOf (V (Proc.devRef .tc main_arg1))))
        (broadcastInDim S50000 ![] bcast_S_S50000 (constant S_ .f32 0x2B8CBCCC#32))) = X →
      after headOps V (Proc.devRef .tc main_v16) = X from h _ rfl
  intro X hX
  simp only [headOps, ops0, List.drop_succ_cons, List.drop_zero, List.take_succ_cons, List.take_zero]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  exact hX

/-- The inlined selection alone, over any contents: the factor where the mask holds, zero elsewhere. -/
private theorem where_v17 (W : Valuation τ sig (Elt Ideal)) : after whereOps W (Proc.devRef .tc main_v17)
    = select (W (Proc.devRef .tc main_v13) : (⟨S50000, .i1⟩ : BufTy).Contents (Elt Ideal)) (W (Proc.devRef .tc main_v16) : (⟨S50000, .f32⟩ : BufTy).Contents (Elt Ideal))
        (broadcastInDim S50000 ![] bcast_S_S50000 (id (constant S_ .f32 0x00000000#32 : FVec Ideal S_ .f32)) : FVec Ideal S50000 .f32) := by
  simp only [whereOps, ops0, List.drop_succ_cons, List.drop_zero, List.take_succ_cons, List.take_zero]
  after_results_simp
  rfl

private theorem where_v4 (W : Valuation τ sig (Elt Ideal)) : after whereOps W (Proc.devRef .tc main_v4) = W (Proc.devRef .tc main_v4) :=
  StableHlo.after_of_forall_not_mem (b := Proc.devRef .tc main_v4) _ _ (List.forall_iff_forall_mem.mp (by
    simp only [whereOps, ops0, List.drop_succ_cons, List.drop_zero, List.take_succ_cons, List.take_zero, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

private theorem where_v6 (W : Valuation τ sig (Elt Ideal)) : after whereOps W (Proc.devRef .tc main_v6) = W (Proc.devRef .tc main_v6) :=
  StableHlo.after_of_forall_not_mem (b := Proc.devRef .tc main_v6) _ _ (List.forall_iff_forall_mem.mp (by
    simp only [whereOps, ops0, List.drop_succ_cons, List.drop_zero, List.take_succ_cons, List.take_zero, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

private theorem where_v7 (W : Valuation τ sig (Elt Ideal)) : after whereOps W (Proc.devRef .tc main_v7) = W (Proc.devRef .tc main_v7) :=
  StableHlo.after_of_forall_not_mem (b := Proc.devRef .tc main_v7) _ _ (List.forall_iff_forall_mem.mp (by
    simp only [whereOps, ops0, List.drop_succ_cons, List.drop_zero, List.take_succ_cons, List.take_zero, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- The rest of the window over any contents: the reference's aggregation of the four buffers it reads. -/
private theorem tail_v45 (W : Valuation τ sig (Elt Ideal)) : after tailOps W (Proc.devRef .tc main_v45)
    = Cert.GCN.aggR (W (Proc.devRef .tc main_v4)) (W (Proc.devRef .tc main_v17)) (W (Proc.devRef .tc main_v6)) (W (Proc.devRef .tc main_v7)) := by
  suffices h : ∀ X, Cert.GCN.aggR (W (Proc.devRef .tc main_v4)) (W (Proc.devRef .tc main_v17)) (W (Proc.devRef .tc main_v6)) (W (Proc.devRef .tc main_v7)) = X →
      after tailOps W (Proc.devRef .tc main_v45) = X from h _ rfl
  intro X hX
  simp only [tailOps, ops0, List.drop_succ_cons, List.drop_zero, List.take_succ_cons, List.take_zero]
  after_results_simp
  exact hX

/-- After the first window: the first layer's aggregated messages, of the arguments. -/
theorem p0_v45 (V : Valuation τ sig (Elt Ideal)) : after (ops0 (F := Ideal)) V (Proc.devRef .tc main_v45)
    = Cert.GCN.aggR (Cert.GCN.dotIn (V (Proc.devRef .tc main_arg0)) (V (Proc.devRef .tc main_arg3))) (Cert.GCN.disOf (Cert.GCN.degOf (Cert.GCN.dstOf (V (Proc.devRef .tc main_arg1)))))
        (Cert.GCN.srcOf (V (Proc.devRef .tc main_arg1))) (Cert.GCN.dstOf (V (Proc.devRef .tc main_arg1))) := by
  have h1 := after_cut 21 (ops0 (F := Ideal)) V
  have h2 := after_cut 4 ((ops0 (F := Ideal)).drop 21) (after ((ops0 (F := Ideal)).take 21) V)
  rw [h1, h2]
  rw [show after (((ops0 (F := Ideal)).drop 21).drop 4) = after tailOps from rfl, tail_v45]
  rw [show after (((ops0 (F := Ideal)).drop 21).take 4) = after whereOps from rfl, where_v17, where_v4, where_v6, where_v7]
  rw [show after ((ops0 (F := Ideal)).take 21) = after headOps from rfl, head_v4, head_v6, head_v7, head_v13, head_v16]
  simp only [Cert.GCN.disOf]

/-- After the first window: the first layer's bias, one row per node. -/
theorem p0_v47 (V : Valuation τ sig (Elt Ideal)) : after (ops0 (F := Ideal)) V (Proc.devRef .tc main_v47) = Cert.GCN.biasR (V (Proc.devRef .tc main_arg4)) := by
  simp only [ops0]
  after_results_simp
  rfl

theorem p0_v1 (V : Valuation τ sig (Elt Ideal)) : after (ops0 (F := Ideal)) V (Proc.devRef .tc main_v1) = Cert.GCN.row0 (V (Proc.devRef .tc main_arg1)) := by
  simp only [ops0]
  after_results_simp
  rfl

theorem p0_v3 (V : Valuation τ sig (Elt Ideal)) : after (ops0 (F := Ideal)) V (Proc.devRef .tc main_v3) = Cert.GCN.row1 (V (Proc.devRef .tc main_arg1)) := by
  simp only [ops0]
  after_results_simp
  rfl

/-! No operation of the window names an argument as its result, so each argument's buffer is as it was. -/

theorem p0_arg0 (V : Valuation τ sig (Elt Ideal)) : after (ops0 (F := Ideal)) V (Proc.devRef .tc main_arg0) = V (Proc.devRef .tc main_arg0) :=
  StableHlo.after_of_forall_not_mem (b := Proc.devRef .tc main_arg0) _ _ (List.forall_iff_forall_mem.mp (by
    simp only [ops0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem p0_arg1 (V : Valuation τ sig (Elt Ideal)) : after (ops0 (F := Ideal)) V (Proc.devRef .tc main_arg1) = V (Proc.devRef .tc main_arg1) :=
  StableHlo.after_of_forall_not_mem (b := Proc.devRef .tc main_arg1) _ _ (List.forall_iff_forall_mem.mp (by
    simp only [ops0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem p0_arg2 (V : Valuation τ sig (Elt Ideal)) : after (ops0 (F := Ideal)) V (Proc.devRef .tc main_arg2) = V (Proc.devRef .tc main_arg2) :=
  StableHlo.after_of_forall_not_mem (b := Proc.devRef .tc main_arg2) _ _ (List.forall_iff_forall_mem.mp (by
    simp only [ops0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem p0_arg3 (V : Valuation τ sig (Elt Ideal)) : after (ops0 (F := Ideal)) V (Proc.devRef .tc main_arg3) = V (Proc.devRef .tc main_arg3) :=
  StableHlo.after_of_forall_not_mem (b := Proc.devRef .tc main_arg3) _ _ (List.forall_iff_forall_mem.mp (by
    simp only [ops0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem p0_arg4 (V : Valuation τ sig (Elt Ideal)) : after (ops0 (F := Ideal)) V (Proc.devRef .tc main_arg4) = V (Proc.devRef .tc main_arg4) :=
  StableHlo.after_of_forall_not_mem (b := Proc.devRef .tc main_arg4) _ _ (List.forall_iff_forall_mem.mp (by
    simp only [ops0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem p0_arg5 (V : Valuation τ sig (Elt Ideal)) : after (ops0 (F := Ideal)) V (Proc.devRef .tc main_arg5) = V (Proc.devRef .tc main_arg5) :=
  StableHlo.after_of_forall_not_mem (b := Proc.devRef .tc main_arg5) _ _ (List.forall_iff_forall_mem.mp (by
    simp only [ops0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem p0_arg6 (V : Valuation τ sig (Elt Ideal)) : after (ops0 (F := Ideal)) V (Proc.devRef .tc main_arg6) = V (Proc.devRef .tc main_arg6) :=
  StableHlo.after_of_forall_not_mem (b := Proc.devRef .tc main_arg6) _ _ (List.forall_iff_forall_mem.mp (by
    simp only [ops0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem p0_arg7 (V : Valuation τ sig (Elt Ideal)) : after (ops0 (F := Ideal)) V (Proc.devRef .tc main_arg7) = V (Proc.devRef .tc main_arg7) :=
  StableHlo.after_of_forall_not_mem (b := Proc.devRef .tc main_arg7) _ _ (List.forall_iff_forall_mem.mp (by
    simp only [ops0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem p0_arg8 (V : Valuation τ sig (Elt Ideal)) : after (ops0 (F := Ideal)) V (Proc.devRef .tc main_arg8) = V (Proc.devRef .tc main_arg8) :=
  StableHlo.after_of_forall_not_mem (b := Proc.devRef .tc main_arg8) _ _ (List.forall_iff_forall_mem.mp (by
    simp only [ops0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

end Cert.ReferenceIdeal.RefRun

end
-- ==== Proof.RFoldB.lean ====
/-
  The reference's second window read back: the second layer of the first window's pre-activation, the arguments untouched.
-/
import proofs.«157537_j39161511805099_1_alg».proof.Proof.ROpsList
import proofs.«157537_j39161511805099_1_alg».proof.Proof.Spec
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

/-- A buffer none of a piece's operations writes keeps its contents. -/
local macro "keeps " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-! ## The window in pieces: each inlined call apart, the two index lists first in their piece -/

section Pieces

variable {F : FTy → Type} [FloatOps F]

/-- The sum feeding the first unit. -/
private abbrev q0 : List (HloOp τ sig (Elt F)) :=
  [ StableHlo.binary main_v45 main_v47 main_v48 (addf : (⟨S50000x64, .f32⟩ : BufTy).Contents (Elt F) → (⟨S50000x64, .f32⟩ : BufTy).Contents (Elt F) → (⟨S50000x64, .f32⟩ : BufTy).Contents (Elt F)) ]

/-- The first unit (the inlined call and its two inner selections). -/
private abbrev q1 : List (HloOp τ sig (Elt F)) :=
  [ StableHlo.TRef.nullary main_call1.cst (constant S_ .f32 0x00000000#32),
    StableHlo.TRef.unary main_call1.cst main_call1.v0 (broadcastInDim S50000x64 ![] bcast_S_S50000x64),
    StableHlo.TRef.binary (.of main_v48 : StableHlo.TRef sig ⟨S50000x64, .f32⟩) main_call1.v0 main_call1.v1 (cmpf .ogt),
    StableHlo.TRef.nullary main_call1.cst_0 (constant S_ .f32 0x00000000#32),
    StableHlo.TRef.unary main_call1.cst_0 main_call1.v2 (broadcastInDim S50000x64 ![] bcast_S_S50000x64),
    StableHlo.TRef.binary (.of main_v48 : StableHlo.TRef sig ⟨S50000x64, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S50000x64 ![] bcast_S_S50000x64),
    StableHlo.TRef.ternary main_call1.v3 main_call1.call0.v1 (.of main_v48 : StableHlo.TRef sig ⟨S50000x64, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S50000x64 ![] bcast_S_S50000x64),
    StableHlo.TRef.binary main_call1.v6 main_call1.v5 main_call1.v7 mulf,
    StableHlo.TRef.ternary main_call1.v1 (.of main_v48 : StableHlo.TRef sig ⟨S50000x64, .f32⟩) main_call1.v7 main_call1.call1.v0 select ]

/-- The hidden projection and the self-loop indices. -/
private abbrev q2 : List (HloOp τ sig (Elt F)) :=
  [ StableHlo.binary main_v49 main_arg5 main_v50 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.nullary main_v51 (iotaInDim S50000 32 0) ]

/-- The two index lists: a row of the edge list followed by the self loops. -/
private abbrev q3 : List (HloOp τ sig (Elt F)) :=
  [ StableHlo.binary main_v1 main_v51 main_v52 ((fun a b => concatenate S1050000 0 [⟨S1000000, a⟩, ⟨S50000, b⟩] concatenates_S1000000_S50000_S1050000_d0) : (⟨S1000000, .i32⟩ : BufTy).Contents (Elt F) → (⟨S50000, .i32⟩ : BufTy).Contents (Elt F) → (⟨S1050000, .i32⟩ : BufTy).Contents (Elt F)),
    StableHlo.binary main_v3 main_v51 main_v53 ((fun a b => concatenate S1050000 0 [⟨S1000000, a⟩, ⟨S50000, b⟩] concatenates_S1000000_S50000_S1050000_d0) : (⟨S1000000, .i32⟩ : BufTy).Contents (Elt F) → (⟨S50000, .i32⟩ : BufTy).Contents (Elt F) → (⟨S1050000, .i32⟩ : BufTy).Contents (Elt F)) ]

/-- The degree, its positivity test and the reciprocal root of its clamp. -/
private abbrev q4 : List (HloOp τ sig (Elt F)) :=
  [ StableHlo.nullary main_cst_10 (constant S_ .f32 0x3F800000#32),
    StableHlo.unary main_cst_10 main_v54 (broadcastInDim S1050000 ![] bcast_S_S1050000 : (⟨S_, .f32⟩ : BufTy).Contents (Elt F) → (⟨S1050000, .f32⟩ : BufTy).Contents (Elt F)),
    StableHlo.nullary main_cst_11 (constant S_ .f32 0x00000000#32),
    StableHlo.unary main_cst_11 main_v55 (broadcastInDim S50000 ![] bcast_S_S50000 : (⟨S_, .f32⟩ : BufTy).Contents (Elt F) → (⟨S50000, .f32⟩ : BufTy).Contents (Elt F)),
    StableHlo.unary main_v53 main_v56 (broadcastInDim S1050000x1 ![0] bcast_S1050000_S1050000x1_0 : (⟨S1050000, .i32⟩ : BufTy).Contents (Elt F) → (⟨S1050000x1, .i32⟩ : BufTy).Contents (Elt F)),
    StableHlo.ternary main_v55 main_v56 main_v54 main_v57 ((fun x i u => Host.scatterAdd scatter_S50000_S1050000x1_S1050000_n_0_0_1 x i u) : (⟨S50000, .f32⟩ : BufTy).Contents (Elt F) → (⟨S1050000x1, .i32⟩ : BufTy).Contents (Elt F) → (⟨S1050000, .f32⟩ : BufTy).Contents (Elt F) → (⟨S50000, .f32⟩ : BufTy).Contents (Elt F)),
    StableHlo.nullary main_cst_12 (constant S_ .f32 0x00000000#32),
    StableHlo.unary main_cst_12 main_v58 (broadcastInDim S50000 ![] bcast_S_S50000 : (⟨S_, .f32⟩ : BufTy).Contents (Elt F) → (⟨S50000, .f32⟩ : BufTy).Contents (Elt F)),
    StableHlo.binary main_v57 main_v58 main_v59 (cmpf .ogt : (⟨S50000, .f32⟩ : BufTy).Contents (Elt F) → (⟨S50000, .f32⟩ : BufTy).Contents (Elt F) → (⟨S50000, .i1⟩ : BufTy).Contents (Elt F)),
    StableHlo.nullary main_cst_13 (constant S_ .f32 0x2B8CBCCC#32),
    StableHlo.unary main_cst_13 main_v60 (broadcastInDim S50000 ![] bcast_S_S50000 : (⟨S_, .f32⟩ : BufTy).Contents (Elt F) → (⟨S50000, .f32⟩ : BufTy).Contents (Elt F)),
    StableHlo.binary main_v57 main_v60 main_v61 (maximumf : (⟨S50000, .f32⟩ : BufTy).Contents (Elt F) → (⟨S50000, .f32⟩ : BufTy).Contents (Elt F) → (⟨S50000, .f32⟩ : BufTy).Contents (Elt F)),
    StableHlo.unary main_v61 main_v62 (Host.rsqrt : (⟨S50000, .f32⟩ : BufTy).Contents (Elt F) → (⟨S50000, .f32⟩ : BufTy).Contents (Elt F)),
    StableHlo.nullary main_cst_14 (constant S_ .f32 0x00000000#32) ]

/-- The normalisation factor: the inlined selection. -/
private abbrev q5 : List (HloOp τ sig (Elt F)) :=
  [ StableHlo.TRef.unary (.of main_cst_14 : StableHlo.TRef sig ⟨S_, .f32⟩) main_call2.v0 id,
    StableHlo.TRef.unary main_call2.v0 main_call2.v1 (broadcastInDim S50000 ![] bcast_S_S50000),
    StableHlo.TRef.ternary (.of main_v59 : StableHlo.TRef sig ⟨S50000, .i1⟩) (.of main_v62 : StableHlo.TRef sig ⟨S50000, .f32⟩) main_call2.v1 main_call2.v2 select ]

/-- The per-edge factor, the scaled messages, their aggregation and the bias. -/
private abbrev q6 : List (HloOp τ sig (Elt F)) :=
  [ StableHlo.nullary main_c_15 (constantI S_ 32 0#32),
    StableHlo.unary main_c_15 main_v64 (broadcastInDim S1050000 ![] bcast_S_S1050000 : (⟨S_, .i32⟩ : BufTy).Contents (Elt F) → (⟨S1050000, .i32⟩ : BufTy).Contents (Elt F)),
    StableHlo.binary main_v52 main_v64 main_v65 (cmpi .slt : (⟨S1050000, .i32⟩ : BufTy).Contents (Elt F) → (⟨S1050000, .i32⟩ : BufTy).Contents (Elt F) → (⟨S1050000, .i1⟩ : BufTy).Contents (Elt F)),
    StableHlo.nullary main_c_16 (constantI S_ 32 50000#32),
    StableHlo.unary main_c_16 main_v66 (broadcastInDim S1050000 ![] bcast_S_S1050000 : (⟨S_, .i32⟩ : BufTy).Contents (Elt F) → (⟨S1050000, .i32⟩ : BufTy).Contents (Elt F)),
    StableHlo.binary main_v52 main_v66 main_v67 (addi : (⟨S1050000, .i32⟩ : BufTy).Contents (Elt F) → (⟨S1050000, .i32⟩ : BufTy).Contents (Elt F) → (⟨S1050000, .i32⟩ : BufTy).Contents (Elt F)),
    StableHlo.ternary main_v65 main_v67 main_v52 main_v68 (select : (⟨S1050000, .i1⟩ : BufTy).Contents (Elt F) → (⟨S1050000, .i32⟩ : BufTy).Contents (Elt F) → (⟨S1050000, .i32⟩ : BufTy).Contents (Elt F) → (⟨S1050000, .i32⟩ : BufTy).Contents (Elt F)),
    StableHlo.unary main_v68 main_v69 (broadcastInDim S1050000x1 ![0] bcast_S1050000_S1050000x1_0 : (⟨S1050000, .i32⟩ : BufTy).Contents (Elt F) → (⟨S1050000x1, .i32⟩ : BufTy).Contents (Elt F)),
    StableHlo.binary main_v63 main_v69 main_v70 ((fun x i => Host.gather gather_S50000_S1050000x1_S1050000_n_0_n_n_0_1_1 x i) : (⟨S50000, .f32⟩ : BufTy).Contents (Elt F) → (⟨S1050000x1, .i32⟩ : BufTy).Contents (Elt F) → (⟨S1050000, .f32⟩ : BufTy).Contents (Elt F)),
    StableHlo.nullary main_c_17 (constantI S_ 32 0#32),
    StableHlo.unary main_c_17 main_v71 (broadcastInDim S1050000 ![] bcast_S_S1050000 : (⟨S_, .i32⟩ : BufTy).Contents (Elt F) → (⟨S1050000, .i32⟩ : BufTy).Contents (Elt F)),
    StableHlo.binary main_v53 main_v71 main_v72 (cmpi .slt : (⟨S1050000, .i32⟩ : BufTy).Contents (Elt F) → (⟨S1050000, .i32⟩ : BufTy).Contents (Elt F) → (⟨S1050000, .i1⟩ : BufTy).Contents (Elt F)),
    StableHlo.nullary main_c_18 (constantI S_ 32 50000#32),
    StableHlo.unary main_c_18 main_v73 (broadcastInDim S1050000 ![] bcast_S_S1050000 : (⟨S_, .i32⟩ : BufTy).Contents (Elt F) → (⟨S1050000, .i32⟩ : BufTy).Contents (Elt F)),
    StableHlo.binary main_v53 main_v73 main_v74 (addi : (⟨S1050000, .i32⟩ : BufTy).Contents (Elt F) → (⟨S1050000, .i32⟩ : BufTy).Contents (Elt F) → (⟨S1050000, .i32⟩ : BufTy).Contents (Elt F)),
    StableHlo.ternary main_v72 main_v74 main_v53 main_v75 (select : (⟨S1050000, .i1⟩ : BufTy).Contents (Elt F) → (⟨S1050000, .i32⟩ : BufTy).Contents (Elt F) → (⟨S1050000, .i32⟩ : BufTy).Contents (Elt F) → (⟨S1050000, .i32⟩ : BufTy).Contents (Elt F)),
    StableHlo.unary main_v75 main_v76 (broadcastInDim S1050000x1 ![0] bcast_S1050000_S1050000x1_0 : (⟨S1050000, .i32⟩ : BufTy).Contents (Elt F) → (⟨S1050000x1, .i32⟩ : BufTy).Contents (Elt F)),
    StableHlo.binary main_v63 main_v76 main_v77 ((fun x i => Host.gather gather_S50000_S1050000x1_S1050000_n_0_n_n_0_1_1 x i) : (⟨S50000, .f32⟩ : BufTy).Contents (Elt F) → (⟨S1050000x1, .i32⟩ : BufTy).Contents (Elt F) → (⟨S1050000, .f32⟩ : BufTy).Contents (Elt F)),
    StableHlo.binary main_v70 main_v77 main_v78 (mulf : (⟨S1050000, .f32⟩ : BufTy).Contents (Elt F) → (⟨S1050000, .f32⟩ : BufTy).Contents (Elt F) → (⟨S1050000, .f32⟩ : BufTy).Contents (Elt F)),
    StableHlo.nullary main_c_19 (constantI S_ 32 0#32),
    StableHlo.unary main_c_19 main_v79 (broadcastInDim S1050000 ![] bcast_S_S1050000 : (⟨S_, .i32⟩ : BufTy).Contents (Elt F) → (⟨S1050000, .i32⟩ : BufTy).Contents (Elt F)),
    StableHlo.binary main_v52 main_v79 main_v80 (cmpi .slt : (⟨S1050000, .i32⟩ : BufTy).Contents (Elt F) → (⟨S1050000, .i32⟩ : BufTy).Contents (Elt F) → (⟨S1050000, .i1⟩ : BufTy).Contents (Elt F)),
    StableHlo.nullary main_c_20 (constantI S_ 32 50000#32),
    StableHlo.unary main_c_20 main_v81 (broadcastInDim S1050000 ![] bcast_S_S1050000 : (⟨S_, .i32⟩ : BufTy).Contents (Elt F) → (⟨S1050000, .i32⟩ : BufTy).Contents (Elt F)),
    StableHlo.binary main_v52 main_v81 main_v82 (addi : (⟨S1050000, .i32⟩ : BufTy).Contents (Elt F) → (⟨S1050000, .i32⟩ : BufTy).Contents (Elt F) → (⟨S1050000, .i32⟩ : BufTy).Contents (Elt F)),
    StableHlo.ternary main_v80 main_v82 main_v52 main_v83 (select : (⟨S1050000, .i1⟩ : BufTy).Contents (Elt F) → (⟨S1050000, .i32⟩ : BufTy).Contents (Elt F) → (⟨S1050000, .i32⟩ : BufTy).Contents (Elt F) → (⟨S1050000, .i32⟩ : BufTy).Contents (Elt F)),
    StableHlo.unary main_v83 main_v84 (broadcastInDim S1050000x1 ![0] bcast_S1050000_S1050000x1_0 : (⟨S1050000, .i32⟩ : BufTy).Contents (Elt F) → (⟨S1050000x1, .i32⟩ : BufTy).Contents (Elt F)),
    StableHlo.binary main_v50 main_v84 main_v85 ((fun x i => Host.gather gather_S50000x64_S1050000x1_S1050000x64_1_0_n_n_0_1_164 x i) : (⟨S50000x64, .f32⟩ : BufTy).Contents (Elt F) → (⟨S1050000x1, .i32⟩ : BufTy).Contents (Elt F) → (⟨S1050000x64, .f32⟩ : BufTy).Contents (Elt F)),
    StableHlo.unary main_v78 main_v86 (broadcastInDim S1050000x1 ![0] bcast_S1050000_S1050000x1_0 : (⟨S1050000, .f32⟩ : BufTy).Contents (Elt F) → (⟨S1050000x1, .f32⟩ : BufTy).Contents (Elt F)),
    StableHlo.unary main_v86 main_v87 (broadcastInDim S1050000x64 ![0, 1] bcast_S1050000x1_S1050000x64_0_1 : (⟨S1050000x1, .f32⟩ : BufTy).Contents (Elt F) → (⟨S1050000x64, .f32⟩ : BufTy).Contents (Elt F)),
    StableHlo.binary main_v85 main_v87 main_v88 (mulf : (⟨S1050000x64, .f32⟩ : BufTy).Contents (Elt F) → (⟨S1050000x64, .f32⟩ : BufTy).Contents (Elt F) → (⟨S1050000x64, .f32⟩ : BufTy).Contents (Elt F)),
    StableHlo.nullary main_cst_21 (constant S_ .f32 0x00000000#32),
    StableHlo.unary main_cst_21 main_v89 (broadcastInDim S50000x64 ![] bcast_S_S50000x64 : (⟨S_, .f32⟩ : BufTy).Contents (Elt F) → (⟨S50000x64, .f32⟩ : BufTy).Contents (Elt F)),
    StableHlo.unary main_v53 main_v90 (broadcastInDim S1050000x1 ![0] bcast_S1050000_S1050000x1_0 : (⟨S1050000, .i32⟩ : BufTy).Contents (Elt F) → (⟨S1050000x1, .i32⟩ : BufTy).Contents (Elt F)),
    StableHlo.ternary main_v89 main_v90 main_v88 main_v91 ((fun x i u => Host.scatterAdd scatter_S50000x64_S1050000x1_S1050000x64_1_0_0_1 x i u) : (⟨S50000x64, .f32⟩ : BufTy).Contents (Elt F) → (⟨S1050000x1, .i32⟩ : BufTy).Contents (Elt F) → (⟨S1050000x64, .f32⟩ : BufTy).Contents (Elt F) → (⟨S50000x64, .f32⟩ : BufTy).Contents (Elt F)),
    StableHlo.unary main_arg6 main_v92 (broadcastInDim S1x64 ![1] bcast_S64_S1x64_1 : (⟨S64, .f32⟩ : BufTy).Contents (Elt F) → (⟨S1x64, .f32⟩ : BufTy).Contents (Elt F)),
    StableHlo.unary main_v92 main_v93 (broadcastInDim S50000x64 ![0, 1] bcast_S1x64_S50000x64_0_1 : (⟨S1x64, .f32⟩ : BufTy).Contents (Elt F) → (⟨S50000x64, .f32⟩ : BufTy).Contents (Elt F)),
    StableHlo.binary main_v91 main_v93 main_v94 (addf : (⟨S50000x64, .f32⟩ : BufTy).Contents (Elt F) → (⟨S50000x64, .f32⟩ : BufTy).Contents (Elt F) → (⟨S50000x64, .f32⟩ : BufTy).Contents (Elt F)) ]

/-- The second unit. -/
private abbrev q7 : List (HloOp τ sig (Elt F)) :=
  [ StableHlo.TRef.nullary main_call3.cst (constant S_ .f32 0x00000000#32),
    StableHlo.TRef.unary main_call3.cst main_call3.v0 (broadcastInDim S50000x64 ![] bcast_S_S50000x64),
    StableHlo.TRef.binary (.of main_v94 : StableHlo.TRef sig ⟨S50000x64, .f32⟩) main_call3.v0 main_call3.v1 (cmpf .ogt),
    StableHlo.TRef.nullary main_call3.cst_0 (constant S_ .f32 0x00000000#32),
    StableHlo.TRef.unary main_call3.cst_0 main_call3.v2 (broadcastInDim S50000x64 ![] bcast_S_S50000x64),
    StableHlo.TRef.binary (.of main_v94 : StableHlo.TRef sig ⟨S50000x64, .f32⟩) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S50000x64 ![] bcast_S_S50000x64),
    StableHlo.TRef.ternary main_call3.v3 main_call3.call0.v1 (.of main_v94 : StableHlo.TRef sig ⟨S50000x64, .f32⟩) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S50000x64 ![] bcast_S_S50000x64),
    StableHlo.TRef.binary main_call3.v6 main_call3.v5 main_call3.v7 mulf,
    StableHlo.TRef.ternary main_call3.v1 (.of main_v94 : StableHlo.TRef sig ⟨S50000x64, .f32⟩) main_call3.v7 main_call3.call1.v0 select ]

/-- The fold over a concatenation is the folds one after the other. -/
private theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The window is its pieces in order. -/
private theorem ops1_split : (ops1 : List (HloOp τ sig (Elt F))) = q0 ++ (q1 ++ (q2 ++ (q3 ++ (q4 ++ (q5 ++ (q6 ++ q7)))))) := rfl

end Pieces

/-! ## What each piece leaves in the buffers read later, from arbitrary contents -/

private theorem r0_v48 (W : Valuation τ sig (Elt Ideal)) : after (q0 (F := Ideal)) W (Proc.devRef .tc main_v48)
    = (addf (W (Proc.devRef .tc main_v45)) (W (Proc.devRef .tc main_v47)) : FVec Ideal S50000x64 .f32) := by
  simp only [q0]
  after_results

private theorem r1_v49 (W : Valuation τ sig (Elt Ideal)) : after (q1 (F := Ideal)) W (Proc.devRef .tc main_v49)
    = Cert.GCN.eluR (W (Proc.devRef .tc main_v48)) := by
  simp only [q1]
  after_results_simp
  rfl

private theorem r2_v50 (W : Valuation τ sig (Elt Ideal)) : after (q2 (F := Ideal)) W (Proc.devRef .tc main_v50)
    = Cert.GCN.dotHid (W (Proc.devRef .tc main_v49)) (W (Proc.devRef .tc main_arg5)) := by
  simp only [q2]
  after_results_simp
  rfl

private theorem r2_v51 (W : Valuation τ sig (Elt Ideal)) : after (q2 (F := Ideal)) W (Proc.devRef .tc main_v51)
    = Cert.GCN.loopIdx := by
  simp only [q2]
  after_results_simp
  rfl

private theorem r3_v52 (W : Valuation τ sig (Elt Ideal)) : after (q3 (F := Ideal)) W (Proc.devRef .tc main_v52)
    = concatenate S1050000 0 [⟨S1000000, W (Proc.devRef .tc main_v1)⟩, ⟨S50000, W (Proc.devRef .tc main_v51)⟩] concatenates_S1000000_S50000_S1050000_d0 := by
  simp only [q3]
  after_results

private theorem r3_v53 (W : Valuation τ sig (Elt Ideal)) : after (q3 (F := Ideal)) W (Proc.devRef .tc main_v53)
    = concatenate S1050000 0 [⟨S1000000, W (Proc.devRef .tc main_v3)⟩, ⟨S50000, W (Proc.devRef .tc main_v51)⟩] concatenates_S1000000_S50000_S1050000_d0 := by
  simp only [q3]
  after_results

private theorem r4_v59 (W : Valuation τ sig (Elt Ideal)) : after (q4 (F := Ideal)) W (Proc.devRef .tc main_v59)
    = cmpf .ogt (Cert.GCN.degOf (W (Proc.devRef .tc main_v53))) Cert.GCN.zeros1 := by
  simp only [q4]
  after_results_simp
  rfl

private theorem r4_v62 (W : Valuation τ sig (Elt Ideal)) : after (q4 (F := Ideal)) W (Proc.devRef .tc main_v62)
    = Host.rsqrt (maximumf (Cert.GCN.degOf (W (Proc.devRef .tc main_v53))) (broadcastInDim S50000 ![] bcast_S_S50000 (constant S_ .f32 0x2B8CBCCC#32))) := by
  simp only [q4]
  after_results_simp
  rfl

private theorem r4_cst14 (W : Valuation τ sig (Elt Ideal)) : after (q4 (F := Ideal)) W (Proc.devRef .tc main_cst_14)
    = (constant S_ .f32 0x00000000#32 : FVec Ideal S_ .f32) := by
  simp only [q4]
  after_results_simp

private theorem r5_v63 (W : Valuation τ sig (Elt Ideal)) : after (q5 (F := Ideal)) W (Proc.devRef .tc main_v63)
    = select (W (Proc.devRef .tc main_v59)) (W (Proc.devRef .tc main_v62)) (broadcastInDim S50000 ![] bcast_S_S50000 (id (W (Proc.devRef .tc main_cst_14)))) := by
  simp only [q5]
  after_results_simp
  rfl

private theorem r6_v94 (W : Valuation τ sig (Elt Ideal)) : after (q6 (F := Ideal)) W (Proc.devRef .tc main_v94)
    = addf (Cert.GCN.aggR (W (Proc.devRef .tc main_v50)) (W (Proc.devRef .tc main_v63)) (W (Proc.devRef .tc main_v52)) (W (Proc.devRef .tc main_v53))) (Cert.GCN.biasR (W (Proc.devRef .tc main_arg6))) := by
  simp only [q6]
  after_results_simp
  rfl

private theorem r7_v95 (W : Valuation τ sig (Elt Ideal)) : after (q7 (F := Ideal)) W (Proc.devRef .tc main_v95)
    = Cert.GCN.eluR (W (Proc.devRef .tc main_v94)) := by
  simp only [q7]
  after_results_simp
  rfl

/-! ## What each piece leaves alone -/

private theorem k0_arg5 (W : Valuation τ sig (Elt Ideal)) : after (q0 (F := Ideal)) W (Proc.devRef .tc main_arg5) = W (Proc.devRef .tc main_arg5) := by keeps q0
private theorem k0_v3 (W : Valuation τ sig (Elt Ideal)) : after (q0 (F := Ideal)) W (Proc.devRef .tc main_v3) = W (Proc.devRef .tc main_v3) := by keeps q0
private theorem k0_v1 (W : Valuation τ sig (Elt Ideal)) : after (q0 (F := Ideal)) W (Proc.devRef .tc main_v1) = W (Proc.devRef .tc main_v1) := by keeps q0
private theorem k0_arg6 (W : Valuation τ sig (Elt Ideal)) : after (q0 (F := Ideal)) W (Proc.devRef .tc main_arg6) = W (Proc.devRef .tc main_arg6) := by keeps q0
private theorem k1_arg5 (W : Valuation τ sig (Elt Ideal)) : after (q1 (F := Ideal)) W (Proc.devRef .tc main_arg5) = W (Proc.devRef .tc main_arg5) := by keeps q1
private theorem k1_v3 (W : Valuation τ sig (Elt Ideal)) : after (q1 (F := Ideal)) W (Proc.devRef .tc main_v3) = W (Proc.devRef .tc main_v3) := by keeps q1
private theorem k1_v1 (W : Valuation τ sig (Elt Ideal)) : after (q1 (F := Ideal)) W (Proc.devRef .tc main_v1) = W (Proc.devRef .tc main_v1) := by keeps q1
private theorem k1_arg6 (W : Valuation τ sig (Elt Ideal)) : after (q1 (F := Ideal)) W (Proc.devRef .tc main_arg6) = W (Proc.devRef .tc main_arg6) := by keeps q1
private theorem k2_v3 (W : Valuation τ sig (Elt Ideal)) : after (q2 (F := Ideal)) W (Proc.devRef .tc main_v3) = W (Proc.devRef .tc main_v3) := by keeps q2
private theorem k2_v1 (W : Valuation τ sig (Elt Ideal)) : after (q2 (F := Ideal)) W (Proc.devRef .tc main_v1) = W (Proc.devRef .tc main_v1) := by keeps q2
private theorem k2_arg6 (W : Valuation τ sig (Elt Ideal)) : after (q2 (F := Ideal)) W (Proc.devRef .tc main_arg6) = W (Proc.devRef .tc main_arg6) := by keeps q2
private theorem k3_v50 (W : Valuation τ sig (Elt Ideal)) : after (q3 (F := Ideal)) W (Proc.devRef .tc main_v50) = W (Proc.devRef .tc main_v50) := by keeps q3
private theorem k3_arg6 (W : Valuation τ sig (Elt Ideal)) : after (q3 (F := Ideal)) W (Proc.devRef .tc main_arg6) = W (Proc.devRef .tc main_arg6) := by keeps q3
private theorem k4_v50 (W : Valuation τ sig (Elt Ideal)) : after (q4 (F := Ideal)) W (Proc.devRef .tc main_v50) = W (Proc.devRef .tc main_v50) := by keeps q4
private theorem k4_v52 (W : Valuation τ sig (Elt Ideal)) : after (q4 (F := Ideal)) W (Proc.devRef .tc main_v52) = W (Proc.devRef .tc main_v52) := by keeps q4
private theorem k4_v53 (W : Valuation τ sig (Elt Ideal)) : after (q4 (F := Ideal)) W (Proc.devRef .tc main_v53) = W (Proc.devRef .tc main_v53) := by keeps q4
private theorem k4_arg6 (W : Valuation τ sig (Elt Ideal)) : after (q4 (F := Ideal)) W (Proc.devRef .tc main_arg6) = W (Proc.devRef .tc main_arg6) := by keeps q4
private theorem k5_v50 (W : Valuation τ sig (Elt Ideal)) : after (q5 (F := Ideal)) W (Proc.devRef .tc main_v50) = W (Proc.devRef .tc main_v50) := by keeps q5
private theorem k5_v52 (W : Valuation τ sig (Elt Ideal)) : after (q5 (F := Ideal)) W (Proc.devRef .tc main_v52) = W (Proc.devRef .tc main_v52) := by keeps q5
private theorem k5_v53 (W : Valuation τ sig (Elt Ideal)) : after (q5 (F := Ideal)) W (Proc.devRef .tc main_v53) = W (Proc.devRef .tc main_v53) := by keeps q5
private theorem k5_arg6 (W : Valuation τ sig (Elt Ideal)) : after (q5 (F := Ideal)) W (Proc.devRef .tc main_arg6) = W (Proc.devRef .tc main_arg6) := by keeps q5

/-! ## The window -/

/-- After the second window: the second layer (unit of the first pre-activation, hidden projection, aggregation, bias, unit). -/
theorem p1_v95 (W : Valuation τ sig (Elt Ideal)) : after (ops1 (F := Ideal)) W (Proc.devRef .tc main_v95)
    = Cert.GCN.layerR (Cert.GCN.dotHid (Cert.GCN.eluR (addf (W (Proc.devRef .tc main_v45)) (W (Proc.devRef .tc main_v47)))) (W (Proc.devRef .tc main_arg5)))
        (Cert.GCN.disOf (Cert.GCN.degOf (Cert.GCN.withLoops (W (Proc.devRef .tc main_v3)))))
        (Cert.GCN.withLoops (W (Proc.devRef .tc main_v1))) (Cert.GCN.withLoops (W (Proc.devRef .tc main_v3))) (W (Proc.devRef .tc main_arg6)) := by
  rw [ops1_split]
  simp only [after_app]
  rw [r7_v95, r6_v94]
  rw [k5_v50, k4_v50, k3_v50, r2_v50, r1_v49, r0_v48, k1_arg5, k0_arg5]
  rw [r5_v63, r4_v59, r4_v62, r4_cst14]
  rw [k5_v52, k4_v52, k5_v53, k4_v53, r3_v52, r3_v53, r2_v51]
  rw [k2_v1, k1_v1, k0_v1, k2_v3, k1_v3, k0_v3]
  rw [k5_arg6, k4_arg6, k3_arg6, k2_arg6, k1_arg6, k0_arg6]
  rfl

theorem p1_arg0 (W : Valuation τ sig (Elt Ideal)) : after (ops1 (F := Ideal)) W (Proc.devRef .tc main_arg0) = W (Proc.devRef .tc main_arg0) := by keeps ops1

theorem p1_arg1 (W : Valuation τ sig (Elt Ideal)) : after (ops1 (F := Ideal)) W (Proc.devRef .tc main_arg1) = W (Proc.devRef .tc main_arg1) := by keeps ops1

theorem p1_arg2 (W : Valuation τ sig (Elt Ideal)) : after (ops1 (F := Ideal)) W (Proc.devRef .tc main_arg2) = W (Proc.devRef .tc main_arg2) := by keeps ops1

theorem p1_arg3 (W : Valuation τ sig (Elt Ideal)) : after (ops1 (F := Ideal)) W (Proc.devRef .tc main_arg3) = W (Proc.devRef .tc main_arg3) := by keeps ops1

theorem p1_arg4 (W : Valuation τ sig (Elt Ideal)) : after (ops1 (F := Ideal)) W (Proc.devRef .tc main_arg4) = W (Proc.devRef .tc main_arg4) := by keeps ops1

theorem p1_arg5 (W : Valuation τ sig (Elt Ideal)) : after (ops1 (F := Ideal)) W (Proc.devRef .tc main_arg5) = W (Proc.devRef .tc main_arg5) := by keeps ops1

theorem p1_arg6 (W : Valuation τ sig (Elt Ideal)) : after (ops1 (F := Ideal)) W (Proc.devRef .tc main_arg6) = W (Proc.devRef .tc main_arg6) := by keeps ops1

theorem p1_arg7 (W : Valuation τ sig (Elt Ideal)) : after (ops1 (F := Ideal)) W (Proc.devRef .tc main_arg7) = W (Proc.devRef .tc main_arg7) := by keeps ops1

theorem p1_arg8 (W : Valuation τ sig (Elt Ideal)) : after (ops1 (F := Ideal)) W (Proc.devRef .tc main_arg8) = W (Proc.devRef .tc main_arg8) := by keeps ops1

end Cert.ReferenceIdeal.RefRun

end
-- ==== Proof.RFoldC.lean ====
/-
  The reference's last window read back: the pooled projection of the second layer's output, the arguments untouched.
-/
import proofs.«157537_j39161511805099_1_alg».proof.Proof.ROpsList
import proofs.«157537_j39161511805099_1_alg».proof.Proof.Spec
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

/-- After the last window: per-graph sums over per-graph counts, projected, plus the bias. -/
theorem p2_v111 (W : Valuation τ sig (Elt Ideal)) : after (ops2 (F := Ideal)) W (Proc.devRef .tc main_v111)
    = Cert.GCN.poolR (Cert.GCN.sumsOf (W (Proc.devRef .tc main_v95)) (W (Proc.devRef .tc main_arg2))) (Cert.GCN.cntsOf (W (Proc.devRef .tc main_arg2))) (W (Proc.devRef .tc main_arg7)) (W (Proc.devRef .tc main_arg8)) := by
  simp only [ops2]
  after_results_simp
  rfl

theorem p2_arg0 (W : Valuation τ sig (Elt Ideal)) : after (ops2 (F := Ideal)) W (Proc.devRef .tc main_arg0) = W (Proc.devRef .tc main_arg0) :=
  StableHlo.after_of_forall_not_mem (b := Proc.devRef .tc main_arg0) _ _ (List.forall_iff_forall_mem.mp (by
    simp only [ops2, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem p2_arg1 (W : Valuation τ sig (Elt Ideal)) : after (ops2 (F := Ideal)) W (Proc.devRef .tc main_arg1) = W (Proc.devRef .tc main_arg1) :=
  StableHlo.after_of_forall_not_mem (b := Proc.devRef .tc main_arg1) _ _ (List.forall_iff_forall_mem.mp (by
    simp only [ops2, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem p2_arg2 (W : Valuation τ sig (Elt Ideal)) : after (ops2 (F := Ideal)) W (Proc.devRef .tc main_arg2) = W (Proc.devRef .tc main_arg2) :=
  StableHlo.after_of_forall_not_mem (b := Proc.devRef .tc main_arg2) _ _ (List.forall_iff_forall_mem.mp (by
    simp only [ops2, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem p2_arg3 (W : Valuation τ sig (Elt Ideal)) : after (ops2 (F := Ideal)) W (Proc.devRef .tc main_arg3) = W (Proc.devRef .tc main_arg3) :=
  StableHlo.after_of_forall_not_mem (b := Proc.devRef .tc main_arg3) _ _ (List.forall_iff_forall_mem.mp (by
    simp only [ops2, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem p2_arg4 (W : Valuation τ sig (Elt Ideal)) : after (ops2 (F := Ideal)) W (Proc.devRef .tc main_arg4) = W (Proc.devRef .tc main_arg4) :=
  StableHlo.after_of_forall_not_mem (b := Proc.devRef .tc main_arg4) _ _ (List.forall_iff_forall_mem.mp (by
    simp only [ops2, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem p2_arg5 (W : Valuation τ sig (Elt Ideal)) : after (ops2 (F := Ideal)) W (Proc.devRef .tc main_arg5) = W (Proc.devRef .tc main_arg5) :=
  StableHlo.after_of_forall_not_mem (b := Proc.devRef .tc main_arg5) _ _ (List.forall_iff_forall_mem.mp (by
    simp only [ops2, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem p2_arg6 (W : Valuation τ sig (Elt Ideal)) : after (ops2 (F := Ideal)) W (Proc.devRef .tc main_arg6) = W (Proc.devRef .tc main_arg6) :=
  StableHlo.after_of_forall_not_mem (b := Proc.devRef .tc main_arg6) _ _ (List.forall_iff_forall_mem.mp (by
    simp only [ops2, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem p2_arg7 (W : Valuation τ sig (Elt Ideal)) : after (ops2 (F := Ideal)) W (Proc.devRef .tc main_arg7) = W (Proc.devRef .tc main_arg7) :=
  StableHlo.after_of_forall_not_mem (b := Proc.devRef .tc main_arg7) _ _ (List.forall_iff_forall_mem.mp (by
    simp only [ops2, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem p2_arg8 (W : Valuation τ sig (Elt Ideal)) : after (ops2 (F := Ideal)) W (Proc.devRef .tc main_arg8) = W (Proc.devRef .tc main_arg8) :=
  StableHlo.after_of_forall_not_mem (b := Proc.devRef .tc main_arg8) _ _ (List.forall_iff_forall_mem.mp (by
    simp only [ops2, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

end Cert.ReferenceIdeal.RefRun

end
-- ==== Proof.RFold.lean ====
/-
  The reference's result, read back through its three windows, is the reference's function of the launch arguments; the arguments end as launched.
-/
import proofs.«157537_j39161511805099_1_alg».proof.Proof.ROpsList
import proofs.«157537_j39161511805099_1_alg».proof.Proof.Spec
import proofs.«157537_j39161511805099_1_alg».proof.Proof.RFoldA
import proofs.«157537_j39161511805099_1_alg».proof.Proof.RFoldB
import proofs.«157537_j39161511805099_1_alg».proof.Proof.RFoldC
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

/-- THE REFERENCE'S VALUE: the three windows' fold at the result buffer. -/
theorem result_eq (V : Valuation τ sig (Elt Ideal)) :
    after (ops2 (F := Ideal)) (after ops1 (after ops0 V)) (Proc.devRef .tc main_v111)
      = Cert.GCN.refOut (V (Proc.devRef .tc main_arg0)) (V (Proc.devRef .tc main_arg1)) (V (Proc.devRef .tc main_arg2)) (V (Proc.devRef .tc main_arg3)) (V (Proc.devRef .tc main_arg4))
          (V (Proc.devRef .tc main_arg5)) (V (Proc.devRef .tc main_arg6)) (V (Proc.devRef .tc main_arg7)) (V (Proc.devRef .tc main_arg8)) := by
  rw [p2_v111, p1_v95, p1_arg2, p1_arg7, p1_arg8, p0_v45, p0_v47, p0_v1, p0_v3, p0_arg2, p0_arg5, p0_arg6, p0_arg7, p0_arg8]
  simp only [Cert.GCN.refOut, Cert.GCN.layerR, Cert.GCN.srcOf, Cert.GCN.dstOf]

theorem arg0_eq (V : Valuation τ sig (Elt Ideal)) :
    after (ops2 (F := Ideal)) (after ops1 (after ops0 V)) (Proc.devRef .tc main_arg0) = V (Proc.devRef .tc main_arg0) := by
  rw [p2_arg0, p1_arg0, p0_arg0]

theorem arg1_eq (V : Valuation τ sig (Elt Ideal)) :
    after (ops2 (F := Ideal)) (after ops1 (after ops0 V)) (Proc.devRef .tc main_arg1) = V (Proc.devRef .tc main_arg1) := by
  rw [p2_arg1, p1_arg1, p0_arg1]

theorem arg2_eq (V : Valuation τ sig (Elt Ideal)) :
    after (ops2 (F := Ideal)) (after ops1 (after ops0 V)) (Proc.devRef .tc main_arg2) = V (Proc.devRef .tc main_arg2) := by
  rw [p2_arg2, p1_arg2, p0_arg2]

theorem arg3_eq (V : Valuation τ sig (Elt Ideal)) :
    after (ops2 (F := Ideal)) (after ops1 (after ops0 V)) (Proc.devRef .tc main_arg3) = V (Proc.devRef .tc main_arg3) := by
  rw [p2_arg3, p1_arg3, p0_arg3]

theorem arg4_eq (V : Valuation τ sig (Elt Ideal)) :
    after (ops2 (F := Ideal)) (after ops1 (after ops0 V)) (Proc.devRef .tc main_arg4) = V (Proc.devRef .tc main_arg4) := by
  rw [p2_arg4, p1_arg4, p0_arg4]

theorem arg5_eq (V : Valuation τ sig (Elt Ideal)) :
    after (ops2 (F := Ideal)) (after ops1 (after ops0 V)) (Proc.devRef .tc main_arg5) = V (Proc.devRef .tc main_arg5) := by
  rw [p2_arg5, p1_arg5, p0_arg5]

theorem arg6_eq (V : Valuation τ sig (Elt Ideal)) :
    after (ops2 (F := Ideal)) (after ops1 (after ops0 V)) (Proc.devRef .tc main_arg6) = V (Proc.devRef .tc main_arg6) := by
  rw [p2_arg6, p1_arg6, p0_arg6]

theorem arg7_eq (V : Valuation τ sig (Elt Ideal)) :
    after (ops2 (F := Ideal)) (after ops1 (after ops0 V)) (Proc.devRef .tc main_arg7) = V (Proc.devRef .tc main_arg7) := by
  rw [p2_arg7, p1_arg7, p0_arg7]

theorem arg8_eq (V : Valuation τ sig (Elt Ideal)) :
    after (ops2 (F := Ideal)) (after ops1 (after ops0 V)) (Proc.devRef .tc main_arg8) = V (Proc.devRef .tc main_arg8) := by
  rw [p2_arg8, p1_arg8, p0_arg8]

end Cert.ReferenceIdeal.RefRun

end
-- ==== Proof.Decode.lean ====
/-
  The index arithmetic of the program's gathers and scatters: which row a gather reads and where an update lands.
-/
import proofs.«157537_j39161511805099_1_alg».proof.Proof.Spec
import Idealize.ShloMosaic.Lib.StableHlo.Predicate

noncomputable section

namespace Cert.GCN

open Idealize.ShloMosaic Idealize.ShloMosaic.ValueIdx
open Cert.ReferenceIdeal Cert.ReferenceIdeal.Facts₀

/-- The row a gather reads for a start word `w`: `w` read as a signed integer, clamped into `[0, N − 1]`. -/
def pos (w : BitVec 32) : Fin 50000 := ⟨min w.toInt.toNat 49999, by omega⟩

/-- The rank-1 index at a coordinate, in its two spellings. -/
private theorem ofFin_eq_ix1 {n : Nat} (p : Fin n) : (Shape.Idx.ofFin p : (⟨1, ![n]⟩ : Shape).Idx) = ix1 p := by
  funext a; match a with | ⟨0, _⟩ => exact Fin.ext rfl

/-- Row `p` of a one-column matrix, in its two spellings. -/
private theorem ixP_eq_ix2 {n : Nat} (p : Fin n) :
    (StableHlo.Predicate.ixP p : (⟨2, ![n, 1]⟩ : Shape).Idx) = ix2 (n0 := n) (n1 := 1) p 0 := by
  funext a; match a with | ⟨0, _⟩ => rfl | ⟨1, _⟩ => rfl

/-- The one-column matrix of an index list holds the list. -/
theorem col_apply (s : IVec S1050000 32) (e : Fin 1050000) :
    col s (ix2 (n0 := 1050000) (n1 := 1) e 0) = s (ix1 e) := by
  have h := StableHlo.Predicate.bcast_col1 bcast_S1050000_S1050000x1_0 s e
  rw [ixP_eq_ix2, ofFin_eq_ix1] at h
  exact h

/-- A position that is not negative is left as it is by the python-style normalisation. -/
theorem normIdx_of_nonneg (s : IVec S1050000 32) (e : Fin 1050000) (h : 0 ≤ (s (ix1 e)).toInt) :
    normIdx s (ix1 e) = s (ix1 e) := by
  unfold normIdx
  rw [select_apply]
  -- the comparison "below zero" is false at this element
  have hc : cmpi .slt s (broadcastInDim S1050000 ![] bcast_S_S1050000 (constantI S_ 32 0#32)) (ix1 e) = 0#1 := by
    show IntOp.cmpi .slt (s (ix1 e)) (broadcastInDim S1050000 ![] bcast_S_S1050000 (constantI S_ 32 0#32) (ix1 e)) = 0#1
    rw [StableHlo.Predicate.bcast_scalar bcast_S_S1050000 (by decide)]
    show BitVec.ofBool ((s (ix1 e)).slt 0#32) = 0#1
    have : (s (ix1 e)).slt 0#32 = false := by
      simp only [BitVec.slt, BitVec.toInt_zero, decide_eq_false_iff_not, not_lt]; exact h
    rw [this]; rfl
  rw [hc, select_zero]

/-- The gather of a vector reads it at the clamped start. -/
theorem gather1_apply (v : FVec Ideal S50000 .f32) (idx : IVec S1050000x1 32) (e : Fin 1050000) :
    Host.gather gather_S50000_S1050000x1_S1050000_n_0_n_n_0_1_1 v idx (ix1 e)
      = v (ix1 (pos (idx (ix2 (n0 := 1050000) (n1 := 1) e 0)))) := by
  rw [← ofFin_eq_ix1 e]
  refine (StableHlo.Predicate.gather_take gather_S50000_S1050000x1_S1050000_n_0_n_n_0_1_1 rfl rfl rfl rfl v idx e (by decide)).trans ?_
  rw [ofFin_eq_ix1]
  congr 1
  funext a
  match a with
  | ⟨0, _⟩ =>
    refine Fin.ext ?_
    show min (idx (StableHlo.Predicate.ixP e)).toInt.toNat (50000 - 1) = min (idx (ix2 e 0)).toInt.toNat 49999
    rw [ixP_eq_ix2]

/-- The gather of rows reads row `pos` of the start word, column for column. -/
theorem gather2_apply (P : FVec Ideal S50000x64 .f32) (idx : IVec S1050000x1 32) (e : Fin 1050000) (c : Fin 64) :
    Host.gather gather_S50000x64_S1050000x1_S1050000x64_1_0_n_n_0_1_164 P idx (ix2 (n0 := 1050000) (n1 := 64) e c)
      = P (ix2 (n0 := 50000) (n1 := 64) (pos (idx (ix2 (n0 := 1050000) (n1 := 1) e 0))) c) := by
  unfold Host.gather
  congr 1
  funext a
  refine Fin.ext ?_
  match a with
  | ⟨0, _⟩ =>
    -- the row axis is collapsed and start-indexed: the clamped start, no batch or offset coordinate
    show gather_S50000x64_S1050000x1_S1050000x64_1_0_n_n_0_1_164.start (ix2 e c) idx 0
        + gather_S50000x64_S1050000x1_S1050000x64_1_0_n_n_0_1_164.batchCoord (ix2 e c) 0
        + gather_S50000x64_S1050000x1_S1050000x64_1_0_n_n_0_1_164.offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50000x64_S1050000x1_S1050000x64_1_0_n_n_0_1_164.startIndexMap from List.mem_singleton.mpr rfl)]
    have hsi : gather_S50000x64_S1050000x1_S1050000x64_1_0_n_n_0_1_164.siIdx (ix2 e c)
        ⟨List.idxOf (0 : Fin 2) gather_S50000x64_S1050000x1_S1050000x64_1_0_n_n_0_1_164.startIndexMap,
          List.idxOf_lt_length_iff.2 (List.mem_singleton.mpr rfl)⟩ = ix2 (n0 := 1050000) (n1 := 1) e 0 := by
      funext b; refine Fin.ext ?_
      match b with
      | ⟨0, _⟩ => rfl
      | ⟨1, _⟩ => rfl
    rw [hsi]
    rfl
  | ⟨1, _⟩ =>
    -- the column axis is an offset axis: start zero, the result's column
    show gather_S50000x64_S1050000x1_S1050000x64_1_0_n_n_0_1_164.start (ix2 e c) idx 1
        + gather_S50000x64_S1050000x1_S1050000x64_1_0_n_n_0_1_164.batchCoord (ix2 e c) 1
        + gather_S50000x64_S1050000x1_S1050000x64_1_0_n_n_0_1_164.offCoord (ix2 e c) 1 = _
    rw [GatherDims.batchCoord_eq_zero _ _ _ List.not_mem_nil]
    have hst : gather_S50000x64_S1050000x1_S1050000x64_1_0_n_n_0_1_164.start (ix2 e c) idx 1 = 0 := by
      unfold GatherDims.start
      rw [dif_neg (show (1 : Fin 2) ∉ gather_S50000x64_S1050000x1_S1050000x64_1_0_n_n_0_1_164.startIndexMap from by decide)]
    have hk : (1 : Fin 2) ∈ gather_S50000x64_S1050000x1_S1050000x64_1_0_n_n_0_1_164.sKept := by decide
    have hoff : gather_S50000x64_S1050000x1_S1050000x64_1_0_n_n_0_1_164.offCoord (ix2 e c) 1 = c.val := by
      unfold GatherDims.offCoord
      rw [dif_pos hk]
      rfl
    rw [hst, hoff]
    simp only [Nat.add_zero, Nat.zero_add]

/-- Where a row update lands: update `(e, c)` lands on `(n, c)` exactly when the start word of `e`, read signed, is `n`. -/
theorem scatter2_lands (idx : IVec S1050000x1 32) (j : S1050000x64.Idx) (i : S50000x64.Idx)
    (h : scatter_S50000x64_S1050000x1_S1050000x64_1_0_0_1.resultIdx? j idx = some i) :
    (idx (ix2 (n0 := 1050000) (n1 := 1) (j 0) 0)).toInt = ((i 0).val : Int) ∧ (j 1).val = (i 1).val := by
  -- the row axis is inserted: no window coordinate, the start is the signed start word of update row `j 0`
  have hw0 : scatter_S50000x64_S1050000x1_S1050000x64_1_0_0_1.window j 0 = 0 := by
    unfold ScatterDims.window
    rw [dif_neg (show (0 : Fin 2) ∉ scatter_S50000x64_S1050000x1_S1050000x64_1_0_0_1.sKept from by decide)]
  -- the column axis is a window axis: start zero, the update's column
  have hw1 : scatter_S50000x64_S1050000x1_S1050000x64_1_0_0_1.window j 1 = (j 1).val := by
    unfold ScatterDims.window
    rw [dif_pos (show (1 : Fin 2) ∈ scatter_S50000x64_S1050000x1_S1050000x64_1_0_0_1.sKept from by decide)]
    rfl
  have hs1 : scatter_S50000x64_S1050000x1_S1050000x64_1_0_0_1.start j idx 1 = 0 := by
    unfold ScatterDims.start
    rw [dif_neg (show (1 : Fin 2) ∉ scatter_S50000x64_S1050000x1_S1050000x64_1_0_0_1.scatterDimsToOperandDims from by decide)]
  have hs0 : scatter_S50000x64_S1050000x1_S1050000x64_1_0_0_1.start j idx 0 = (idx (ix2 (n0 := 1050000) (n1 := 1) (j 0) 0)).toInt := by
    unfold ScatterDims.start
    rw [dif_pos (show (0 : Fin 2) ∈ scatter_S50000x64_S1050000x1_S1050000x64_1_0_0_1.scatterDimsToOperandDims from List.mem_singleton.mpr rfl)]
    have hsi : scatter_S50000x64_S1050000x1_S1050000x64_1_0_0_1.siIdx j
        ⟨List.idxOf (0 : Fin 2) scatter_S50000x64_S1050000x1_S1050000x64_1_0_0_1.scatterDimsToOperandDims,
          List.idxOf_lt_length_iff.2 (List.mem_singleton.mpr rfl)⟩ = ix2 (n0 := 1050000) (n1 := 1) (j 0) 0 := by
      funext b; refine Fin.ext ?_
      match b with
      | ⟨0, _⟩ => rfl
      | ⟨1, _⟩ => rfl
    rw [hsi]
  unfold ScatterDims.resultIdx? at h
  split at h
  · rename_i hall
    have hi := Option.some.inj h
    subst hi
    have h0 := (hall 0).1
    have h1 := (hall 1).1
    rw [hs0, hw0] at h0
    rw [hs1, hw1] at h1
    constructor
    · show _ = (((scatter_S50000x64_S1050000x1_S1050000x64_1_0_0_1.start j idx 0 + scatter_S50000x64_S1050000x1_S1050000x64_1_0_0_1.window j 0).toNat : Nat) : Int)
      rw [hs0, hw0]
      omega
    · show _ = (scatter_S50000x64_S1050000x1_S1050000x64_1_0_0_1.start j idx 1 + scatter_S50000x64_S1050000x1_S1050000x64_1_0_0_1.window j 1).toNat
      rw [hs1, hw1]
      omega
  · cases h

end Cert.GCN

end
-- ==== Proof.Layer.lean ====
/-
  One layer computed the kernel's way equals the layer computed the reference's way.
-/
import proofs.«157537_j39161511805099_1_alg».proof.Proof.Spec
import proofs.«157537_j39161511805099_1_alg».proof.Proof.Decode
import Idealize.ShloMosaic.Lib.IdealHost
import Idealize.ShloMosaic.Lib.ValueLayout

noncomputable section

namespace Cert.GCN

open Idealize.ShloMosaic Idealize.ShloMosaic.ValueIdx
open Cert.ReferenceIdeal Cert.ReferenceIdeal.Facts₀
open Idealize.ShloMosaic.StableHlo.Predicate

/-! ## Small facts about the extended reals' comparison and reciprocal square root -/

/-- The comparison "greater than" answers the bit one exactly on a strict inequality. -/
private theorem cmp_ogt_one {x y : EReal} (h : Ideal.cmp .ogt x y = 1#1) : y < x := by
  by_contra hn
  have h0 : Ideal.cmp .ogt x y = 0#1 := by
    unfold Ideal.cmp
    simp only [decide_eq_false hn]
    rfl
  rw [h0] at h
  exact absurd h (by decide)

/-- The reciprocal square root of a positive extended real is a non-negative real (at `⊤` it is zero). -/
private theorem rsqrt_pos_real (x : EReal) (hx : 0 < x) : ∃ r : ℝ, 0 ≤ r ∧ Ideal.rsqrt x = (r : EReal) := by
  induction x using EReal.rec with
  | bot => exact absurd hx (by simp)
  | top => exact ⟨0, le_refl _, by simp⟩
  | coe r =>
    have hr : 0 < r := by exact_mod_cast hx
    refine ⟨(Real.sqrt r)⁻¹, inv_nonneg.mpr (Real.sqrt_nonneg r), ?_⟩
    rw [Ideal.rsqrt_coe, if_neg (not_lt.mpr hr.le), if_neg hr.ne']

/-- The vector of zeros reads zero. -/
private theorem zeros1_apply (n : S50000.Idx) : zeros1 n = 0 := by
  unfold zeros1
  refine (bcast_scalar bcast_S_S50000 (by decide) _ n).trans ?_
  exact Ideal.ofBits_zero_f32

/-- The normalisation factor is a non-negative real at every node, whatever the degree array holds. -/
theorem dis_nonneg (dg : FVec Ideal S50000 .f32) (n : S50000.Idx) : ∃ r : ℝ, 0 ≤ r ∧ disOf dg n = (r : EReal) := by
  unfold disOf
  rw [select_apply, cmpf_apply, zeros1_apply, Ideal.cmpf_def]
  rcases BitVec.eq_zero_or_eq_one (Ideal.cmp .ogt (dg n) 0) with h | h
  · rw [h, select_zero]
    refine ⟨0, le_refl _, ?_⟩
    refine (bcast_scalar bcast_S_S50000 (by decide) _ n).trans ?_
    exact Ideal.ofBits_zero_f32
  · rw [h, select_one]
    have hpos : 0 < dg n := cmp_ogt_one h
    obtain ⟨r, hr, hrs⟩ := rsqrt_pos_real (max (dg n)
      (broadcastInDim S50000 ![] bcast_S_S50000 (constant (F := Ideal) S_ .f32 0x2B8CBCCC#32) n)) (lt_max_of_lt_left hpos)
    exact ⟨r, hr, hrs⟩

/-! ## Reading the pieces at an index -/

/-- The rank-1 index at a coordinate, written two ways. -/
private theorem ofFin_eq_ix1 {n : Nat} (k : Fin n) : Shape.Idx.ofFin k = ix1 k := by
  funext a; match a with | ⟨0, _⟩ => rfl

/-- The matrix of zeros reads zero. -/
private theorem zeros2_apply (i : S50000x64.Idx) : zeros2 i = 0 := by
  unfold zeros2
  refine (bcast_scalar bcast_S_S50000x64 (by decide) _ i).trans ?_
  exact Ideal.ofBits_zero_f32

/-- A vector cast to one column reads, at `(i, u)`, the vector at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The factor as a column reads the factor. -/
private theorem dis2Of_apply (dis : FVec Ideal S50000 .f32) (q : Fin 50000) :
    dis2Of dis (ix2 (n0 := 50000) (n1 := 1) q 0) = dis (ix1 q) := by
  unfold dis2Of
  exact shapeCast_a_a1_apply dis casts_S50000_S50000x1 q 0

/-- The accumulating scatter at an index: the operand there plus the updates that land there. -/
private theorem scatterAdd_apply {s si su : Shape} {w : Nat} (D : ScatterDims s si su) (x : FVec Ideal s .f32) (idx : IVec si w)
    (upd : FVec Ideal su .f32) (i : s.Idx) :
    Host.scatterAdd D x idx upd i = x i + ∑ j ∈ Finset.univ.filter (fun j => D.resultIdx? j idx = some i), upd j := rfl

/-- A non-negative real multiplies across a finite sum of extended reals. -/
private theorem sum_mul_coe_nonneg {ι : Type} (S : Finset ι) (a : ι → EReal) (r : ℝ) (hr : 0 ≤ r) :
    (∑ j ∈ S, a j) * (r : EReal) = ∑ j ∈ S, a j * (r : EReal) := by
  classical
  induction S using Finset.induction_on with
  | empty => simp
  | insert x S hx ih =>
    rw [Finset.sum_insert hx, Finset.sum_insert hx,
      EReal.right_distrib_of_nonneg_of_ne_top (by exact_mod_cast hr) (EReal.coe_ne_top r), ih]

/-- The per-edge factor at an edge. -/
private theorem normOf_apply (dis : FVec Ideal S50000 .f32) (s d : IVec S1050000 32) (e : Fin 1050000) :
    normOf dis s d (ix1 e) = dis (ix1 (pos (normIdx s (ix1 e)))) * dis (ix1 (pos (normIdx d (ix1 e)))) := by
  unfold normOf
  rw [mulf_apply, gather1_apply, gather1_apply, col_apply, col_apply]

/-! ## The unit -/

/-- The reference's exponential linear unit, read at an element, is the kernel's. -/
private theorem eluR_apply (v : FVec Ideal S50000x64 .f32) (i : S50000x64.Idx) : eluR v i = eluK (v i) := by
  have hone : broadcastInDim S50000x64 ![] bcast_S_S50000x64 (constant (F := Ideal) S_ .f32 0x3F800000#32) i = 1 :=
    (bcast_scalar bcast_S_S50000x64 (by decide) _ i).trans Ideal.ofBits_one_f32
  have hs0 : Scalar.ofBits (F := Ideal) .f32 0x00000000#32 = 0 := Ideal.ofBits_zero_f32
  have hs1 : Scalar.ofBits (F := Ideal) .f32 0x3F800000#32 = 1 := Ideal.ofBits_one_f32
  unfold eluR eluK
  rw [select_apply, cmpf_apply, zeros2_apply, mulf_apply, hone, hs0, hs1, one_mul]
  rcases BitVec.eq_zero_or_eq_one (FloatOps.cmpf (F := Ideal) (φ := .f32) .ogt (v i) 0) with h | h
  · rw [h, select_zero, select_zero]
    show Ideal.exp (select (cmpf .ogt v zeros2) _ v i) - 1 = _
    rw [select_apply, cmpf_apply, zeros2_apply, h, select_zero]
  · rw [h, select_one, select_one]

/-! ## One edge's message, the two ways -/

/-- For an edge whose update lands on node `n`: the row of `P` scaled before the gather, times `dis n`, is the
    gathered row times the edge's factor. -/
private theorem edge_term (P : FVec Ideal S50000x64 .f32) (dis : FVec Ideal S50000 .f32) (s d : IVec S1050000 32)
    (n : Fin 50000) (c : Fin 64) (j : S1050000x64.Idx)
    (hj : scatter_S50000x64_S1050000x1_S1050000x64_1_0_0_1.resultIdx? j (col d) = some (ix2 n c)) :
    Host.gather gather_S50000x64_S1050000x1_S1050000x64_1_0_n_n_0_1_164 (scaleRows P (dis2Of dis)) (col (normIdx s)) j
        * dis (ix1 n)
      = mulf (Host.gather gather_S50000x64_S1050000x1_S1050000x64_1_0_n_n_0_1_164 P (col (normIdx s)))
          (broadcastInDim S1050000x64 ![0, 1] bcast_S1050000x1_S1050000x64_0_1
            (broadcastInDim S1050000x1 ![0] bcast_S1050000_S1050000x1_0 (normOf dis s d))) j := by
  obtain ⟨e, c', rfl⟩ : ∃ (e : Fin 1050000) (c' : Fin 64), j = ix2 e c' := ⟨j 0, j 1, eq_ix2 j⟩
  have hland := (scatter2_lands (col d) _ _ hj).1
  have hd : (d (ix1 e)).toInt = (n.val : Int) := by
    rw [← col_apply d e]; exact hland
  have hnn : 0 ≤ (d (ix1 e)).toInt := by rw [hd]; exact Int.natCast_nonneg _
  have hpos : pos (d (ix1 e)) = n := by
    apply Fin.ext
    show min (d (ix1 e)).toInt.toNat 49999 = n.val
    rw [hd]; have := n.isLt; omega
  have hb : broadcastInDim S1050000x64 ![0, 1] bcast_S1050000x1_S1050000x64_0_1
      (broadcastInDim S1050000x1 ![0] bcast_S1050000_S1050000x1_0 (normOf dis s d)) (ix2 e c') = normOf dis s d (ix1 e) :=
    (bcast_rows bcast_S1050000_S1050000x1_0 bcast_S1050000x1_S1050000x64_0_1 (normOf dis s d) e c').trans
      (congrArg _ (ofFin_eq_ix1 e))
  rw [mulf_apply, hb, gather2_apply, gather2_apply, normOf_apply, normIdx_of_nonneg d e hnn, hpos]
  show P _ * dis2Of dis (ix2 (n0 := 50000) (n1 := 1) (pos (col (normIdx s) (ix2 (n0 := 1050000) (n1 := 1) e 0))) 0) * _ = _
  rw [dis2Of_apply, col_apply, mul_assoc]

/-! ## The bias row -/

/-- The bias broadcast over the rows reads, at `(n, c)`, what the bias as one row reads at `(0, c)`. -/
private theorem bias_eq (b : FVec Ideal S64 .f32) (n : Fin 50000) (c : Fin 64) :
    biasR b (ix2 n c) = shapeCast S1x64 b casts_S64_S1x64 (ix2 (n0 := 1) (n1 := 64) 0 c) := by
  unfold biasR
  rw [shapeCast_a_1a_apply]
  exact (bcast_cols bcast_S64_S1x64_1 bcast_S1x64_S50000x64_0_1 b n c).trans (congrArg _ (ofFin_eq_ix1 c))

/-! ## The aggregated rows -/

/-- The rows scaled before the gather, summed at the destinations and scaled again are the messages scaled edge by edge
    and summed: every edge landing on `n` carries `dis n`, a non-negative real, which multiplies across the sum. -/
private theorem agg_eq (P : FVec Ideal S50000x64 .f32) (dis : FVec Ideal S50000 .f32) (s d : IVec S1050000 32)
    (n : Fin 50000) (c : Fin 64) (r : ℝ) (hr : 0 ≤ r) (hrn : dis (ix1 n) = (r : EReal)) :
    aggK (scaleRows P (dis2Of dis)) s d (ix2 n c) * dis2Of dis (ix2 (n0 := 50000) (n1 := 1) n 0)
      = aggR P dis s d (ix2 n c) := by
  unfold aggK aggR
  rw [scatterAdd_apply, scatterAdd_apply, zeros2_apply, zero_add, zero_add, dis2Of_apply, hrn,
    sum_mul_coe_nonneg _ _ r hr]
  refine Finset.sum_congr rfl (fun j hj => ?_)
  rw [← hrn]
  exact edge_term P dis s d n c j (Finset.mem_filter.mp hj).2

/-- THE LAYER: scaling rows by `dis` before the gather and after the scatter is scaling each message by
    `dis (s j) · dis (d j)`, when `dis` is a non-negative real at every node. -/
theorem layer_eq (P : FVec Ideal S50000x64 .f32) (dis : FVec Ideal S50000 .f32) (s d : IVec S1050000 32) (b : FVec Ideal S64 .f32)
    (hdis : ∀ n : S50000.Idx, ∃ r : ℝ, 0 ≤ r ∧ dis n = (r : EReal)) :
    layerK P dis s d b = layerR P dis s d b := by
  funext i
  obtain ⟨n, c, rfl⟩ : ∃ (n : Fin 50000) (c : Fin 64), i = ix2 n c := ⟨i 0, i 1, eq_ix2 i⟩
  obtain ⟨r, hr, hrn⟩ := hdis (ix1 n)
  show eluK (aggK (scaleRows P (dis2Of dis)) s d (ix2 n c) * dis2Of dis (ix2 (n0 := 50000) (n1 := 1) n 0)
      + shapeCast S1x64 b casts_S64_S1x64 (ix2 (n0 := 1) (n1 := 64) 0 c))
    = eluR (addf (aggR P dis s d) (biasR b)) (ix2 n c)
  rw [eluR_apply, addf_apply, bias_eq, agg_eq P dis s d n c r hr hrn]

end Cert.GCN

end
-- ==== Proof.Pool.lean ====
/-
  The pooled projection: the kernel's last region and the reference's last lines are one function.

  Both sides are the product of one operand array with W3, plus the bias. The operand arrays agree entry by
  entry: the reference divides row g of the sums by max(count g, 1) spread along the 64 columns, the kernel by
  max of the count read from the one-column matrix at (g, 0) and one; the reshape [500] → [500, 1] keeps the
  row-major position, so both read the count of g. The bias is the one element of b3 either way.
-/
import proofs.«157537_j39161511805099_1_alg».proof.Proof.Spec

noncomputable section
namespace Cert.GCN
open Idealize.ShloMosaic Idealize.ShloMosaic.ValueIdx
open Cert.ReferenceIdeal Cert.ReferenceIdeal.Facts₀

/-- The count vector as a one-column matrix, read at row g, is the count of g. -/
private theorem cast_col_apply {α : Type} (x : S500.Idx → α) (g : Fin 500) :
    shapeCast S500x1 x casts_S500_S500x1 (ix2 (n0 := 500) (n1 := 1) g 0) = x (ix1 g) := by
  unfold shapeCast
  refine congrArg x (Shape.reshapeEquiv_eq_of_rowMajor _ ?_)
  rw [Shape.rowMajor_val_two, Shape.rowMajor_val_one]
  show g.val = g.val * 1 + 0
  omega

/-- The one-element bias as a one-by-one matrix, read at its only entry. -/
private theorem cast_b_apply {α : Type} (x : S1.Idx → α) :
    shapeCast S1x1 x casts_S1_S1x1 (ix2 (n0 := 1) (n1 := 1) 0 0) = x (ix1 0) := by
  unfold shapeCast
  refine congrArg x (Shape.reshapeEquiv_eq_of_rowMajor _ ?_)
  rw [Shape.rowMajor_val_two, Shape.rowMajor_val_one]
  rfl

/-- A column repeated along 64 columns reads, at (g, c), the column at (g, 0). -/
private theorem bcast_cols_apply {α : Type} (v : S500x1.Idx → α) (j : S500x64.Idx) :
    broadcastInDim S500x64 ![0, 1] bcast_S500x1_S500x64_0_1 v j = v (ix2 (n0 := 500) (n1 := 1) (j 0) 0) := by
  unfold broadcastInDim
  refine congrArg v (funext fun a => ?_)
  match a with
  | ⟨0, _⟩ => exact Fin.ext rfl
  | ⟨1, _⟩ => exact Fin.ext rfl

/-- A vector stood up as a column reads, at (g, 0), the vector at g. -/
private theorem bcast_col1_apply {α : Type} (v : S500.Idx → α) (k : S500x1.Idx) :
    broadcastInDim S500x1 ![0] bcast_S500_S500x1_0 v k = v (ix1 (k 0)) := by
  unfold broadcastInDim
  refine congrArg v (funext fun a => ?_)
  match a with
  | ⟨0, _⟩ => exact Fin.ext rfl

/-- The all-ones vector reads one everywhere. -/
private theorem onesG_apply (p : S500.Idx) : onesG p = Scalar.ofBits (F := Ideal) .f32 0x3F800000#32 := by
  unfold onesG broadcastInDim
  rw [constant_apply]
  rfl

/-- The one-element bias repeated to a column of 500 reads that element everywhere. -/
private theorem bias_apply {α : Type} (b : S1.Idx → α) (i : S500x1.Idx) :
    broadcastInDim S500x1 ![0, 1] bcast_S1x1_S500x1_0_1 (broadcastInDim S1x1 ![1] bcast_S1_S1x1_1 b) i = b (ix1 0) := by
  unfold broadcastInDim
  refine congrArg b (funext fun a => ?_)
  match a with
  | ⟨0, _⟩ => exact Fin.ext rfl

theorem pool_eq (sums : FVec Ideal S500x64 .f32) (cnts : FVec Ideal S500 .f32) (W3 : FVec Ideal S64x1 .f32) (b3 : FVec Ideal S1 .f32) :
    poolK sums (shapeCast S500x1 cnts casts_S500_S500x1) W3 (shapeCast S1x1 b3 casts_S1_S1x1) = poolR sums cnts W3 b3 := by
  have hA : (fun j : S500x64.Idx => Ideal.div (sums j)
        (max (shapeCast S500x1 cnts casts_S500_S500x1 (ix2 (n0 := 500) (n1 := 1) (j 0) 0))
          (Scalar.ofBits (F := Ideal) .f32 0x3F800000#32)))
      = Host.divf sums (broadcastInDim S500x64 ![0, 1] bcast_S500x1_S500x64_0_1
          (broadcastInDim S500x1 ![0] bcast_S500_S500x1_0 (maximumf cnts onesG))) := by
    funext j
    unfold Host.divf
    rw [Ideal.hostDivf_def, bcast_cols_apply, bcast_col1_apply, maximumf_apply, onesG_apply]
    have h1 := cast_col_apply cnts (j 0)
    rw [h1]
  funext i
  unfold poolK poolR
  rw [addf_apply, hA, cast_b_apply, bias_apply]

end Cert.GCN
end
-- ==== Proof.Equiv.lean ====
/-
  The two programs compute one function of their arguments.
-/
import proofs.«157537_j39161511805099_1_alg».proof.Proof.Spec
import proofs.«157537_j39161511805099_1_alg».proof.Proof.Layer
import proofs.«157537_j39161511805099_1_alg».proof.Proof.Pool

noncomputable section

namespace Cert.GCN

open Idealize.ShloMosaic
open Cert.ReferenceIdeal

/-- Layer by layer (the factor `dis` is a non-negative real whatever the edge list), then the pooled projection. -/
theorem kernelOut_eq_refOut (x : FVec Ideal S50000x4 .f32) (e : IVec S2x1000000 32) (batch : IVec S50000 32) (W1 : FVec Ideal S4x64 .f32)
    (b1 : FVec Ideal S64 .f32) (W2 : FVec Ideal S64x64 .f32) (b2 : FVec Ideal S64 .f32) (W3 : FVec Ideal S64x1 .f32)
    (b3 : FVec Ideal S1 .f32) : kernelOut x e batch W1 b1 W2 b2 W3 b3 = refOut x e batch W1 b1 W2 b2 W3 b3 := by
  unfold kernelOut refOut
  rw [layer_eq _ _ _ _ b1 (dis_nonneg _), layer_eq _ _ _ _ b2 (dis_nonneg _), pool_eq]

end Cert.GCN

end
-- ==== Proof.lean ====
/-
  The certificate. A two-layer graph convolution with mean pooling, computed by five dense regions between host
  gathers and scatters, against the same network written with per-edge normalisation factors.

  The frames of the two kernel programs are the generated ones. The reference is a straight line of host
  operations (Proof/ROps.lean), so its run is the fold of those operations and its arguments are never written.
  The value: the kernel program's result buffer ends at `GCN.kernelOut` of the arguments (the run re-posted with
  the result kept, Proof/KRun.lean; the boundaries read back stretch by stretch and region by region,
  Proof/KFoldA.lean, Proof/KFoldB.lean over Proof/KReg0.lean … KReg4.lean); the reference's ends at `GCN.refOut`
  (Proof/RFold.lean); and the two are one function (Proof/Equiv.lean): layer by layer a sum of messages scaled by
  `dis (d j)` is the sum scaled once by `dis n`, because `dis` is a non-negative real at every node, and the
  pooled projection is spelt the same at every element. The precondition is not used: the identity holds at
  every extended real.
-/
import proofs.«157537_j39161511805099_1_alg».proof.Defs
import proofs.«157537_j39161511805099_1_alg».proof.Proof.Gen.Kernel
import proofs.«157537_j39161511805099_1_alg».proof.Proof.Gen.Kernel.Frame
import proofs.«157537_j39161511805099_1_alg».proof.Proof.Gen.KernelIdeal
import proofs.«157537_j39161511805099_1_alg».proof.Proof.Gen.KernelIdeal.Frame
import proofs.«157537_j39161511805099_1_alg».proof.Proof.Gen.ReferenceIdeal
import proofs.«157537_j39161511805099_1_alg».proof.Proof.Gen.Pre_finite_inputs
import proofs.«157537_j39161511805099_1_alg».proof.Proof.KRun
import proofs.«157537_j39161511805099_1_alg».proof.Proof.KFoldB
import proofs.«157537_j39161511805099_1_alg».proof.Proof.ROps
import proofs.«157537_j39161511805099_1_alg».proof.Proof.RFold
import proofs.«157537_j39161511805099_1_alg».proof.Proof.Equiv
import Idealize.ShloMosaic.Adequacy
import Idealize.ShloMosaic.Init

noncomputable section

namespace Cert.Proof

open Idealize.ShloMosaic Idealize.ShloMosaic.TcCoe Idealize.SL.Sem Idealize.ShloMosaic.StableHlo

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

/-- The reference writes none of its arguments: each is the fold at its buffer, which no operation touches. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefRun.arg0_eq _),
     (h c Cert.ReferenceIdeal.main_arg1).trans (Cert.ReferenceIdeal.RefRun.arg1_eq _),
     (h c Cert.ReferenceIdeal.main_arg2).trans (Cert.ReferenceIdeal.RefRun.arg2_eq _),
     (h c Cert.ReferenceIdeal.main_arg3).trans (Cert.ReferenceIdeal.RefRun.arg3_eq _),
     (h c Cert.ReferenceIdeal.main_arg4).trans (Cert.ReferenceIdeal.RefRun.arg4_eq _),
     (h c Cert.ReferenceIdeal.main_arg5).trans (Cert.ReferenceIdeal.RefRun.arg5_eq _),
     (h c Cert.ReferenceIdeal.main_arg6).trans (Cert.ReferenceIdeal.RefRun.arg6_eq _),
     (h c Cert.ReferenceIdeal.main_arg7).trans (Cert.ReferenceIdeal.RefRun.arg7_eq _),
     (h c Cert.ReferenceIdeal.main_arg8).trans (Cert.ReferenceIdeal.RefRun.arg8_eq _)⟩)
    (Cert.ReferenceIdeal.RefRun.run_fold (F := Ideal) m ρ)

theorem preserves : Cert.preserves_Kernel_KernelIdeal := trivial

/-- Both runs end with the result at one function of arguments that agree. -/
theorem algebraic : Cert.algebraic_KernelIdeal_ReferenceIdeal := by
  intro m ρ m' ρ' _ hagree
  refine ⟨fun c => Cert.GCN.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.RegVal.result_eq m ρ c), (h c).2⟩)
      (Cert.KernelIdeal.Gen.run_result (F := Ideal) m ρ)
  · refine (θ_run Cert.ReferenceIdeal.defs _ _).mono (fun r h c => ⟨?_,
      (h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _),
      (h c Cert.ReferenceIdeal.main_arg3).trans (Cert.ReferenceIdeal.RefRun.arg3_eq _),
      (h c Cert.ReferenceIdeal.main_arg4).trans (Cert.ReferenceIdeal.RefRun.arg4_eq _),
      (h c Cert.ReferenceIdeal.main_arg5).trans (Cert.ReferenceIdeal.RefRun.arg5_eq _),
      (h c Cert.ReferenceIdeal.main_arg6).trans (Cert.ReferenceIdeal.RefRun.arg6_eq _),
      (h c Cert.ReferenceIdeal.main_arg7).trans (Cert.ReferenceIdeal.RefRun.arg7_eq _),
      (h c Cert.ReferenceIdeal.main_arg8).trans (Cert.ReferenceIdeal.RefRun.arg8_eq _)⟩)
      (Cert.ReferenceIdeal.RefRun.run_fold (F := Ideal) m' ρ')
    refine ((h c Cert.ReferenceIdeal.main_v111).trans (Cert.ReferenceIdeal.RefRun.result_eq _)).trans ?_
    show Cert.GCN.refOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) = _
    obtain ⟨e0, e1, e2, e3, e4, e5, e6, e7, e8⟩ := hagree c
    rw [e0, e1, e2, e3, e4, e5, e6, e7, e8]
    exact (Cert.GCN.kernelOut_eq_refOut _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
